-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x96x96 : Shape := ⟨4, ![1, 32, 96, 96]⟩
abbrev S_ : Shape := ⟨0, ![]⟩

class Facts : Prop where
  bcast_S_S1x32x96x96 : S_.BroadcastsInDim S1x32x96x96 (![] : Fin 0 → Fin S1x32x96x96.rank)
  reducesTo_S1x32x96x96_S_d0_1_2_3 : S1x32x96x96.ReducesTo [0, 1, 2, 3] S_
  h_S_ : 0 < S_.numel

variable [Facts]

def fn {F : FTy → Type} [FloatOps F] (main_arg0 : FVec F S1x32x96x96 .f32) : IVec S_ 1 :=
  let main_v0 : FVec F S1x32x96x96 .f32 := Host.absf main_arg0
  let main_cst : FVec F S_ .f32 := constant S_ .f32 0x7F800000#32
  let main_v1 : FVec F S1x32x96x96 .f32 := broadcastInDim S1x32x96x96 ![] bcast_S_S1x32x96x96 main_cst
  let main_v2 : IVec S1x32x96x96 1 := cmpf .olt main_v0 main_v1
  let main_c : IVec S_ 1 := constantI S_ 1 1#1
  let main_v3 : IVec S_ 1 := (fun x v => Host.reduce IntOp.andi x v reducesTo_S1x32x96x96_S_d0_1_2_3 h_S_) main_v2 main_c
  main_v3
-- ==== Kernel.lean ====
abbrev S1x32x96x96 : Shape := ⟨4, ![1, 32, 96, 96]⟩
abbrev S32x9216 : Shape := ⟨2, ![32, 9216]⟩
abbrev S32x1152 : Shape := ⟨2, ![32, 1152]⟩
abbrev S1x1152 : Shape := ⟨2, ![1, 1152]⟩
abbrev S1152x1152 : Shape := ⟨2, ![1152, 1152]⟩
abbrev S1152 : Shape := ⟨1, ![1152]⟩
abbrev S32x96x96 : Shape := ⟨3, ![32, 96, 96]⟩
abbrev S3x32x96x96 : Shape := ⟨4, ![3, 32, 96, 96]⟩

abbrev nBuf : Space → Nat
  | .hbm => 13
  | .vmem => 24
  | .smem => 0
  | _ => 0

abbrev bufTy : (tb : Table) → Fin (tcTables nBuf tb) → BufTy
  | .hbm, ⟨0, _⟩ => ⟨S1x32x96x96, .f32⟩
  | .hbm, ⟨1, _⟩ => ⟨S32x9216, .f32⟩
  | .hbm, ⟨2, _⟩ => ⟨S32x9216, .f32⟩
  | .hbm, ⟨3, _⟩ => ⟨S32x96x96, .f32⟩
  | .hbm, ⟨4, _⟩ => ⟨S32x9216, .f32⟩
  | .hbm, ⟨5, _⟩ => ⟨S32x96x96, .f32⟩
  | .hbm, ⟨6, _⟩ => ⟨S32x9216, .f32⟩
  | .hbm, ⟨7, _⟩ => ⟨S32x96x96, .f32⟩
  | .hbm, ⟨8, _⟩ => ⟨S32x96x96, .f32⟩
  | .hbm, ⟨9, _⟩ => ⟨S1x32x96x96, .f32⟩
  | .hbm, ⟨10, _⟩ => ⟨S1x32x96x96, .f32⟩
  | .hbm, ⟨11, _⟩ => ⟨S1x32x96x96, .f32⟩
  | .hbm, ⟨12, _⟩ => ⟨S3x32x96x96, .f32⟩
  | .local _ .vmem, ⟨0, _⟩ => ⟨S32x1152, .f32⟩
  | .local _ .vmem, ⟨1, _⟩ => ⟨S32x1152, .f32⟩
  | .local _ .vmem, ⟨2, _⟩ => ⟨S32x1152, .f32⟩
  | .local _ .vmem, ⟨3, _⟩ => ⟨S32x1152, .f32⟩
  | .local _ .vmem, ⟨4, _⟩ => ⟨S32x1152, .f32⟩
  | .local _ .vmem, ⟨5, _⟩ => ⟨S32x1152, .f32⟩
  | .local _ .vmem, ⟨6, _⟩ => ⟨S32x1152, .f32⟩
  | .local _ .vmem, ⟨7, _⟩ => ⟨S1x1152, .f32⟩
  | .local _ .vmem, ⟨8, _⟩ => ⟨S32x1152, .f32⟩
  | .local _ .vmem, ⟨9, _⟩ => ⟨S32x1152, .f32⟩
  | .local _ .vmem, ⟨10, _⟩ => ⟨S32x1152, .f32⟩
  | .local _ .vmem, ⟨11, _⟩ => ⟨S32x1152, .f32⟩
  | .local _ .vmem, ⟨12, _⟩ => ⟨S32x1152, .f32⟩
  | .local _ .vmem, ⟨13, _⟩ => ⟨S32x1152, .f32⟩
  | .local _ .vmem, ⟨14, _⟩ => ⟨S32x1152, .f32⟩
  | .local _ .vmem, ⟨15, _⟩ => ⟨S1x1152, .f32⟩
  | .local _ .vmem, ⟨16, _⟩ => ⟨S32x1152, .f32⟩
  | .local _ .vmem, ⟨17, _⟩ => ⟨S32x1152, .f32⟩
  | .local _ .vmem, ⟨18, _⟩ => ⟨S32x1152, .f32⟩
  | .local _ .vmem, ⟨19, _⟩ => ⟨S32x1152, .f32⟩
  | .local _ .vmem, ⟨20, _⟩ => ⟨S32x1152, .f32⟩
  | .local _ .vmem, ⟨21, _⟩ => ⟨S32x1152, .f32⟩
  | .local _ .vmem, ⟨22, _⟩ => ⟨S32x1152, .f32⟩
  | .local _ .vmem, ⟨23, _⟩ => ⟨S1x1152, .f32⟩
  | _, _ => ⟨S1x32x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_scratch0 : Ref sig .tc := ⟨.vmem, 22, rfl⟩
abbrev cc2_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_15 : BitVec 32 := 0#32
  let v26 : BitVec 1 := Scalar.cmpi .ne v25 c0_i32_15
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S32x1152 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x1152 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S32x1152 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_15 : BitVec 32 := 0#32
  let v26 : BitVec 1 := Scalar.cmpi .ne v25 c0_i32_15
  v26

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S32x1152 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S32x1152 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S32x1152 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  shapeCasts_S1x32x96x96_S32x9216 : S1x32x96x96.ShapeCasts S32x9216
  inb_S32x1152_S32x1152_0_0 : ∀ a, (![0, 0] : Fin 2 → Nat) a + S32x1152.size a ≤ S32x1152.size a
  h_S32x1152 : 0 < S32x1152.numel
  shapeCasts_S32x1152_S32x1152 : S32x1152.ShapeCasts S32x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  reduces_S1152x1152_S1152 : S1152x1152.Reduces [0] S1152
  shapeCasts_S1152_S1x1152 : S1152.ShapeCasts S1x1152
  broadcasts_S1x1152_S32x1152 : S1x1152.Broadcasts S32x1152
  shapeCasts_S32x9216_S32x96x96 : S32x9216.ShapeCasts S32x96x96
  bcast_S32x96x96_S1x32x96x96_1_2_3 : S32x96x96.BroadcastsInDim S1x32x96x96 (![1, 2, 3] : Fin 3 → Fin S1x32x96x96.rank)
  concatenates_S1x32x96x96_S1x32x96x96_S1x32x96x96_S3x32x96x96_d0 : Shape.Concatenates [S1x32x96x96, S1x32x96x96, S1x32x96x96] S3x32x96x96 0
  dot_S32x1152_S32x1152_S1152x1152_0_0_1_1_n_n_wf : DotDims.WF S32x1152 S32x1152 S1152x1152 [0] [0] [1] [1] [] []
  dot_S32x1152_S1152x1152_S32x1152_1_0_0_1_n_n_wf : DotDims.WF S32x1152 S1152x1152 S32x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1152.size a ≤ S32x9216.size a
  hwx0_0 : ∀ i : grid0.Coords, EltTy.bits .f32 = 32 ∨ (Rect.block (s := S32x9216) S32x1152.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1152.size a ≤ S32x9216.size a
  hwx0_1 : ∀ i : grid0.Coords, EltTy.bits .f32 = 32 ∨ (Rect.block (s := S32x9216) S32x1152.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1152.size a ≤ S32x9216.size a
  hwx0_2 : ∀ i : grid0.Coords, EltTy.bits .f32 = 32 ∨ (Rect.block (s := S32x9216) S32x1152.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x1152.size a ≤ S32x9216.size a
  hwx1_0 : ∀ i : grid1.Coords, EltTy.bits .f32 = 32 ∨ (Rect.block (s := S32x9216) S32x1152.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1152.size a ≤ S32x9216.size a
  hwx1_1 : ∀ i : grid1.Coords, EltTy.bits .f32 = 32 ∨ (Rect.block (s := S32x9216) S32x1152.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x1152.size a ≤ S32x9216.size a
  hwx1_2 : ∀ i : grid1.Coords, EltTy.bits .f32 = 32 ∨ (Rect.block (s := S32x9216) S32x1152.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x1152.size a ≤ S32x9216.size a
  hwx2_0 : ∀ i : grid2.Coords, EltTy.bits .f32 = 32 ∨ (Rect.block (s := S32x9216) S32x1152.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x1152.size a ≤ S32x9216.size a
  hwx2_1 : ∀ i : grid2.Coords, EltTy.bits .f32 = 32 ∨ (Rect.block (s := S32x9216) S32x1152.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x1152.size a ≤ S32x9216.size a
  hwx2_2 : ∀ i : grid2.Coords, EltTy.bits .f32 = 32 ∨ (Rect.block (s := S32x9216) S32x1152.size (cc2_transform_2 i) (hinb2_2 i)).WholeWords (EltTy.packing .f32)

variable [Facts₀]

def dot_S32x1152_S32x1152_S1152x1152_0_0_1_1_n_n : DotDims S32x1152 S32x1152 S1152x1152 where
  lhsContracting := [0]
  rhsContracting := [0]
  lhsNonContracting := [1]
  rhsNonContracting := [1]
  lhsBatch := []
  rhsBatch := []
  wf := dot_S32x1152_S32x1152_S1152x1152_0_0_1_1_n_n_wf
def dot_S32x1152_S1152x1152_S32x1152_1_0_0_1_n_n : DotDims S32x1152 S1152x1152 S32x1152 where
  lhsContracting := [1]
  rhsContracting := [0]
  lhsNonContracting := [0]
  rhsNonContracting := [1]
  lhsBatch := []
  rhsBatch := []
  wf := dot_S32x1152_S1152x1152_S32x1152_1_0_0_1_n_n_wf

abbrev win0_0 : Pipeline.Window sig grid0 :=
  Pipeline.Window.ofSpec (Memref.whole main_v0) S32x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1152.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1152.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S32x1152.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S32x1152.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S32x1152.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v3) S32x1152.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S32x1152.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S32x1152.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S1x32x96x96 : Shape := ⟨4, ![1, 32, 96, 96]⟩
abbrev S32x9216 : Shape := ⟨2, ![32, 9216]⟩
abbrev S9216x32 : Shape := ⟨2, ![9216, 32]⟩
abbrev S9216x9216 : Shape := ⟨2, ![9216, 9216]⟩
abbrev S_ : Shape := ⟨0, ![]⟩
abbrev S9216 : Shape := ⟨1, ![9216]⟩
abbrev S1x9216 : Shape := ⟨2, ![1, 9216]⟩
abbrev S32x96x96 : Shape := ⟨3, ![32, 96, 96]⟩
abbrev S3x32x96x96 : Shape := ⟨4, ![3, 32, 96, 96]⟩

abbrev nBuf : Space → Nat
  | .hbm => 67
  | .vmem => 0
  | .smem => 0
  | _ => 0

abbrev bufTy : (tb : Table) → Fin (tcTables nBuf tb) → BufTy
  | .hbm, ⟨0, _⟩ => ⟨S1x32x96x96, .f32⟩
  | .hbm, ⟨1, _⟩ => ⟨S32x9216, .f32⟩
  | .hbm, ⟨2, _⟩ => ⟨S9216x32, .f32⟩
  | .hbm, ⟨3, _⟩ => ⟨S9216x9216, .f32⟩
  | .hbm, ⟨4, _⟩ => ⟨S_, .f32⟩
  | .hbm, ⟨5, _⟩ => ⟨S9216x9216, .f32⟩
  | .hbm, ⟨6, _⟩ => ⟨S9216x9216, .f32⟩
  | .hbm, ⟨7, _⟩ => ⟨S9216x9216, .f32⟩
  | .hbm, ⟨8, _⟩ => ⟨S_, .f32⟩
  | .hbm, ⟨9, _⟩ => ⟨S9216, .f32⟩
  | .hbm, ⟨10, _⟩ => ⟨S32x9216, .f32⟩
  | .hbm, ⟨11, _⟩ => ⟨S_, .f32⟩
  | .hbm, ⟨12, _⟩ => ⟨S32x9216, .f32⟩
  | .hbm, ⟨13, _⟩ => ⟨S32x9216, .f32⟩
  | .hbm, ⟨14, _⟩ => ⟨S1x9216, .f32⟩
  | .hbm, ⟨15, _⟩ => ⟨S32x9216, .f32⟩
  | .hbm, ⟨16, _⟩ => ⟨S32x9216, .f32⟩
  | .hbm, ⟨17, _⟩ => ⟨S_, .f32⟩
  | .hbm, ⟨18, _⟩ => ⟨S32x9216, .f32⟩
  | .hbm, ⟨19, _⟩ => ⟨S32x9216, .f32⟩
  | .hbm, ⟨20, _⟩ => ⟨S32x9216, .f32⟩
  | .hbm, ⟨21, _⟩ => ⟨S32x96x96, .f32⟩
  | .hbm, ⟨22, _⟩ => ⟨S9216x32, .f32⟩
  | .hbm, ⟨23, _⟩ => ⟨S9216x9216, .f32⟩
  | .hbm, ⟨24, _⟩ => ⟨S_, .f32⟩
  | .hbm, ⟨25, _⟩ => ⟨S9216x9216, .f32⟩
  | .hbm, ⟨26, _⟩ => ⟨S9216x9216, .f32⟩
  | .hbm, ⟨27, _⟩ => ⟨S9216x9216, .f32⟩
  | .hbm, ⟨28, _⟩ => ⟨S_, .f32⟩
  | .hbm, ⟨29, _⟩ => ⟨S9216, .f32⟩
  | .hbm, ⟨30, _⟩ => ⟨S32x9216, .f32⟩
  | .hbm, ⟨31, _⟩ => ⟨S_, .f32⟩
  | .hbm, ⟨32, _⟩ => ⟨S32x9216, .f32⟩
  | .hbm, ⟨33, _⟩ => ⟨S32x9216, .f32⟩
  | .hbm, ⟨34, _⟩ => ⟨S1x9216, .f32⟩
  | .hbm, ⟨35, _⟩ => ⟨S32x9216, .f32⟩
  | .hbm, ⟨36, _⟩ => ⟨S32x9216, .f32⟩
  | .hbm, ⟨37, _⟩ => ⟨S_, .f32⟩
  | .hbm, ⟨38, _⟩ => ⟨S32x9216, .f32⟩
  | .hbm, ⟨39, _⟩ => ⟨S32x9216, .f32⟩
  | .hbm, ⟨40, _⟩ => ⟨S32x9216, .f32⟩
  | .hbm, ⟨41, _⟩ => ⟨S32x96x96, .f32⟩
  | .hbm, ⟨42, _⟩ => ⟨S9216x32, .f32⟩
  | .hbm, ⟨43, _⟩ => ⟨S9216x9216, .f32⟩
  | .hbm, ⟨44, _⟩ => ⟨S_, .f32⟩
  | .hbm, ⟨45, _⟩ => ⟨S9216x9216, .f32⟩
  | .hbm, ⟨46, _⟩ => ⟨S9216x9216, .f32⟩
  | .hbm, ⟨47, _⟩ => ⟨S9216x9216, .f32⟩
  | .hbm, ⟨48, _⟩ => ⟨S_, .f32⟩
  | .hbm, ⟨49, _⟩ => ⟨S9216, .f32⟩
  | .hbm, ⟨50, _⟩ => ⟨S32x9216, .f32⟩
  | .hbm, ⟨51, _⟩ => ⟨S_, .f32⟩
  | .hbm, ⟨52, _⟩ => ⟨S32x9216, .f32⟩
  | .hbm, ⟨53, _⟩ => ⟨S32x9216, .f32⟩
  | .hbm, ⟨54, _⟩ => ⟨S1x9216, .f32⟩
  | .hbm, ⟨55, _⟩ => ⟨S32x9216, .f32⟩
  | .hbm, ⟨56, _⟩ => ⟨S32x9216, .f32⟩
  | .hbm, ⟨57, _⟩ => ⟨S_, .f32⟩
  | .hbm, ⟨58, _⟩ => ⟨S32x9216, .f32⟩
  | .hbm, ⟨59, _⟩ => ⟨S32x9216, .f32⟩
  | .hbm, ⟨60, _⟩ => ⟨S32x9216, .f32⟩
  | .hbm, ⟨61, _⟩ => ⟨S32x96x96, .f32⟩
  | .hbm, ⟨62, _⟩ => ⟨S32x96x96, .f32⟩
  | .hbm, ⟨63, _⟩ => ⟨S1x32x96x96, .f32⟩
  | .hbm, ⟨64, _⟩ => ⟨S1x32x96x96, .f32⟩
  | .hbm, ⟨65, _⟩ => ⟨S1x32x96x96, .f32⟩
  | .hbm, ⟨66, _⟩ => ⟨S3x32x96x96, .f32⟩
  | _, _ => ⟨S1x32x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_6 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_7 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_8 : Ref sig .tc := ⟨.hbm, 48, rfl⟩
abbrev main_v38 : Ref sig .tc := ⟨.hbm, 49, rfl⟩
abbrev main_v39 : Ref sig .tc := ⟨.hbm, 50, rfl⟩
abbrev main_cst_9 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_10 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]

class Facts₀ : Prop where
  shapeCasts_S1x32x96x96_S32x9216 : S1x32x96x96.ShapeCasts S32x9216
  transposes_S32x9216_S9216x32_1_0 : S32x9216.Transposes [1, 0] S9216x32
  bcast_S_S9216x9216 : S_.BroadcastsInDim S9216x9216 (![] : Fin 0 → Fin S9216x9216.rank)
  reducesTo_S9216x9216_S9216_d0 : S9216x9216.ReducesTo [0] S9216
  h_S_ : 0 < S_.numel
  bcast_S_S32x9216 : S_.BroadcastsInDim S32x9216 (![] : Fin 0 → Fin S32x9216.rank)
  bcast_S9216_S1x9216_1 : S9216.BroadcastsInDim S1x9216 (![1] : Fin 1 → Fin S1x9216.rank)
  bcast_S1x9216_S32x9216_0_1 : S1x9216.BroadcastsInDim S32x9216 (![0, 1] : Fin 2 → Fin S32x9216.rank)
  shapeCasts_S32x9216_S32x96x96 : S32x9216.ShapeCasts S32x96x96
  bcast_S32x96x96_S1x32x96x96_1_2_3 : S32x96x96.BroadcastsInDim S1x32x96x96 (![1, 2, 3] : Fin 3 → Fin S1x32x96x96.rank)
  concatenates_S1x32x96x96_S1x32x96x96_S1x32x96x96_S3x32x96x96_d0 : Shape.Concatenates [S1x32x96x96, S1x32x96x96, S1x32x96x96] S3x32x96x96 0
  dot_S9216x32_S32x9216_S9216x9216_1_0_0_1_n_n_wf : DotDims.WF S9216x32 S32x9216 S9216x9216 [1] [0] [0] [1] [] []
  dot_S32x9216_S9216x9216_S32x9216_1_0_0_1_n_n_wf : DotDims.WF S32x9216 S9216x9216 S32x9216 [1] [0] [0] [1] [] []

variable [Facts₀]

def dot_S9216x32_S32x9216_S9216x9216_1_0_0_1_n_n : DotDims S9216x32 S32x9216 S9216x9216 where
  lhsContracting := [1]
  rhsContracting := [0]
  lhsNonContracting := [0]
  rhsNonContracting := [1]
  lhsBatch := []
  rhsBatch := []
  wf := dot_S9216x32_S32x9216_S9216x9216_1_0_0_1_n_n_wf
def dot_S32x9216_S9216x9216_S32x9216_1_0_0_1_n_n : DotDims S32x9216 S9216x9216 S32x9216 where
  lhsContracting := [1]
  rhsContracting := [0]
  lhsNonContracting := [0]
  rhsNonContracting := [1]
  lhsBatch := []
  rhsBatch := []
  wf := dot_S32x9216_S9216x9216_S32x9216_1_0_0_1_n_n_wf

class Facts : Prop extends Facts₀ where

variable [Facts]
-- ==== Proof.KB.Body0.lean ====
import proofs.«135566_j39496519254112_1_alg».proof.Proof.Gen.Kernel.Skeleton
import proofs.«135566_j39496519254112_1_alg».proof.Proof.Gen.Kernel.Launch
import Idealize.ShloMosaic.Lib.Pipeline.FrameBody
import Idealize.ShloMosaic.Lib.Pipeline.Value
import Idealize.ShloMosaic.Lib.Tactic

/-!
# The body of a mean-shift step's pallas_call, one grid point

A grid point is a pair (q, k): the q-th tile of 1152 output columns and the k-th tile of 1152
source columns. The body holds two accumulators in scratch: `num` (32 x 1152) and `den` (1 x 1152).
At k = 0 both are reset to zero; at every k the tile's affinities `exp (3 * <x_i, x_j>)` are
summed into `den` over the rows i of the k-tile and `x_k * affinities` is added to `num`;
at k = 7 the output block `1/2 * (num / den) + 1/2 * x_q` is stored.

The three theorems below run the body in each of the three control cases and name what it
leaves in the two accumulators and, at k = 7, in the output's buffer, as the printed arithmetic
(`k0_pay6`, `k0_pay7`, `k0_pay8`) of what it found.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, and what whole-buffer loads and stores read -/

/-- The first conditional's test holds exactly at source tile 0. -/
theorem body0_cond1_iff (i : grid0.Coords) :
    (Scalar.cmpi .ne (Scalar.extui (Scalar.cmpi .eq (BitVec.ofNat 32 (i 1).val) 0#32)) 0#32 = 1#1) ↔ (i 1).val = 0 :=
  (by decide : ∀ k : Fin 8,
    (Scalar.cmpi .ne (Scalar.extui (Scalar.cmpi .eq (BitVec.ofNat 32 k.val) 0#32)) 0#32 = 1#1) ↔ k.val = 0) (i 1)

/-- The second conditional's test holds exactly at source tile 7. -/
theorem body0_cond2_iff (i : grid0.Coords) : (k0_cond2 i = 1#1) ↔ (i 1).val = 7 :=
  (by decide : ∀ k : Fin 8,
    (Scalar.cmpi .ne (Scalar.extui (Scalar.cmpi .eq (BitVec.ofNat 32 k.val) 7#32)) 0#32 = 1#1) ↔ k.val = 7) (i 1)

/-- The two zero offsets, however spelt. -/
private theorem hz : (![0, 0] : Fin 2 → Nat) = fun _ => 0 := by funext a; fin_cases a <;> rfl

section
variable {Val : EltTy → Type} [∀ e, Nonempty (Val e)] {sg : RefSig} {κ : Kind} {sp : Space} {S : Shape} {e : EltTy}

/-- A buffer whose last store went through the whole-shape rectangle reads as that store's payload. -/
private theorem read_writes_cons_unit_zero (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-shape rectangle reads the buffer's contents. -/
private theorem readAt_unit_zero (v : View sg κ sp S e) (f : v.ty.Contents Val) {off : Fin S.rank → Nat}
    (h : off = fun _ => 0) (inb : ∀ a, off a + S.size a ≤ S.size a) :
    v.readAt Val (Rect.unit off S.size inb).toLoadRect f = v.read Val f := by
  rw [View.readAt_eq_ld, View.ld_unit_zero h]
end

set_option maxHeartbeats 1000000 in
/-- First source tile (k = 0): the accumulators are reset, then take the tile's contribution. -/
theorem body0_first (c : Dev nD) (i : grid0.Coords) (hk : (i 1).val = 0)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk o : Vec F S32x1152 .f32) (K : PUnit → sProp 𝕄) :
    iprop(owns (c : Thread nD τ) arg2 fullShare xq ∗ owns (c : Thread nD τ) arg3 fullShare xk ∗ owns (c : Thread nD τ) arg4 fullShare o
        ∗ (∃ n, owns (c : Thread nD τ) arg5 fullShare n) ∗ (∃ d, owns (c : Thread nD τ) arg6 fullShare d)
        ∗ (iprop(owns (c : Thread nD τ) arg2 fullShare xq ∗ owns (c : Thread nD τ) arg3 fullShare xk ∗ owns (c : Thread nD τ) arg4 fullShare o
            ∗ owns (c : Thread nD τ) arg5 fullShare (k0_pay7 xq xk (k0_pay1 (F := F)))
            ∗ owns (c : Thread nD τ) arg6 fullShare (k0_pay6 xq xk (k0_pay2 (F := F)))) -∗ K ⟨⟩))
      ⊢ wp frame (wpE (defs₀ (F := F)) Variants.none c none) Set.univ
          (cc0__ms_iter_kernel i arg2 harg2 arg3 harg3 arg4 harg4 arg5 harg5 arg6 harg6) K := by
  have hc1 : (Scalar.cmpi .ne (Scalar.extui (Scalar.cmpi .eq (BitVec.ofNat 32 (i 1).val) 0#32)) 0#32 = 1#1) := (body0_cond1_iff i).2 hk
  have hc2 : ¬ (k0_cond2 i = 1#1) := fun h => by
    have := (body0_cond2_iff i).1 h; omega
  simp only [cc0__ms_iter_kernel_eq_skeleton]; unfold cc0__ms_iter_kernel_skel
  unfold owns
  iintro ⟨⟨%f2, %hf2, H2⟩, ⟨%f3, %hf3, H3⟩, ⟨%f4, %hf4, H4⟩, ⟨%n, %f5, -, H5⟩, ⟨%d, %f6, -, H6⟩, Hk⟩
  subst hf2 hf3 hf4
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; (· iexact H5)
    ipureintro
    sl_unfold_run_names
    rw [read_writes_cons_unit_zero _ _ hz, View.readCov_unit_zero _ hz]
    simp only [readAt_unit_zero (S := S32x1152) _ _ hz, readAt_unit_zero (S := S1x1152) _ _ hz]
  iexists _; isplitr; swap; (· iexact H6)
  ipureintro
  sl_unfold_run_names
  rw [read_writes_cons_unit_zero _ _ hz, View.readCov_unit_zero _ hz]
  simp only [readAt_unit_zero (S := S32x1152) _ _ hz, readAt_unit_zero (S := S1x1152) _ _ hz]

set_option maxHeartbeats 1000000 in
/-- A middle source tile (0 < k < 7): the accumulators take the tile's contribution. -/
theorem body0_mid (c : Dev nD) (i : grid0.Coords) (hk0 : (i 1).val ≠ 0) (hk7 : (i 1).val ≠ 7)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk o n : Vec F S32x1152 .f32) (d : Vec F S1x1152 .f32) (K : PUnit → sProp 𝕄) :
    iprop(owns (c : Thread nD τ) arg2 fullShare xq ∗ owns (c : Thread nD τ) arg3 fullShare xk ∗ owns (c : Thread nD τ) arg4 fullShare o
        ∗ owns (c : Thread nD τ) arg5 fullShare n ∗ owns (c : Thread nD τ) arg6 fullShare d
        ∗ (iprop(owns (c : Thread nD τ) arg2 fullShare xq ∗ owns (c : Thread nD τ) arg3 fullShare xk ∗ owns (c : Thread nD τ) arg4 fullShare o
            ∗ owns (c : Thread nD τ) arg5 fullShare (k0_pay7 xq xk n)
            ∗ owns (c : Thread nD τ) arg6 fullShare (k0_pay6 xq xk d)) -∗ K ⟨⟩))
      ⊢ wp frame (wpE (defs₀ (F := F)) Variants.none c none) Set.univ
          (cc0__ms_iter_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) :=
    fun h => hk0 ((body0_cond1_iff i).1 h)
  have hc2 : ¬ (k0_cond2 i = 1#1) := fun h => hk7 ((body0_cond2_iff i).1 h)
  simp only [cc0__ms_iter_kernel_eq_skeleton]; unfold cc0__ms_iter_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2 hf3 hf4 hf5 hf6
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; (· iexact H5)
    ipureintro
    rw [read_writes_cons_unit_zero _ _ hz]
    simp only [readAt_unit_zero (S := S32x1152) _ _ hz, readAt_unit_zero (S := S1x1152) _ _ hz]
  iexists _; isplitr; swap; (· iexact H6)
  ipureintro
  rw [read_writes_cons_unit_zero _ _ hz]
  simp only [readAt_unit_zero (S := S32x1152) _ _ hz, readAt_unit_zero (S := S1x1152) _ _ hz]

set_option maxHeartbeats 1000000 in
/-- The last source tile (k = 7): the accumulators take the tile's contribution and the output
    block is stored from them. -/
theorem body0_last (c : Dev nD) (i : grid0.Coords) (hk : (i 1).val = 7)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk n : Vec F S32x1152 .f32) (d : Vec F S1x1152 .f32) (K : PUnit → sProp 𝕄) :
    iprop(owns (c : Thread nD τ) arg2 fullShare xq ∗ owns (c : Thread nD τ) arg3 fullShare xk ∗ (∃ o, owns (c : Thread nD τ) arg4 fullShare o)
        ∗ owns (c : Thread nD τ) arg5 fullShare n ∗ owns (c : Thread nD τ) arg6 fullShare d
        ∗ (iprop(owns (c : Thread nD τ) arg2 fullShare xq ∗ owns (c : Thread nD τ) arg3 fullShare xk
            ∗ owns (c : Thread nD τ) arg4 fullShare (k0_pay8 xq (k0_pay6 xq xk d) (k0_pay7 xq xk n))
            ∗ owns (c : Thread nD τ) arg5 fullShare (k0_pay7 xq xk n)
            ∗ owns (c : Thread nD τ) arg6 fullShare (k0_pay6 xq xk d)) -∗ K ⟨⟩))
      ⊢ wp frame (wpE (defs₀ (F := F)) Variants.none c none) Set.univ
          (cc0__ms_iter_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) := fun h => by
    have := (body0_cond1_iff i).1 h; omega
  have hc2 : k0_cond2 i = 1#1 := (body0_cond2_iff i).2 hk
  simp only [cc0__ms_iter_kernel_eq_skeleton]; unfold cc0__ms_iter_kernel_skel
  unfold owns
  iintro ⟨⟨%f2, %hf2, H2⟩, ⟨%f3, %hf3, H3⟩, ⟨%o, %f4, -, H4⟩, ⟨%f5, %hf5, H5⟩, ⟨%f6, %hf6, H6⟩, Hk⟩
  subst hf2 hf3 hf5 hf6
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_run_names
    rw [read_writes_cons_unit_zero _ _ hz, View.readCov_unit_zero _ hz, View.readCov_unit_zero _ hz]
    simp only [readAt_unit_zero (S := S32x1152) _ _ hz, readAt_unit_zero (S := S1x1152) _ _ hz]
  isplitl [H5]
  · iexists _; isplitr; swap; (· iexact H5)
    ipureintro
    sl_unfold_run_names
    rw [read_writes_cons_unit_zero _ _ hz]
    simp only [readAt_unit_zero (S := S32x1152) _ _ hz, readAt_unit_zero (S := S1x1152) _ _ hz]
  iexists _; isplitr; swap; (· iexact H6)
  ipureintro
  sl_unfold_run_names
  rw [read_writes_cons_unit_zero _ _ hz]
  simp only [readAt_unit_zero (S := S32x1152) _ _ hz, readAt_unit_zero (S := S1x1152) _ _ hz]

end Cert.Kernel.Hand

end
-- ==== Proof.KB.Dat0.lean ====
import proofs.«135566_j39496519254112_1_alg».proof.Proof.KB.Body0
import proofs.«135566_j39496519254112_1_alg».proof.Proof.Gen.Kernel.Points
import Idealize.ShloMosaic.Lib.Pipeline.FrameBody
import Idealize.ShloMosaic.Lib.Pipeline.Frame

/-!
# A mean-shift step's pallas_call as a pipeline: what every buffer holds, point by point

The grid is 8 x 8, the point `t` being (q, k) = (t / 8, t % 8). Window 0 stages the q-th column
tile of `x`, window 1 the k-th, both out of ONE array; window 2 is the q-th column tile of the
result, stored at k = 7 only. Between points the two accumulators hold the partial sums over the
source tiles 0 .. k of the current q, stated here by recursion on the point (`acc0`).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The q-tile of `x` at point `t` (window 0's block), at its literal type. -/
abbrev xq0 (c : Dev nD) (t : Fin cfg0.N) : Vec F S32x1152 .f32 := iblk0 V c 0 t
/-- The k-tile of `x` at point `t` (window 1's block), at its literal type. -/
abbrev xk0 (c : Dev nD) (t : Fin cfg0.N) : Vec F S32x1152 .f32 := iblk0 V c 1 t

/-- The two accumulators (`num`, `den`) BEFORE point `t`: a placeholder (zeros, never consulted) before the first point; after point
    `t` the tile's contribution added to what point `t` found, which is zero when `t` starts a new q. -/
def acc0 (c : Dev nD) : Nat → Vec F S32x1152 .f32 × Vec F S1x1152 .f32
  | 0 => (k0_pay1 (F := F), k0_pay2 (F := F))
  | t + 1 =>
    if h : t < cfg0.N then
      let base : Vec F S32x1152 .f32 × Vec F S1x1152 .f32 := if t % 8 = 0 then (k0_pay1 (F := F), k0_pay2 (F := F)) else acc0 c t
      (k0_pay7 (xq0 V c ⟨t, h⟩) (xk0 V c ⟨t, h⟩) base.1, k0_pay6 (xq0 V c ⟨t, h⟩) (xk0 V c ⟨t, h⟩) base.2)
    else acc0 c t

/-- What the body stores in the output's buffer at a point with k = 7: half the quotient of the
    accumulators plus half the q-tile. -/
def out0 (c : Dev nD) (t : Fin cfg0.N) : Vec F S32x1152 .f32 :=
  k0_pay8 (xq0 V c t) (acc0 V c (t.val + 1)).2 (acc0 V c (t.val + 1)).1

/-- The scoped buffers the pipeline does not stage, the two accumulators apart: the other
    pallas_calls' staging buffers and scratch, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))

/-- The invariant before point `t`: the accumulators at some contents, which after the first point
    are `acc0`'s; the other scoped buffers at anything. -/
def inv0 (c : Dev nD) (t : Fin (cfg0.N + 1)) : sProp 𝕄 :=
  iprop(∃ (n : Vec F S32x1152 .f32) (d : Vec F S1x1152 .f32), ⌜t.val ≠ 0 → n = (acc0 V c t.val).1 ∧ d = (acc0 V c t.val).2⌝
    ∗ owns (c : Thread nD τ) (Memref.whole cc0_scratch0) fullShare n
    ∗ owns (c : Thread nD τ) (Memref.whole cc0_scratch1) fullShare d
    ∗ rest0 c)

/-- The proof data of the pallas_call on core `c`: the arrays as the region finds them; after the
    body each input's buffer at its block and the output's at `out0`; the invariant `inv0`; the one
    array behind both inputs held half by each window; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := inv0 V c t
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The source-tile coordinate of point `t` is `t % 8`. -/
theorem kcoord0 : ∀ t : Fin cfg0.N, ((grid0.coords t) 1).val = t.val % 8 :=
  (by decide +kernel : ∀ t : Fin grid0.N, ((grid0.coords t) 1).val = t.val % 8)

/-- The output window is idle exactly off the points with k = 7. -/
theorem idle0_2 : ∀ t : Fin cfg0.N, cfg0.idle 2 (cfg0.grid.coords t) = true ↔ t.val % 8 ≠ 7 :=
  (by decide +kernel : ∀ t : Fin grid0.N, idle0 2 (grid0.coords t) = true ↔ t.val % 8 ≠ 7)

/-- The invariant is the proof data's. -/
theorem Φ_eq0 (c : Dev nD) (t : Fin (cfg0.N + 1)) : (dat0 V c).Φ t = inv0 V c t := rfl

/-- The accumulators after point `t`: the tile's contribution added to what the point found, which is
    zero at a point with k = 0. -/
theorem acc0_succ (c : Dev nD) (t : Fin cfg0.N) :
    acc0 V c (t.val + 1) =
      (k0_pay7 (xq0 V c t) (xk0 V c t) (if t.val % 8 = 0 then k0_pay1 (F := F) else (acc0 V c t.val).1),
       k0_pay6 (xq0 V c t) (xk0 V c t) (if t.val % 8 = 0 then k0_pay2 (F := F) else (acc0 V c t.val).2)) := by
  rw [acc0, dif_pos t.isLt]
  by_cases h : t.val % 8 = 0
  · simp only [if_pos h]
  · simp only [if_neg h]

theorem acc0_succ_first (c : Dev nD) (t : Fin cfg0.N) (h : t.val % 8 = 0) :
    acc0 V c (t.val + 1) =
      (k0_pay7 (xq0 V c t) (xk0 V c t) (k0_pay1 (F := F)), k0_pay6 (xq0 V c t) (xk0 V c t) (k0_pay2 (F := F))) := by
  rw [acc0_succ, if_pos h, if_pos h]

theorem acc0_succ_next (c : Dev nD) (t : Fin cfg0.N) (h : t.val % 8 ≠ 0) :
    acc0 V c (t.val + 1) =
      (k0_pay7 (xq0 V c t) (xk0 V c t) (acc0 V c t.val).1, k0_pay6 (xq0 V c t) (xk0 V c t) (acc0 V c t.val).2) := by
  rw [acc0_succ, if_neg h, if_neg h]

/-- The library's body obligation, at every point: by the source-tile coordinate k = t % 8, the body's triple for
    k = 0, for k = 7 or for a k between them, on the buffers at the blocks and the accumulators at `acc0`. -/
theorem body_obligation0 (c : Dev nD) : BodyObligation (dat0 (F := F) V c) (defs₀ (F := F)) Variants.none () Set.univ := fun t => by
  rw [bigSep_W0, bigSep_W0]
  simp only [before0_0, before0_1]
  rw [Φ_eq0, Φ_eq0, show (dat0 V c).owesAt () t.succ = (dat0 V c).owesAt () t.castSucc from rfl,
    after0_0, after0_1]
  have hbody : defs₀ (F := F) .tc cfg0.body (cfg0.bodyArgs t (cfg0.slots t)) = bodyAt0 t := rfl
  rw [hbody]
  unfold inv0
  by_cases h0 : t.val % 8 = 0
  · -- k = 0: the accumulators, at anything, are reset; the output's buffer is handed back as found
    have hi : idle0 2 (grid0.coords t) = true := (idle0_2 t).mpr (by omega)
    have hf : (win0 2).flush t = false := Bool.eq_false_iff.mpr fun h => absurd ((flush0_2 t).mp h) (by omega)
    simp only [hi, hf]
    iintro ⟨⟨%n, %d, -, Hn, Hd, Hrest⟩, Ho, ⟨%d0, H0⟩, ⟨%d1, H1⟩, ⟨%d2, H2⟩⟩
    iapply (body0_first c (grid0.coords t) ((kcoord0 t).trans h0)
        (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (Memref.whole cc0_scratch0) (Memref.isWhole_whole _) (Memref.whole cc0_scratch1) (Memref.isWhole_whole _)
        (xq0 V c t) (xk0 V c t) ((dat0 V c).before 2 t d2) _)
    isplitl [H0]; · iexact H0
    isplitl [H1]; · iexact H1
    isplitl [H2]; · iexact H2
    isplitl [Hn]; · iexists n; iexact Hn
    isplitl [Hd]; · iexists d; iexact Hd
    iintro ⟨H0, H1, H2, Hn, Hd⟩
    isplitl [Hn Hd Hrest]
    · iexists _, _
      isplitr
      · ipureintro
        intro _
        rw [Fin.val_succ, acc0_succ_first V c t h0]
        exact ⟨rfl, rfl⟩
      isplitl [Hn]; · iexact Hn
      isplitl [Hd]; · iexact Hd
      iexact Hrest
    isplitl [Ho]; · iexact Ho
    isplitl [H0]; · iexact H0
    isplitl [H1]; · iexact H1
    iexists d2; iexact H2
  · have ht : t.castSucc.val ≠ 0 := by rw [Fin.coe_castSucc]; omega
    by_cases h7 : t.val % 8 = 7
    · -- k = 7: the accumulators take the tile's contribution and the output block is stored from them
      have hi : idle0 2 (grid0.coords t) = false := Bool.eq_false_iff.mpr fun h => (idle0_2 t).mp h h7
      simp only [hi]
      rw [after0_2]
      iintro ⟨⟨%n, %d, %hnd, Hn, Hd, Hrest⟩, Ho, ⟨%d0, H0⟩, ⟨%d1, H1⟩, ⟨%d2, H2⟩⟩
      obtain ⟨hn, hd⟩ := hnd ht
      rw [Fin.coe_castSucc] at hn hd
      subst hn hd
      iapply (body0_last c (grid0.coords t) ((kcoord0 t).trans h7)
        (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (Memref.whole cc0_scratch0) (Memref.isWhole_whole _) (Memref.whole cc0_scratch1) (Memref.isWhole_whole _)
        (xq0 V c t) (xk0 V c t) (acc0 V c t.val).1 (acc0 V c t.val).2 _)
      isplitl [H0]; · iexact H0
      isplitl [H1]; · iexact H1
      isplitl [H2]; · iexists _; iexact H2
      isplitl [Hn]; · iexact Hn
      isplitl [Hd]; · iexact Hd
      iintro ⟨H0, H1, H2, Hn, Hd⟩
      isplitl [Hn Hd Hrest]
      · iexists _, _
        isplitr
        · ipureintro
          intro _
          rw [Fin.val_succ, acc0_succ_next V c t h0]
          exact ⟨rfl, rfl⟩
        isplitl [Hn]; · iexact Hn
        isplitl [Hd]; · iexact Hd
        iexact Hrest
      isplitl [Ho]; · iexact Ho
      isplitl [H0]; · iexact H0
      isplitl [H1]; · iexact H1
      unfold out0
      rw [acc0_succ_next V c t h0]
      iexact H2
    · -- 0 < k < 7: the accumulators take the tile's contribution; the output's buffer is handed back as found
      have hi : idle0 2 (grid0.coords t) = true := (idle0_2 t).mpr h7
      have hf : (win0 2).flush t = false := Bool.eq_false_iff.mpr fun h => absurd ((flush0_2 t).mp h) h7
      simp only [hi, hf]
      iintro ⟨⟨%n, %d, %hnd, Hn, Hd, Hrest⟩, Ho, ⟨%d0, H0⟩, ⟨%d1, H1⟩, ⟨%d2, H2⟩⟩
      obtain ⟨hn, hd⟩ := hnd ht
      rw [Fin.coe_castSucc] at hn hd
      subst hn hd
      iapply (body0_mid c (grid0.coords t) (by rw [kcoord0 t]; exact h0) (by rw [kcoord0 t]; exact h7)
        (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (Memref.whole cc0_scratch0) (Memref.isWhole_whole _) (Memref.whole cc0_scratch1) (Memref.isWhole_whole _)
        (xq0 V c t) (xk0 V c t) ((dat0 V c).before 2 t d2) (acc0 V c t.val).1 (acc0 V c t.val).2 _)
      isplitl [H0]; · iexact H0
      isplitl [H1]; · iexact H1
      isplitl [H2]; · iexact H2
      isplitl [Hn]; · iexact Hn
      isplitl [Hd]; · iexact Hd
      iintro ⟨H0, H1, H2, Hn, Hd⟩
      isplitl [Hn Hd Hrest]
      · iexists _, _
        isplitr
        · ipureintro
          intro _
          rw [Fin.val_succ, acc0_succ_next V c t h0]
          exact ⟨rfl, rfl⟩
        isplitl [Hn]; · iexact Hn
        isplitl [Hd]; · iexact Hd
        iexact Hrest
      isplitl [Ho]; · iexact Ho
      isplitl [H0]; · iexact H0
      isplitl [H1]; · iexact H1
      iexists d2; iexact H2

end Cert.Kernel.Hand

end
-- ==== Proof.KB.Body1.lean ====
import proofs.«135566_j39496519254112_1_alg».proof.Proof.Gen.Kernel.Skeleton
import proofs.«135566_j39496519254112_1_alg».proof.Proof.Gen.Kernel.Launch
import Idealize.ShloMosaic.Lib.Pipeline.FrameBody
import Idealize.ShloMosaic.Lib.Pipeline.Value
import Idealize.ShloMosaic.Lib.Tactic

/-!
# The body of a mean-shift step's pallas_call, one grid point

A grid point is a pair (q, k): the q-th tile of 1152 output columns and the k-th tile of 1152
source columns. The body holds two accumulators in scratch: `num` (32 x 1152) and `den` (1 x 1152).
At k = 0 both are reset to zero; at every k the tile's affinities `exp (3 * <x_i, x_j>)` are
summed into `den` over the rows i of the k-tile and `x_k * affinities` is added to `num`;
at k = 7 the output block `1/2 * (num / den) + 1/2 * x_q` is stored.

The three theorems below run the body in each of the three control cases and name what it
leaves in the two accumulators and, at k = 7, in the output's buffer, as the printed arithmetic
(`k1_pay6`, `k1_pay7`, `k1_pay8`) of what it found.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, and what whole-buffer loads and stores read -/

/-- The first conditional's test holds exactly at source tile 0. -/
theorem body1_cond1_iff (i : grid1.Coords) :
    (Scalar.cmpi .ne (Scalar.extui (Scalar.cmpi .eq (BitVec.ofNat 32 (i 1).val) 0#32)) 0#32 = 1#1) ↔ (i 1).val = 0 :=
  (by decide : ∀ k : Fin 8,
    (Scalar.cmpi .ne (Scalar.extui (Scalar.cmpi .eq (BitVec.ofNat 32 k.val) 0#32)) 0#32 = 1#1) ↔ k.val = 0) (i 1)

/-- The second conditional's test holds exactly at source tile 7. -/
theorem body1_cond2_iff (i : grid1.Coords) : (k1_cond2 i = 1#1) ↔ (i 1).val = 7 :=
  (by decide : ∀ k : Fin 8,
    (Scalar.cmpi .ne (Scalar.extui (Scalar.cmpi .eq (BitVec.ofNat 32 k.val) 7#32)) 0#32 = 1#1) ↔ k.val = 7) (i 1)

/-- The two zero offsets, however spelt. -/
private theorem hz : (![0, 0] : Fin 2 → Nat) = fun _ => 0 := by funext a; fin_cases a <;> rfl

section
variable {Val : EltTy → Type} [∀ e, Nonempty (Val e)] {sg : RefSig} {κ : Kind} {sp : Space} {S : Shape} {e : EltTy}

/-- A buffer whose last store went through the whole-shape rectangle reads as that store's payload. -/
private theorem read_writes_cons_unit_zero (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-shape rectangle reads the buffer's contents. -/
private theorem readAt_unit_zero (v : View sg κ sp S e) (f : v.ty.Contents Val) {off : Fin S.rank → Nat}
    (h : off = fun _ => 0) (inb : ∀ a, off a + S.size a ≤ S.size a) :
    v.readAt Val (Rect.unit off S.size inb).toLoadRect f = v.read Val f := by
  rw [View.readAt_eq_ld, View.ld_unit_zero h]
end

set_option maxHeartbeats 1000000 in
/-- First source tile (k = 0): the accumulators are reset, then take the tile's contribution. -/
theorem body1_first (c : Dev nD) (i : grid1.Coords) (hk : (i 1).val = 0)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk o : Vec F S32x1152 .f32) (K : PUnit → sProp 𝕄) :
    iprop(owns (c : Thread nD τ) arg2 fullShare xq ∗ owns (c : Thread nD τ) arg3 fullShare xk ∗ owns (c : Thread nD τ) arg4 fullShare o
        ∗ (∃ n, owns (c : Thread nD τ) arg5 fullShare n) ∗ (∃ d, owns (c : Thread nD τ) arg6 fullShare d)
        ∗ (iprop(owns (c : Thread nD τ) arg2 fullShare xq ∗ owns (c : Thread nD τ) arg3 fullShare xk ∗ owns (c : Thread nD τ) arg4 fullShare o
            ∗ owns (c : Thread nD τ) arg5 fullShare (k1_pay7 xq xk (k1_pay1 (F := F)))
            ∗ owns (c : Thread nD τ) arg6 fullShare (k1_pay6 xq xk (k1_pay2 (F := F)))) -∗ K ⟨⟩))
      ⊢ wp frame (wpE (defs₀ (F := F)) Variants.none c none) Set.univ
          (cc1__ms_iter_kernel i arg2 harg2 arg3 harg3 arg4 harg4 arg5 harg5 arg6 harg6) K := by
  have hc1 : (Scalar.cmpi .ne (Scalar.extui (Scalar.cmpi .eq (BitVec.ofNat 32 (i 1).val) 0#32)) 0#32 = 1#1) := (body1_cond1_iff i).2 hk
  have hc2 : ¬ (k1_cond2 i = 1#1) := fun h => by
    have := (body1_cond2_iff i).1 h; omega
  simp only [cc1__ms_iter_kernel_eq_skeleton]; unfold cc1__ms_iter_kernel_skel
  unfold owns
  iintro ⟨⟨%f2, %hf2, H2⟩, ⟨%f3, %hf3, H3⟩, ⟨%f4, %hf4, H4⟩, ⟨%n, %f5, -, H5⟩, ⟨%d, %f6, -, H6⟩, Hk⟩
  subst hf2 hf3 hf4
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; (· iexact H5)
    ipureintro
    sl_unfold_run_names
    rw [read_writes_cons_unit_zero _ _ hz, View.readCov_unit_zero _ hz]
    simp only [readAt_unit_zero (S := S32x1152) _ _ hz, readAt_unit_zero (S := S1x1152) _ _ hz]
  iexists _; isplitr; swap; (· iexact H6)
  ipureintro
  sl_unfold_run_names
  rw [read_writes_cons_unit_zero _ _ hz, View.readCov_unit_zero _ hz]
  simp only [readAt_unit_zero (S := S32x1152) _ _ hz, readAt_unit_zero (S := S1x1152) _ _ hz]

set_option maxHeartbeats 1000000 in
/-- A middle source tile (0 < k < 7): the accumulators take the tile's contribution. -/
theorem body1_mid (c : Dev nD) (i : grid1.Coords) (hk0 : (i 1).val ≠ 0) (hk7 : (i 1).val ≠ 7)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk o n : Vec F S32x1152 .f32) (d : Vec F S1x1152 .f32) (K : PUnit → sProp 𝕄) :
    iprop(owns (c : Thread nD τ) arg2 fullShare xq ∗ owns (c : Thread nD τ) arg3 fullShare xk ∗ owns (c : Thread nD τ) arg4 fullShare o
        ∗ owns (c : Thread nD τ) arg5 fullShare n ∗ owns (c : Thread nD τ) arg6 fullShare d
        ∗ (iprop(owns (c : Thread nD τ) arg2 fullShare xq ∗ owns (c : Thread nD τ) arg3 fullShare xk ∗ owns (c : Thread nD τ) arg4 fullShare o
            ∗ owns (c : Thread nD τ) arg5 fullShare (k1_pay7 xq xk n)
            ∗ owns (c : Thread nD τ) arg6 fullShare (k1_pay6 xq xk d)) -∗ K ⟨⟩))
      ⊢ wp frame (wpE (defs₀ (F := F)) Variants.none c none) Set.univ
          (cc1__ms_iter_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) :=
    fun h => hk0 ((body1_cond1_iff i).1 h)
  have hc2 : ¬ (k1_cond2 i = 1#1) := fun h => hk7 ((body1_cond2_iff i).1 h)
  simp only [cc1__ms_iter_kernel_eq_skeleton]; unfold cc1__ms_iter_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2 hf3 hf4 hf5 hf6
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; (· iexact H5)
    ipureintro
    rw [read_writes_cons_unit_zero _ _ hz]
    simp only [readAt_unit_zero (S := S32x1152) _ _ hz, readAt_unit_zero (S := S1x1152) _ _ hz]
  iexists _; isplitr; swap; (· iexact H6)
  ipureintro
  rw [read_writes_cons_unit_zero _ _ hz]
  simp only [readAt_unit_zero (S := S32x1152) _ _ hz, readAt_unit_zero (S := S1x1152) _ _ hz]

set_option maxHeartbeats 1000000 in
/-- The last source tile (k = 7): the accumulators take the tile's contribution and the output
    block is stored from them. -/
theorem body1_last (c : Dev nD) (i : grid1.Coords) (hk : (i 1).val = 7)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk n : Vec F S32x1152 .f32) (d : Vec F S1x1152 .f32) (K : PUnit → sProp 𝕄) :
    iprop(owns (c : Thread nD τ) arg2 fullShare xq ∗ owns (c : Thread nD τ) arg3 fullShare xk ∗ (∃ o, owns (c : Thread nD τ) arg4 fullShare o)
        ∗ owns (c : Thread nD τ) arg5 fullShare n ∗ owns (c : Thread nD τ) arg6 fullShare d
        ∗ (iprop(owns (c : Thread nD τ) arg2 fullShare xq ∗ owns (c : Thread nD τ) arg3 fullShare xk
            ∗ owns (c : Thread nD τ) arg4 fullShare (k1_pay8 xq (k1_pay6 xq xk d) (k1_pay7 xq xk n))
            ∗ owns (c : Thread nD τ) arg5 fullShare (k1_pay7 xq xk n)
            ∗ owns (c : Thread nD τ) arg6 fullShare (k1_pay6 xq xk d)) -∗ K ⟨⟩))
      ⊢ wp frame (wpE (defs₀ (F := F)) Variants.none c none) Set.univ
          (cc1__ms_iter_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) := fun h => by
    have := (body1_cond1_iff i).1 h; omega
  have hc2 : k1_cond2 i = 1#1 := (body1_cond2_iff i).2 hk
  simp only [cc1__ms_iter_kernel_eq_skeleton]; unfold cc1__ms_iter_kernel_skel
  unfold owns
  iintro ⟨⟨%f2, %hf2, H2⟩, ⟨%f3, %hf3, H3⟩, ⟨%o, %f4, -, H4⟩, ⟨%f5, %hf5, H5⟩, ⟨%f6, %hf6, H6⟩, Hk⟩
  subst hf2 hf3 hf5 hf6
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_run_names
    rw [read_writes_cons_unit_zero _ _ hz, View.readCov_unit_zero _ hz, View.readCov_unit_zero _ hz]
    simp only [readAt_unit_zero (S := S32x1152) _ _ hz, readAt_unit_zero (S := S1x1152) _ _ hz]
  isplitl [H5]
  · iexists _; isplitr; swap; (· iexact H5)
    ipureintro
    sl_unfold_run_names
    rw [read_writes_cons_unit_zero _ _ hz]
    simp only [readAt_unit_zero (S := S32x1152) _ _ hz, readAt_unit_zero (S := S1x1152) _ _ hz]
  iexists _; isplitr; swap; (· iexact H6)
  ipureintro
  sl_unfold_run_names
  rw [read_writes_cons_unit_zero _ _ hz]
  simp only [readAt_unit_zero (S := S32x1152) _ _ hz, readAt_unit_zero (S := S1x1152) _ _ hz]

end Cert.Kernel.Hand

end
-- ==== Proof.KB.Dat1.lean ====
import proofs.«135566_j39496519254112_1_alg».proof.Proof.KB.Body1
import proofs.«135566_j39496519254112_1_alg».proof.Proof.Gen.Kernel.Points
import Idealize.ShloMosaic.Lib.Pipeline.FrameBody
import Idealize.ShloMosaic.Lib.Pipeline.Frame

/-!
# A mean-shift step's pallas_call as a pipeline: what every buffer holds, point by point

The grid is 8 x 8, the point `t` being (q, k) = (t / 8, t % 8). Window 0 stages the q-th column
tile of `x`, window 1 the k-th, both out of ONE array; window 2 is the q-th column tile of the
result, stored at k = 7 only. Between points the two accumulators hold the partial sums over the
source tiles 0 .. k of the current q, stated here by recursion on the point (`acc1`).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The q-tile of `x` at point `t` (window 0's block), at its literal type. -/
abbrev xq1 (c : Dev nD) (t : Fin cfg1.N) : Vec F S32x1152 .f32 := iblk1 V c 0 t
/-- The k-tile of `x` at point `t` (window 1's block), at its literal type. -/
abbrev xk1 (c : Dev nD) (t : Fin cfg1.N) : Vec F S32x1152 .f32 := iblk1 V c 1 t

/-- The two accumulators (`num`, `den`) BEFORE point `t`: a placeholder (zeros, never consulted) before the first point; after point
    `t` the tile's contribution added to what point `t` found, which is zero when `t` starts a new q. -/
def acc1 (c : Dev nD) : Nat → Vec F S32x1152 .f32 × Vec F S1x1152 .f32
  | 0 => (k1_pay1 (F := F), k1_pay2 (F := F))
  | t + 1 =>
    if h : t < cfg1.N then
      let base : Vec F S32x1152 .f32 × Vec F S1x1152 .f32 := if t % 8 = 0 then (k1_pay1 (F := F), k1_pay2 (F := F)) else acc1 c t
      (k1_pay7 (xq1 V c ⟨t, h⟩) (xk1 V c ⟨t, h⟩) base.1, k1_pay6 (xq1 V c ⟨t, h⟩) (xk1 V c ⟨t, h⟩) base.2)
    else acc1 c t

/-- What the body stores in the output's buffer at a point with k = 7: half the quotient of the
    accumulators plus half the q-tile. -/
def out1 (c : Dev nD) (t : Fin cfg1.N) : Vec F S32x1152 .f32 :=
  k1_pay8 (xq1 V c t) (acc1 V c (t.val + 1)).2 (acc1 V c (t.val + 1)).1

/-- The scoped buffers the pipeline does not stage, the two accumulators apart: the other
    pallas_calls' staging buffers and scratch, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))

/-- The invariant before point `t`: the accumulators at some contents, which after the first point
    are `acc1`'s; the other scoped buffers at anything. -/
def inv1 (c : Dev nD) (t : Fin (cfg1.N + 1)) : sProp 𝕄 :=
  iprop(∃ (n : Vec F S32x1152 .f32) (d : Vec F S1x1152 .f32), ⌜t.val ≠ 0 → n = (acc1 V c t.val).1 ∧ d = (acc1 V c t.val).2⌝
    ∗ owns (c : Thread nD τ) (Memref.whole cc1_scratch0) fullShare n
    ∗ owns (c : Thread nD τ) (Memref.whole cc1_scratch1) fullShare d
    ∗ rest1 c)

/-- The proof data of the pallas_call on core `c`: the arrays as the region finds them; after the
    body each input's buffer at its block and the output's at `out1`; the invariant `inv1`; the one
    array behind both inputs held half by each window; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := inv1 V c t
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The source-tile coordinate of point `t` is `t % 8`. -/
theorem kcoord1 : ∀ t : Fin cfg1.N, ((grid1.coords t) 1).val = t.val % 8 :=
  (by decide +kernel : ∀ t : Fin grid1.N, ((grid1.coords t) 1).val = t.val % 8)

/-- The output window is idle exactly off the points with k = 7. -/
theorem idle1_2 : ∀ t : Fin cfg1.N, cfg1.idle 2 (cfg1.grid.coords t) = true ↔ t.val % 8 ≠ 7 :=
  (by decide +kernel : ∀ t : Fin grid1.N, idle1 2 (grid1.coords t) = true ↔ t.val % 8 ≠ 7)

/-- The invariant is the proof data's. -/
theorem Φ_eq1 (c : Dev nD) (t : Fin (cfg1.N + 1)) : (dat1 V c).Φ t = inv1 V c t := rfl

/-- The accumulators after point `t`: the tile's contribution added to what the point found, which is
    zero at a point with k = 0. -/
theorem acc1_succ (c : Dev nD) (t : Fin cfg1.N) :
    acc1 V c (t.val + 1) =
      (k1_pay7 (xq1 V c t) (xk1 V c t) (if t.val % 8 = 0 then k1_pay1 (F := F) else (acc1 V c t.val).1),
       k1_pay6 (xq1 V c t) (xk1 V c t) (if t.val % 8 = 0 then k1_pay2 (F := F) else (acc1 V c t.val).2)) := by
  rw [acc1, dif_pos t.isLt]
  by_cases h : t.val % 8 = 0
  · simp only [if_pos h]
  · simp only [if_neg h]

theorem acc1_succ_first (c : Dev nD) (t : Fin cfg1.N) (h : t.val % 8 = 0) :
    acc1 V c (t.val + 1) =
      (k1_pay7 (xq1 V c t) (xk1 V c t) (k1_pay1 (F := F)), k1_pay6 (xq1 V c t) (xk1 V c t) (k1_pay2 (F := F))) := by
  rw [acc1_succ, if_pos h, if_pos h]

theorem acc1_succ_next (c : Dev nD) (t : Fin cfg1.N) (h : t.val % 8 ≠ 0) :
    acc1 V c (t.val + 1) =
      (k1_pay7 (xq1 V c t) (xk1 V c t) (acc1 V c t.val).1, k1_pay6 (xq1 V c t) (xk1 V c t) (acc1 V c t.val).2) := by
  rw [acc1_succ, if_neg h, if_neg h]

/-- The library's body obligation, at every point: by the source-tile coordinate k = t % 8, the body's triple for
    k = 0, for k = 7 or for a k between them, on the buffers at the blocks and the accumulators at `acc1`. -/
theorem body_obligation1 (c : Dev nD) : BodyObligation (dat1 (F := F) V c) (defs₀ (F := F)) Variants.none () Set.univ := fun t => by
  rw [bigSep_W1, bigSep_W1]
  simp only [before1_0, before1_1]
  rw [Φ_eq1, Φ_eq1, show (dat1 V c).owesAt () t.succ = (dat1 V c).owesAt () t.castSucc from rfl,
    after1_0, after1_1]
  have hbody : defs₀ (F := F) .tc cfg1.body (cfg1.bodyArgs t (cfg1.slots t)) = bodyAt1 t := rfl
  rw [hbody]
  unfold inv1
  by_cases h0 : t.val % 8 = 0
  · -- k = 0: the accumulators, at anything, are reset; the output's buffer is handed back as found
    have hi : idle1 2 (grid1.coords t) = true := (idle1_2 t).mpr (by omega)
    have hf : (win1 2).flush t = false := Bool.eq_false_iff.mpr fun h => absurd ((flush1_2 t).mp h) (by omega)
    simp only [hi, hf]
    iintro ⟨⟨%n, %d, -, Hn, Hd, Hrest⟩, Ho, ⟨%d0, H0⟩, ⟨%d1, H1⟩, ⟨%d2, H2⟩⟩
    iapply (body1_first c (grid1.coords t) ((kcoord1 t).trans h0)
        (win1_0.stage (cfg1.slots t 0)) (hstage1_0 ((cfg1.slots t 0).cast nbuf1_0))
        (win1_1.stage (cfg1.slots t 1)) (hstage1_1 ((cfg1.slots t 1).cast nbuf1_1))
        (win1_2.stage (cfg1.slots t 2)) (hstage1_2 ((cfg1.slots t 2).cast nbuf1_2))
        (Memref.whole cc1_scratch0) (Memref.isWhole_whole _) (Memref.whole cc1_scratch1) (Memref.isWhole_whole _)
        (xq1 V c t) (xk1 V c t) ((dat1 V c).before 2 t d2) _)
    isplitl [H0]; · iexact H0
    isplitl [H1]; · iexact H1
    isplitl [H2]; · iexact H2
    isplitl [Hn]; · iexists n; iexact Hn
    isplitl [Hd]; · iexists d; iexact Hd
    iintro ⟨H0, H1, H2, Hn, Hd⟩
    isplitl [Hn Hd Hrest]
    · iexists _, _
      isplitr
      · ipureintro
        intro _
        rw [Fin.val_succ, acc1_succ_first V c t h0]
        exact ⟨rfl, rfl⟩
      isplitl [Hn]; · iexact Hn
      isplitl [Hd]; · iexact Hd
      iexact Hrest
    isplitl [Ho]; · iexact Ho
    isplitl [H0]; · iexact H0
    isplitl [H1]; · iexact H1
    iexists d2; iexact H2
  · have ht : t.castSucc.val ≠ 0 := by rw [Fin.coe_castSucc]; omega
    by_cases h7 : t.val % 8 = 7
    · -- k = 7: the accumulators take the tile's contribution and the output block is stored from them
      have hi : idle1 2 (grid1.coords t) = false := Bool.eq_false_iff.mpr fun h => (idle1_2 t).mp h h7
      simp only [hi]
      rw [after1_2]
      iintro ⟨⟨%n, %d, %hnd, Hn, Hd, Hrest⟩, Ho, ⟨%d0, H0⟩, ⟨%d1, H1⟩, ⟨%d2, H2⟩⟩
      obtain ⟨hn, hd⟩ := hnd ht
      rw [Fin.coe_castSucc] at hn hd
      subst hn hd
      iapply (body1_last c (grid1.coords t) ((kcoord1 t).trans h7)
        (win1_0.stage (cfg1.slots t 0)) (hstage1_0 ((cfg1.slots t 0).cast nbuf1_0))
        (win1_1.stage (cfg1.slots t 1)) (hstage1_1 ((cfg1.slots t 1).cast nbuf1_1))
        (win1_2.stage (cfg1.slots t 2)) (hstage1_2 ((cfg1.slots t 2).cast nbuf1_2))
        (Memref.whole cc1_scratch0) (Memref.isWhole_whole _) (Memref.whole cc1_scratch1) (Memref.isWhole_whole _)
        (xq1 V c t) (xk1 V c t) (acc1 V c t.val).1 (acc1 V c t.val).2 _)
      isplitl [H0]; · iexact H0
      isplitl [H1]; · iexact H1
      isplitl [H2]; · iexists _; iexact H2
      isplitl [Hn]; · iexact Hn
      isplitl [Hd]; · iexact Hd
      iintro ⟨H0, H1, H2, Hn, Hd⟩
      isplitl [Hn Hd Hrest]
      · iexists _, _
        isplitr
        · ipureintro
          intro _
          rw [Fin.val_succ, acc1_succ_next V c t h0]
          exact ⟨rfl, rfl⟩
        isplitl [Hn]; · iexact Hn
        isplitl [Hd]; · iexact Hd
        iexact Hrest
      isplitl [Ho]; · iexact Ho
      isplitl [H0]; · iexact H0
      isplitl [H1]; · iexact H1
      unfold out1
      rw [acc1_succ_next V c t h0]
      iexact H2
    · -- 0 < k < 7: the accumulators take the tile's contribution; the output's buffer is handed back as found
      have hi : idle1 2 (grid1.coords t) = true := (idle1_2 t).mpr h7
      have hf : (win1 2).flush t = false := Bool.eq_false_iff.mpr fun h => absurd ((flush1_2 t).mp h) h7
      simp only [hi, hf]
      iintro ⟨⟨%n, %d, %hnd, Hn, Hd, Hrest⟩, Ho, ⟨%d0, H0⟩, ⟨%d1, H1⟩, ⟨%d2, H2⟩⟩
      obtain ⟨hn, hd⟩ := hnd ht
      rw [Fin.coe_castSucc] at hn hd
      subst hn hd
      iapply (body1_mid c (grid1.coords t) (by rw [kcoord1 t]; exact h0) (by rw [kcoord1 t]; exact h7)
        (win1_0.stage (cfg1.slots t 0)) (hstage1_0 ((cfg1.slots t 0).cast nbuf1_0))
        (win1_1.stage (cfg1.slots t 1)) (hstage1_1 ((cfg1.slots t 1).cast nbuf1_1))
        (win1_2.stage (cfg1.slots t 2)) (hstage1_2 ((cfg1.slots t 2).cast nbuf1_2))
        (Memref.whole cc1_scratch0) (Memref.isWhole_whole _) (Memref.whole cc1_scratch1) (Memref.isWhole_whole _)
        (xq1 V c t) (xk1 V c t) ((dat1 V c).before 2 t d2) (acc1 V c t.val).1 (acc1 V c t.val).2 _)
      isplitl [H0]; · iexact H0
      isplitl [H1]; · iexact H1
      isplitl [H2]; · iexact H2
      isplitl [Hn]; · iexact Hn
      isplitl [Hd]; · iexact Hd
      iintro ⟨H0, H1, H2, Hn, Hd⟩
      isplitl [Hn Hd Hrest]
      · iexists _, _
        isplitr
        · ipureintro
          intro _
          rw [Fin.val_succ, acc1_succ_next V c t h0]
          exact ⟨rfl, rfl⟩
        isplitl [Hn]; · iexact Hn
        isplitl [Hd]; · iexact Hd
        iexact Hrest
      isplitl [Ho]; · iexact Ho
      isplitl [H0]; · iexact H0
      isplitl [H1]; · iexact H1
      iexists d2; iexact H2

end Cert.Kernel.Hand

end
-- ==== Proof.KB.Body2.lean ====
import proofs.«135566_j39496519254112_1_alg».proof.Proof.Gen.Kernel.Skeleton
import proofs.«135566_j39496519254112_1_alg».proof.Proof.Gen.Kernel.Launch
import Idealize.ShloMosaic.Lib.Pipeline.FrameBody
import Idealize.ShloMosaic.Lib.Pipeline.Value
import Idealize.ShloMosaic.Lib.Tactic

/-!
# The body of a mean-shift step's pallas_call, one grid point

A grid point is a pair (q, k): the q-th tile of 1152 output columns and the k-th tile of 1152
source columns. The body holds two accumulators in scratch: `num` (32 x 1152) and `den` (1 x 1152).
At k = 0 both are reset to zero; at every k the tile's affinities `exp (3 * <x_i, x_j>)` are
summed into `den` over the rows i of the k-tile and `x_k * affinities` is added to `num`;
at k = 7 the output block `1/2 * (num / den) + 1/2 * x_q` is stored.

The three theorems below run the body in each of the three control cases and name what it
leaves in the two accumulators and, at k = 7, in the output's buffer, as the printed arithmetic
(`k2_pay6`, `k2_pay7`, `k2_pay8`) of what it found.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, and what whole-buffer loads and stores read -/

/-- The first conditional's test holds exactly at source tile 0. -/
theorem body2_cond1_iff (i : grid2.Coords) :
    (Scalar.cmpi .ne (Scalar.extui (Scalar.cmpi .eq (BitVec.ofNat 32 (i 1).val) 0#32)) 0#32 = 1#1) ↔ (i 1).val = 0 :=
  (by decide : ∀ k : Fin 8,
    (Scalar.cmpi .ne (Scalar.extui (Scalar.cmpi .eq (BitVec.ofNat 32 k.val) 0#32)) 0#32 = 1#1) ↔ k.val = 0) (i 1)

/-- The second conditional's test holds exactly at source tile 7. -/
theorem body2_cond2_iff (i : grid2.Coords) : (k2_cond2 i = 1#1) ↔ (i 1).val = 7 :=
  (by decide : ∀ k : Fin 8,
    (Scalar.cmpi .ne (Scalar.extui (Scalar.cmpi .eq (BitVec.ofNat 32 k.val) 7#32)) 0#32 = 1#1) ↔ k.val = 7) (i 1)

/-- The two zero offsets, however spelt. -/
private theorem hz : (![0, 0] : Fin 2 → Nat) = fun _ => 0 := by funext a; fin_cases a <;> rfl

section
variable {Val : EltTy → Type} [∀ e, Nonempty (Val e)] {sg : RefSig} {κ : Kind} {sp : Space} {S : Shape} {e : EltTy}

/-- A buffer whose last store went through the whole-shape rectangle reads as that store's payload. -/
private theorem read_writes_cons_unit_zero (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-shape rectangle reads the buffer's contents. -/
private theorem readAt_unit_zero (v : View sg κ sp S e) (f : v.ty.Contents Val) {off : Fin S.rank → Nat}
    (h : off = fun _ => 0) (inb : ∀ a, off a + S.size a ≤ S.size a) :
    v.readAt Val (Rect.unit off S.size inb).toLoadRect f = v.read Val f := by
  rw [View.readAt_eq_ld, View.ld_unit_zero h]
end

set_option maxHeartbeats 1000000 in
/-- First source tile (k = 0): the accumulators are reset, then take the tile's contribution. -/
theorem body2_first (c : Dev nD) (i : grid2.Coords) (hk : (i 1).val = 0)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk o : Vec F S32x1152 .f32) (K : PUnit → sProp 𝕄) :
    iprop(owns (c : Thread nD τ) arg2 fullShare xq ∗ owns (c : Thread nD τ) arg3 fullShare xk ∗ owns (c : Thread nD τ) arg4 fullShare o
        ∗ (∃ n, owns (c : Thread nD τ) arg5 fullShare n) ∗ (∃ d, owns (c : Thread nD τ) arg6 fullShare d)
        ∗ (iprop(owns (c : Thread nD τ) arg2 fullShare xq ∗ owns (c : Thread nD τ) arg3 fullShare xk ∗ owns (c : Thread nD τ) arg4 fullShare o
            ∗ owns (c : Thread nD τ) arg5 fullShare (k2_pay7 xq xk (k2_pay1 (F := F)))
            ∗ owns (c : Thread nD τ) arg6 fullShare (k2_pay6 xq xk (k2_pay2 (F := F)))) -∗ K ⟨⟩))
      ⊢ wp frame (wpE (defs₀ (F := F)) Variants.none c none) Set.univ
          (cc2__ms_iter_kernel i arg2 harg2 arg3 harg3 arg4 harg4 arg5 harg5 arg6 harg6) K := by
  have hc1 : (Scalar.cmpi .ne (Scalar.extui (Scalar.cmpi .eq (BitVec.ofNat 32 (i 1).val) 0#32)) 0#32 = 1#1) := (body2_cond1_iff i).2 hk
  have hc2 : ¬ (k2_cond2 i = 1#1) := fun h => by
    have := (body2_cond2_iff i).1 h; omega
  simp only [cc2__ms_iter_kernel_eq_skeleton]; unfold cc2__ms_iter_kernel_skel
  unfold owns
  iintro ⟨⟨%f2, %hf2, H2⟩, ⟨%f3, %hf3, H3⟩, ⟨%f4, %hf4, H4⟩, ⟨%n, %f5, -, H5⟩, ⟨%d, %f6, -, H6⟩, Hk⟩
  subst hf2 hf3 hf4
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; (· iexact H5)
    ipureintro
    sl_unfold_run_names
    rw [read_writes_cons_unit_zero _ _ hz, View.readCov_unit_zero _ hz]
    simp only [readAt_unit_zero (S := S32x1152) _ _ hz, readAt_unit_zero (S := S1x1152) _ _ hz]
  iexists _; isplitr; swap; (· iexact H6)
  ipureintro
  sl_unfold_run_names
  rw [read_writes_cons_unit_zero _ _ hz, View.readCov_unit_zero _ hz]
  simp only [readAt_unit_zero (S := S32x1152) _ _ hz, readAt_unit_zero (S := S1x1152) _ _ hz]

set_option maxHeartbeats 1000000 in
/-- A middle source tile (0 < k < 7): the accumulators take the tile's contribution. -/
theorem body2_mid (c : Dev nD) (i : grid2.Coords) (hk0 : (i 1).val ≠ 0) (hk7 : (i 1).val ≠ 7)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk o n : Vec F S32x1152 .f32) (d : Vec F S1x1152 .f32) (K : PUnit → sProp 𝕄) :
    iprop(owns (c : Thread nD τ) arg2 fullShare xq ∗ owns (c : Thread nD τ) arg3 fullShare xk ∗ owns (c : Thread nD τ) arg4 fullShare o
        ∗ owns (c : Thread nD τ) arg5 fullShare n ∗ owns (c : Thread nD τ) arg6 fullShare d
        ∗ (iprop(owns (c : Thread nD τ) arg2 fullShare xq ∗ owns (c : Thread nD τ) arg3 fullShare xk ∗ owns (c : Thread nD τ) arg4 fullShare o
            ∗ owns (c : Thread nD τ) arg5 fullShare (k2_pay7 xq xk n)
            ∗ owns (c : Thread nD τ) arg6 fullShare (k2_pay6 xq xk d)) -∗ K ⟨⟩))
      ⊢ wp frame (wpE (defs₀ (F := F)) Variants.none c none) Set.univ
          (cc2__ms_iter_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) :=
    fun h => hk0 ((body2_cond1_iff i).1 h)
  have hc2 : ¬ (k2_cond2 i = 1#1) := fun h => hk7 ((body2_cond2_iff i).1 h)
  simp only [cc2__ms_iter_kernel_eq_skeleton]; unfold cc2__ms_iter_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2 hf3 hf4 hf5 hf6
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; (· iexact H5)
    ipureintro
    rw [read_writes_cons_unit_zero _ _ hz]
    simp only [readAt_unit_zero (S := S32x1152) _ _ hz, readAt_unit_zero (S := S1x1152) _ _ hz]
  iexists _; isplitr; swap; (· iexact H6)
  ipureintro
  rw [read_writes_cons_unit_zero _ _ hz]
  simp only [readAt_unit_zero (S := S32x1152) _ _ hz, readAt_unit_zero (S := S1x1152) _ _ hz]

set_option maxHeartbeats 1000000 in
/-- The last source tile (k = 7): the accumulators take the tile's contribution and the output
    block is stored from them. -/
theorem body2_last (c : Dev nD) (i : grid2.Coords) (hk : (i 1).val = 7)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk n : Vec F S32x1152 .f32) (d : Vec F S1x1152 .f32) (K : PUnit → sProp 𝕄) :
    iprop(owns (c : Thread nD τ) arg2 fullShare xq ∗ owns (c : Thread nD τ) arg3 fullShare xk ∗ (∃ o, owns (c : Thread nD τ) arg4 fullShare o)
        ∗ owns (c : Thread nD τ) arg5 fullShare n ∗ owns (c : Thread nD τ) arg6 fullShare d
        ∗ (iprop(owns (c : Thread nD τ) arg2 fullShare xq ∗ owns (c : Thread nD τ) arg3 fullShare xk
            ∗ owns (c : Thread nD τ) arg4 fullShare (k2_pay8 xq (k2_pay6 xq xk d) (k2_pay7 xq xk n))
            ∗ owns (c : Thread nD τ) arg5 fullShare (k2_pay7 xq xk n)
            ∗ owns (c : Thread nD τ) arg6 fullShare (k2_pay6 xq xk d)) -∗ K ⟨⟩))
      ⊢ wp frame (wpE (defs₀ (F := F)) Variants.none c none) Set.univ
          (cc2__ms_iter_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) := fun h => by
    have := (body2_cond1_iff i).1 h; omega
  have hc2 : k2_cond2 i = 1#1 := (body2_cond2_iff i).2 hk
  simp only [cc2__ms_iter_kernel_eq_skeleton]; unfold cc2__ms_iter_kernel_skel
  unfold owns
  iintro ⟨⟨%f2, %hf2, H2⟩, ⟨%f3, %hf3, H3⟩, ⟨%o, %f4, -, H4⟩, ⟨%f5, %hf5, H5⟩, ⟨%f6, %hf6, H6⟩, Hk⟩
  subst hf2 hf3 hf5 hf6
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_run_names
    rw [read_writes_cons_unit_zero _ _ hz, View.readCov_unit_zero _ hz, View.readCov_unit_zero _ hz]
    simp only [readAt_unit_zero (S := S32x1152) _ _ hz, readAt_unit_zero (S := S1x1152) _ _ hz]
  isplitl [H5]
  · iexists _; isplitr; swap; (· iexact H5)
    ipureintro
    sl_unfold_run_names
    rw [read_writes_cons_unit_zero _ _ hz]
    simp only [readAt_unit_zero (S := S32x1152) _ _ hz, readAt_unit_zero (S := S1x1152) _ _ hz]
  iexists _; isplitr; swap; (· iexact H6)
  ipureintro
  sl_unfold_run_names
  rw [read_writes_cons_unit_zero _ _ hz]
  simp only [readAt_unit_zero (S := S32x1152) _ _ hz, readAt_unit_zero (S := S1x1152) _ _ hz]

end Cert.Kernel.Hand

end
-- ==== Proof.KB.Dat2.lean ====
import proofs.«135566_j39496519254112_1_alg».proof.Proof.KB.Body2
import proofs.«135566_j39496519254112_1_alg».proof.Proof.Gen.Kernel.Points
import Idealize.ShloMosaic.Lib.Pipeline.FrameBody
import Idealize.ShloMosaic.Lib.Pipeline.Frame

/-!
# A mean-shift step's pallas_call as a pipeline: what every buffer holds, point by point

The grid is 8 x 8, the point `t` being (q, k) = (t / 8, t % 8). Window 0 stages the q-th column
tile of `x`, window 1 the k-th, both out of ONE array; window 2 is the q-th column tile of the
result, stored at k = 7 only. Between points the two accumulators hold the partial sums over the
source tiles 0 .. k of the current q, stated here by recursion on the point (`acc2`).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The q-tile of `x` at point `t` (window 0's block), at its literal type. -/
abbrev xq2 (c : Dev nD) (t : Fin cfg2.N) : Vec F S32x1152 .f32 := iblk2 V c 0 t
/-- The k-tile of `x` at point `t` (window 1's block), at its literal type. -/
abbrev xk2 (c : Dev nD) (t : Fin cfg2.N) : Vec F S32x1152 .f32 := iblk2 V c 1 t

/-- The two accumulators (`num`, `den`) BEFORE point `t`: a placeholder (zeros, never consulted) before the first point; after point
    `t` the tile's contribution added to what point `t` found, which is zero when `t` starts a new q. -/
def acc2 (c : Dev nD) : Nat → Vec F S32x1152 .f32 × Vec F S1x1152 .f32
  | 0 => (k2_pay1 (F := F), k2_pay2 (F := F))
  | t + 1 =>
    if h : t < cfg2.N then
      let base : Vec F S32x1152 .f32 × Vec F S1x1152 .f32 := if t % 8 = 0 then (k2_pay1 (F := F), k2_pay2 (F := F)) else acc2 c t
      (k2_pay7 (xq2 V c ⟨t, h⟩) (xk2 V c ⟨t, h⟩) base.1, k2_pay6 (xq2 V c ⟨t, h⟩) (xk2 V c ⟨t, h⟩) base.2)
    else acc2 c t

/-- What the body stores in the output's buffer at a point with k = 7: half the quotient of the
    accumulators plus half the q-tile. -/
def out2 (c : Dev nD) (t : Fin cfg2.N) : Vec F S32x1152 .f32 :=
  k2_pay8 (xq2 V c t) (acc2 V c (t.val + 1)).2 (acc2 V c (t.val + 1)).1

/-- The scoped buffers the pipeline does not stage, the two accumulators apart: the other
    pallas_calls' staging buffers and scratch, each at some contents. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The invariant before point `t`: the accumulators at some contents, which after the first point
    are `acc2`'s; the other scoped buffers at anything. -/
def inv2 (c : Dev nD) (t : Fin (cfg2.N + 1)) : sProp 𝕄 :=
  iprop(∃ (n : Vec F S32x1152 .f32) (d : Vec F S1x1152 .f32), ⌜t.val ≠ 0 → n = (acc2 V c t.val).1 ∧ d = (acc2 V c t.val).2⌝
    ∗ owns (c : Thread nD τ) (Memref.whole cc2_scratch0) fullShare n
    ∗ owns (c : Thread nD τ) (Memref.whole cc2_scratch1) fullShare d
    ∗ rest2 c)

/-- The proof data of the pallas_call on core `c`: the arrays as the region finds them; after the
    body each input's buffer at its block and the output's at `out2`; the invariant `inv2`; the one
    array behind both inputs held half by each window; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := inv2 V c t
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 V c t := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The source-tile coordinate of point `t` is `t % 8`. -/
theorem kcoord2 : ∀ t : Fin cfg2.N, ((grid2.coords t) 1).val = t.val % 8 :=
  (by decide +kernel : ∀ t : Fin grid2.N, ((grid2.coords t) 1).val = t.val % 8)

/-- The output window is idle exactly off the points with k = 7. -/
theorem idle2_2 : ∀ t : Fin cfg2.N, cfg2.idle 2 (cfg2.grid.coords t) = true ↔ t.val % 8 ≠ 7 :=
  (by decide +kernel : ∀ t : Fin grid2.N, idle2 2 (grid2.coords t) = true ↔ t.val % 8 ≠ 7)

/-- The invariant is the proof data's. -/
theorem Φ_eq2 (c : Dev nD) (t : Fin (cfg2.N + 1)) : (dat2 V c).Φ t = inv2 V c t := rfl

/-- The accumulators after point `t`: the tile's contribution added to what the point found, which is
    zero at a point with k = 0. -/
theorem acc2_succ (c : Dev nD) (t : Fin cfg2.N) :
    acc2 V c (t.val + 1) =
      (k2_pay7 (xq2 V c t) (xk2 V c t) (if t.val % 8 = 0 then k2_pay1 (F := F) else (acc2 V c t.val).1),
       k2_pay6 (xq2 V c t) (xk2 V c t) (if t.val % 8 = 0 then k2_pay2 (F := F) else (acc2 V c t.val).2)) := by
  rw [acc2, dif_pos t.isLt]
  by_cases h : t.val % 8 = 0
  · simp only [if_pos h]
  · simp only [if_neg h]

theorem acc2_succ_first (c : Dev nD) (t : Fin cfg2.N) (h : t.val % 8 = 0) :
    acc2 V c (t.val + 1) =
      (k2_pay7 (xq2 V c t) (xk2 V c t) (k2_pay1 (F := F)), k2_pay6 (xq2 V c t) (xk2 V c t) (k2_pay2 (F := F))) := by
  rw [acc2_succ, if_pos h, if_pos h]

theorem acc2_succ_next (c : Dev nD) (t : Fin cfg2.N) (h : t.val % 8 ≠ 0) :
    acc2 V c (t.val + 1) =
      (k2_pay7 (xq2 V c t) (xk2 V c t) (acc2 V c t.val).1, k2_pay6 (xq2 V c t) (xk2 V c t) (acc2 V c t.val).2) := by
  rw [acc2_succ, if_neg h, if_neg h]

/-- The library's body obligation, at every point: by the source-tile coordinate k = t % 8, the body's triple for
    k = 0, for k = 7 or for a k between them, on the buffers at the blocks and the accumulators at `acc2`. -/
theorem body_obligation2 (c : Dev nD) : BodyObligation (dat2 (F := F) V c) (defs₀ (F := F)) Variants.none () Set.univ := fun t => by
  rw [bigSep_W2, bigSep_W2]
  simp only [before2_0, before2_1]
  rw [Φ_eq2, Φ_eq2, show (dat2 V c).owesAt () t.succ = (dat2 V c).owesAt () t.castSucc from rfl,
    after2_0, after2_1]
  have hbody : defs₀ (F := F) .tc cfg2.body (cfg2.bodyArgs t (cfg2.slots t)) = bodyAt2 t := rfl
  rw [hbody]
  unfold inv2
  by_cases h0 : t.val % 8 = 0
  · -- k = 0: the accumulators, at anything, are reset; the output's buffer is handed back as found
    have hi : idle2 2 (grid2.coords t) = true := (idle2_2 t).mpr (by omega)
    have hf : (win2 2).flush t = false := Bool.eq_false_iff.mpr fun h => absurd ((flush2_2 t).mp h) (by omega)
    simp only [hi, hf]
    iintro ⟨⟨%n, %d, -, Hn, Hd, Hrest⟩, Ho, ⟨%d0, H0⟩, ⟨%d1, H1⟩, ⟨%d2, H2⟩⟩
    iapply (body2_first c (grid2.coords t) ((kcoord2 t).trans h0)
        (win2_0.stage (cfg2.slots t 0)) (hstage2_0 ((cfg2.slots t 0).cast nbuf2_0))
        (win2_1.stage (cfg2.slots t 1)) (hstage2_1 ((cfg2.slots t 1).cast nbuf2_1))
        (win2_2.stage (cfg2.slots t 2)) (hstage2_2 ((cfg2.slots t 2).cast nbuf2_2))
        (Memref.whole cc2_scratch0) (Memref.isWhole_whole _) (Memref.whole cc2_scratch1) (Memref.isWhole_whole _)
        (xq2 V c t) (xk2 V c t) ((dat2 V c).before 2 t d2) _)
    isplitl [H0]; · iexact H0
    isplitl [H1]; · iexact H1
    isplitl [H2]; · iexact H2
    isplitl [Hn]; · iexists n; iexact Hn
    isplitl [Hd]; · iexists d; iexact Hd
    iintro ⟨H0, H1, H2, Hn, Hd⟩
    isplitl [Hn Hd Hrest]
    · iexists _, _
      isplitr
      · ipureintro
        intro _
        rw [Fin.val_succ, acc2_succ_first V c t h0]
        exact ⟨rfl, rfl⟩
      isplitl [Hn]; · iexact Hn
      isplitl [Hd]; · iexact Hd
      iexact Hrest
    isplitl [Ho]; · iexact Ho
    isplitl [H0]; · iexact H0
    isplitl [H1]; · iexact H1
    iexists d2; iexact H2
  · have ht : t.castSucc.val ≠ 0 := by rw [Fin.coe_castSucc]; omega
    by_cases h7 : t.val % 8 = 7
    · -- k = 7: the accumulators take the tile's contribution and the output block is stored from them
      have hi : idle2 2 (grid2.coords t) = false := Bool.eq_false_iff.mpr fun h => (idle2_2 t).mp h h7
      simp only [hi]
      rw [after2_2]
      iintro ⟨⟨%n, %d, %hnd, Hn, Hd, Hrest⟩, Ho, ⟨%d0, H0⟩, ⟨%d1, H1⟩, ⟨%d2, H2⟩⟩
      obtain ⟨hn, hd⟩ := hnd ht
      rw [Fin.coe_castSucc] at hn hd
      subst hn hd
      iapply (body2_last c (grid2.coords t) ((kcoord2 t).trans h7)
        (win2_0.stage (cfg2.slots t 0)) (hstage2_0 ((cfg2.slots t 0).cast nbuf2_0))
        (win2_1.stage (cfg2.slots t 1)) (hstage2_1 ((cfg2.slots t 1).cast nbuf2_1))
        (win2_2.stage (cfg2.slots t 2)) (hstage2_2 ((cfg2.slots t 2).cast nbuf2_2))
        (Memref.whole cc2_scratch0) (Memref.isWhole_whole _) (Memref.whole cc2_scratch1) (Memref.isWhole_whole _)
        (xq2 V c t) (xk2 V c t) (acc2 V c t.val).1 (acc2 V c t.val).2 _)
      isplitl [H0]; · iexact H0
      isplitl [H1]; · iexact H1
      isplitl [H2]; · iexists _; iexact H2
      isplitl [Hn]; · iexact Hn
      isplitl [Hd]; · iexact Hd
      iintro ⟨H0, H1, H2, Hn, Hd⟩
      isplitl [Hn Hd Hrest]
      · iexists _, _
        isplitr
        · ipureintro
          intro _
          rw [Fin.val_succ, acc2_succ_next V c t h0]
          exact ⟨rfl, rfl⟩
        isplitl [Hn]; · iexact Hn
        isplitl [Hd]; · iexact Hd
        iexact Hrest
      isplitl [Ho]; · iexact Ho
      isplitl [H0]; · iexact H0
      isplitl [H1]; · iexact H1
      unfold out2
      rw [acc2_succ_next V c t h0]
      iexact H2
    · -- 0 < k < 7: the accumulators take the tile's contribution; the output's buffer is handed back as found
      have hi : idle2 2 (grid2.coords t) = true := (idle2_2 t).mpr h7
      have hf : (win2 2).flush t = false := Bool.eq_false_iff.mpr fun h => absurd ((flush2_2 t).mp h) h7
      simp only [hi, hf]
      iintro ⟨⟨%n, %d, %hnd, Hn, Hd, Hrest⟩, Ho, ⟨%d0, H0⟩, ⟨%d1, H1⟩, ⟨%d2, H2⟩⟩
      obtain ⟨hn, hd⟩ := hnd ht
      rw [Fin.coe_castSucc] at hn hd
      subst hn hd
      iapply (body2_mid c (grid2.coords t) (by rw [kcoord2 t]; exact h0) (by rw [kcoord2 t]; exact h7)
        (win2_0.stage (cfg2.slots t 0)) (hstage2_0 ((cfg2.slots t 0).cast nbuf2_0))
        (win2_1.stage (cfg2.slots t 1)) (hstage2_1 ((cfg2.slots t 1).cast nbuf2_1))
        (win2_2.stage (cfg2.slots t 2)) (hstage2_2 ((cfg2.slots t 2).cast nbuf2_2))
        (Memref.whole cc2_scratch0) (Memref.isWhole_whole _) (Memref.whole cc2_scratch1) (Memref.isWhole_whole _)
        (xq2 V c t) (xk2 V c t) ((dat2 V c).before 2 t d2) (acc2 V c t.val).1 (acc2 V c t.val).2 _)
      isplitl [H0]; · iexact H0
      isplitl [H1]; · iexact H1
      isplitl [H2]; · iexact H2
      isplitl [Hn]; · iexact Hn
      isplitl [Hd]; · iexact Hd
      iintro ⟨H0, H1, H2, Hn, Hd⟩
      isplitl [Hn Hd Hrest]
      · iexists _, _
        isplitr
        · ipureintro
          intro _
          rw [Fin.val_succ, acc2_succ_next V c t h0]
          exact ⟨rfl, rfl⟩
        isplitl [Hn]; · iexact Hn
        isplitl [Hd]; · iexact Hd
        iexact Hrest
      isplitl [Ho]; · iexact Ho
      isplitl [H0]; · iexact H0
      isplitl [H1]; · iexact H1
      iexists d2; iexact H2

end Cert.Kernel.Hand

end
-- ==== Proof.KB.Fam.lean ====
import proofs.«135566_j39496519254112_1_alg».proof.Proof.KB.Dat0
import proofs.«135566_j39496519254112_1_alg».proof.Proof.KB.Dat1
import proofs.«135566_j39496519254112_1_alg».proof.Proof.KB.Dat2
import proofs.«135566_j39496519254112_1_alg».proof.Proof.Gen.Kernel.Regions

/-!
# The three pallas_calls' proof data as one family

Each mean-shift step is a pallas_call entered from the buffer contents the items before it left:
`W p` are those contents at the entry of call `p`. Besides the buffers a core carries only
that it owes no other core anything.
-/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Fin 3 → Dev nD → Valuation τ sig (Elt F))

/-- A valuation read at the TensorCore's references: what a pallas_call's proof data take. -/
abbrev atTc (W : Dev nD → Valuation τ sig (Elt F)) : (c : Dev nD) → (b : Ref sig .tc) → Buf (Elt F) ((c : Thread nD τ).loc b) :=
  fun c b => W c b

/-- The calls' places in @main's list of pipelines. -/
abbrev pix0 : Fin 3 := 0
abbrev pix1 : Fin 3 := 1
abbrev pix2 : Fin 3 := 2

/-- The entry contents of each call. -/
abbrev We0 : Dev nD → Valuation τ sig (Elt F) := W 0
abbrev We1 : Dev nD → Valuation τ sig (Elt F) := W 1
abbrev We2 : Dev nD → Valuation τ sig (Elt F) := W 2

/-- Every pallas_call's proof data, each at its entry contents. -/
def pdats : (p : Fin 3) → (c : Dev nD) → Dat τ (Elt F) Unit ℕ (UR sig nD τ) ℕ (Pipeline.pin (pcfgs (F := F)) adm p) c
  | ⟨0, _⟩ => fun c => dat0 (atTc (We0 W)) c
  | ⟨1, _⟩ => fun c => dat1 (atTc (We1 W)) c
  | ⟨2, _⟩ => fun c => dat2 (atTc (We2 W)) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core owes nothing. -/
abbrev owe (c : Dev nD) : sProp 𝕄 := iprop(∃ W, owes (c : Thread nD τ) (0 : CellTallies nD τ sig Unit) W)

end Cert.Kernel.Hand

end
-- ==== Proof.KB.Exit0.lean ====
import proofs.«135566_j39496519254112_1_alg».proof.Proof.KB.Fam

/-!
# The buffer contents a mean-shift step's pallas_call leaves

Only the result array changes: it holds what the write-backs of the 64 points leave.
-/

noncomputable section

namespace Cert.Kernel.Hand

open Cert.Kernel Cert.Kernel.Gen
open Idealize.ShloMosaic Idealize.ShloMosaic.TcCoe
open Idealize.SL.Sem

variable {F : FTy → Type} [FloatOps F]

/-- The result array after the call: the write-backs of all 64 points folded over the entry contents. -/
def Arr0 (Wa : Dev nD → Valuation τ sig (Elt F)) (c : Dev nD) : Buf (Elt F) ((c : Thread nD τ).loc main_v1) := (dat0 (atTc Wa) c).arrAt 2 cfg0.N

/-- The buffer contents at the call's exit: the entry contents but for the result array. -/
abbrev exitV0 (Wa : Dev nD → Valuation τ sig (Elt F)) (c : Dev nD) : Valuation τ sig (Elt F) := Function.update (Wa c) main_v1 (Arr0 Wa c)

end Cert.Kernel.Hand

end
-- ==== Proof.KB.Exit1.lean ====
import proofs.«135566_j39496519254112_1_alg».proof.Proof.KB.Fam

/-!
# The buffer contents a mean-shift step's pallas_call leaves

Only the result array changes: it holds what the write-backs of the 64 points leave.
-/

noncomputable section

namespace Cert.Kernel.Hand

open Cert.Kernel Cert.Kernel.Gen
open Idealize.ShloMosaic Idealize.ShloMosaic.TcCoe
open Idealize.SL.Sem

variable {F : FTy → Type} [FloatOps F]

/-- The result array after the call: the write-backs of all 64 points folded over the entry contents. -/
def Arr1 (Wa : Dev nD → Valuation τ sig (Elt F)) (c : Dev nD) : Buf (Elt F) ((c : Thread nD τ).loc main_v3) := (dat1 (atTc Wa) c).arrAt 2 cfg1.N

/-- The buffer contents at the call's exit: the entry contents but for the result array. -/
abbrev exitV1 (Wa : Dev nD → Valuation τ sig (Elt F)) (c : Dev nD) : Valuation τ sig (Elt F) := Function.update (Wa c) main_v3 (Arr1 Wa c)

end Cert.Kernel.Hand

end
-- ==== Proof.KB.Exit2.lean ====
import proofs.«135566_j39496519254112_1_alg».proof.Proof.KB.Fam

/-!
# The buffer contents a mean-shift step's pallas_call leaves

Only the result array changes: it holds what the write-backs of the 64 points leave.
-/

noncomputable section

namespace Cert.Kernel.Hand

open Cert.Kernel Cert.Kernel.Gen
open Idealize.ShloMosaic Idealize.ShloMosaic.TcCoe
open Idealize.SL.Sem

variable {F : FTy → Type} [FloatOps F]

/-- The result array after the call: the write-backs of all 64 points folded over the entry contents. -/
def Arr2 (Wa : Dev nD → Valuation τ sig (Elt F)) (c : Dev nD) : Buf (Elt F) ((c : Thread nD τ).loc main_v5) := (dat2 (atTc Wa) c).arrAt 2 cfg2.N

/-- The buffer contents at the call's exit: the entry contents but for the result array. -/
abbrev exitV2 (Wa : Dev nD → Valuation τ sig (Elt F)) (c : Dev nD) : Valuation τ sig (Elt F) := Function.update (Wa c) main_v5 (Arr2 Wa c)

end Cert.Kernel.Hand

end
-- ==== Proof.KB.Fold.lean ====
import proofs.«135566_j39496519254112_1_alg».proof.Proof.KB.Exit0
import proofs.«135566_j39496519254112_1_alg».proof.Proof.KB.Exit1
import proofs.«135566_j39496519254112_1_alg».proof.Proof.KB.Exit2

/-!
# The buffer contents between the items of @main

A fold from the launch memory: a stretch of host operations applies them, a pallas_call replaces
its result array by what its write-backs leave.
-/

noncomputable section

namespace Cert.Kernel.Hand

open Cert.Kernel Cert.Kernel.Gen
open Idealize.ShloMosaic Idealize.ShloMosaic.TcCoe
open Idealize.SL.Sem

variable {F : FTy → Type} [FloatOps F]

variable (m : (ℓ : Loc nD τ sig) → Buf (Elt F) ℓ)

/-- At launch. -/
abbrev U0 : Dev nD → Valuation τ sig (Elt F) := fun c b => m (c, b)
/-- After the first host stretch (the first call's entry). -/
abbrev U1 : Dev nD → Valuation τ sig (Elt F) := fun c => StableHlo.after hostOps0 (U0 m c)
/-- After the first call. -/
abbrev U2 : Dev nD → Valuation τ sig (Elt F) := fun c => exitV0 (U1 m) c
/-- After the second host stretch (the second call's entry). -/
abbrev U3 : Dev nD → Valuation τ sig (Elt F) := fun c => StableHlo.after hostOps1 (U2 m c)
/-- After the second call. -/
abbrev U4 : Dev nD → Valuation τ sig (Elt F) := fun c => exitV1 (U3 m) c
/-- After the third host stretch (the third call's entry). -/
abbrev U5 : Dev nD → Valuation τ sig (Elt F) := fun c => StableHlo.after hostOps2 (U4 m c)
/-- After the third call. -/
abbrev U6 : Dev nD → Valuation τ sig (Elt F) := fun c => exitV2 (U5 m) c
/-- After the last host stretch: at the return. -/
abbrev U7 : Dev nD → Valuation τ sig (Elt F) := fun c => StableHlo.after hostOps3 (U6 m c)

/-- The three calls' entry contents. -/
abbrev Ws : Fin 3 → Dev nD → Valuation τ sig (Elt F)
  | ⟨0, _⟩ => U1 m
  | ⟨1, _⟩ => U3 m
  | ⟨2, _⟩ => U5 m

/-- The three calls' proof data, each at its entry contents. -/
abbrev fam := pdats (F := F) (Ws m)

end Cert.Kernel.Hand

end
-- ==== Proof.KB.Reg0.lean ====
import proofs.«135566_j39496519254112_1_alg».proof.Proof.KB.Exit0
import Idealize.ShloMosaic.Lib.Pipeline.RegionsLoop
import Idealize.ShloMosaic.Lib.Pipeline.FrameSuffix

/-!
# A mean-shift step's pallas_call as an item of @main

The call is entered from every unscoped buffer held at the contents `Wa` and left with the same
buffers but the result array, which holds what the write-backs of the 64 points leave. The array
behind both input windows is lent to them half each at entry and put together again at exit (an
input array is never written, so both halves come back at the entry contents).
-/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Fin 3 → Dev nD → Valuation τ sig (Elt F))

/-! ## The call's arrays among the unscoped buffers -/

section Arrays

variable (c : Dev nD)

/-- The unscoped buffers are the two buffers behind the call's arrays and the rest. -/
theorem unscopedBufs0_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec0 c V ∗ Pipeline.unscopedRest spec0 c V) :=
  Pipeline.unscopedBufs_split₀ cfgs pix0 winFacts₀0.arr_unscoped c V

/-- The buffers behind the arrays: the one both inputs read and the result's. -/
theorem arrBufs0_eq (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_v1) ↦{fullShare} V main_v1)) := by
  unfold Pipeline.arrBufs
  exact bigSep_eq_bigSepL_of_eq [main_v0, main_v1] (by decide) (by decide) _

/-- The proof data's arrays window by window: the shared array at a half each, the result's whole. -/
theorem arrays0_eq (V : (c : Dev nD) → (b : Ref sig .tc) → Buf (Elt F) ((c : Thread nD τ).loc b))
    (G : (w : Fin cfg0.W) → Buf (Elt F) ((cfg0.win w).arr.view.loc (c : Thread nD τ))) :
    (dat0 V c).arrays G
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W0, (arr_whole0 0).set_eq_univ, (arr_whole0 2).set_eq_univ]
  rfl

variable (V : Dev nD → Valuation τ sig (Elt F))

/-- ENTRY: the unscoped buffers lend the call its arrays, the shared one split in halves. -/
theorem arrays_of_held0 :
    (StableHlo.held (c : Thread nD τ) (Pipeline.ucRefs τ sig) (V c) : sProp 𝕄)
      ⊢ iprop((dat0 (atTc V) c).arrays (dat0 (atTc V) c).A
          ∗ Pipeline.unscopedRest (Ix := Unit) (Name := ℕ) (U := UR sig nD τ) (Lvl := ℕ) spec0 c (atTc V c)) := by
  rw [← Pipeline.unscopedBufs_held c (V c), unscopedBufs0_split, arrBufs0_eq, arrays0_eq, A_eq0, A_eq0, A_eq0]
  iintro ⟨⟨H0, H1⟩, Hrest⟩
  have hhalf : (((c : Thread nD τ).loc main_v0) ↦{fullShare} V c main_v0 : sProp 𝕄)
      ⊢ iprop((((c : Thread nD τ).loc main_v0) ↦{fullShare.left} V c main_v0) ∗ (((c : Thread nD τ).loc main_v0) ↦{fullShare.right} V c main_v0)) :=
    (pointsTo_share (PosShare.mem_left_op_right fullShare)).1
  ihave H := hhalf $$ H0
  icases H with ⟨Hl, Hr⟩
  isplitr [Hrest]
  · isplitl [Hl]; · iexact Hl
    isplitl [Hr]; · iexact Hr
    iexact H1
  · iexact Hrest

/-- Off the result array the exit contents are the entry contents. -/
theorem unscopedRest0_exit :
    (Pipeline.unscopedRest (Ix := Unit) (Name := ℕ) (U := UR sig nD τ) (Lvl := ℕ) spec0 c (fun b => exitV0 V c b) : sProp 𝕄)
      = Pipeline.unscopedRest spec0 c (atTc V c) := by
  unfold Pipeline.unscopedRest
  refine bigSep_congr fun b hb => ?_
  have hmem : main_v1 ∈ Finset.univ.image (Pipeline.arrRef spec0) := by decide
  have hne : b ≠ main_v1 := fun h => (Finset.mem_sdiff.mp hb).2 (h ▸ hmem)
  have e : exitV0 V c b = V c b := Function.update_of_ne (StableHlo.devRef_ne_of_ne hne) _ _
  exact congrArg (fun f : Buf (Elt F) ((c : Thread nD τ).loc b) => (((c : Thread nD τ).loc b) ↦{fullShare} f : sProp 𝕄)) e

/-- EXIT: the halves of the shared array, given back at the entry contents, and the result array make the
    unscoped buffers at the exit contents. -/
theorem held_of_arrays0 :
    iprop((dat0 (atTc V) c).arrays ((dat0 (atTc V) c).arrAt · cfg0.N)
        ∗ Pipeline.unscopedRest (Ix := Unit) (Name := ℕ) (U := UR sig nD τ) (Lvl := ℕ) spec0 c (atTc V c))
      ⊢ (StableHlo.held (c : Thread nD τ) (Pipeline.ucRefs τ sig) (exitV0 V c) : sProp 𝕄) := by
  have h0 : exitV0 V c (Proc.devRef .tc main_v0) = V c main_v0 :=
    Function.update_of_ne (StableHlo.devRef_ne_of_ne (by decide)) _ _
  have h1 : exitV0 V c (Proc.devRef .tc main_v1) = Arr0 V c := Function.update_self ..
  rw [← Pipeline.unscopedBufs_held c (exitV0 V c), unscopedBufs0_split, arrBufs0_eq, unscopedRest0_exit, h0, h1, arrays0_eq,
    (dat0 (atTc V) c).arrAt_in 0 rfl, (dat0 (atTc V) c).arrAt_in 1 rfl, A_eq0, A_eq0]
  iintro ⟨⟨Hl, Hr, H1⟩, Hrest⟩
  isplitr [Hrest]
  · isplitl [Hl Hr]
    · have hwhole : iprop((((c : Thread nD τ).loc main_v0) ↦{fullShare.left} V c main_v0) ∗ (((c : Thread nD τ).loc main_v0) ↦{fullShare.right} V c main_v0))
          ⊢ (((c : Thread nD τ).loc main_v0) ↦{fullShare} V c main_v0 : sProp 𝕄) :=
        (pointsTo_share (PosShare.mem_left_op_right fullShare)).2
      iapply hwhole
      isplitl [Hl]; · iexact Hl
      iexact Hr
    · iexact H1
  · iexact Hrest

end Arrays

/-! ## The scoped buffers no window stages, and the invariant at the first and the last point -/

section Scoped

variable (V : (c : Dev nD) → (b : Ref sig .tc) → Buf (Elt F) ((c : Thread nD τ).loc b)) (c : Dev nD)

/-- The scoped buffers no window stages: the call's two accumulators, then the other calls' buffers. -/
theorem scoped_perm0 :
    (Pipeline.scopedRest (Ix := Unit) (Name := ℕ) (U := UR sig nD τ) (Lvl := ℕ) (Val := Elt F) spec0 c : sProp 𝕄)
      ⊢ iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ rest0 c) := by
  rw [scopedRest0_eq]
  unfold rest0
  iintro ⟨H_cc0_scratch0, H_cc0_scratch1, H_cc1_stg0_0, H_cc1_stg0_1, H_cc1_stg1_0, H_cc1_stg1_1, H_cc1_stg2_0, H_cc1_stg2_1, H_cc1_scratch0, H_cc1_scratch1, H_cc2_stg0_0, H_cc2_stg0_1, H_cc2_stg1_0, H_cc2_stg1_1, H_cc2_stg2_0, H_cc2_stg2_1, H_cc2_scratch0, H_cc2_scratch1⟩
  isplitl [H_cc0_scratch0]; · iexact H_cc0_scratch0
  isplitl [H_cc0_scratch1]; · iexact H_cc0_scratch1
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  isplitl [H_cc1_stg2_1]; · iexact H_cc1_stg2_1
  isplitl [H_cc1_scratch0]; · iexact H_cc1_scratch0
  isplitl [H_cc1_scratch1]; · iexact H_cc1_scratch1
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  isplitl [H_cc2_stg2_1]; · iexact H_cc2_stg2_1
  isplitl [H_cc2_scratch0]; · iexact H_cc2_scratch0
  iexact H_cc2_scratch1

/-- The same, read the other way. -/
theorem scoped_unperm0 :
    iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ rest0 c)
      ⊢ (Pipeline.scopedRest (Ix := Unit) (Name := ℕ) (U := UR sig nD τ) (Lvl := ℕ) (Val := Elt F) spec0 c : sProp 𝕄) := by
  rw [scopedRest0_eq]
  unfold rest0
  iintro ⟨H_cc0_scratch0, H_cc0_scratch1, H_cc1_stg0_0, H_cc1_stg0_1, H_cc1_stg1_0, H_cc1_stg1_1, H_cc1_stg2_0, H_cc1_stg2_1, H_cc1_scratch0, H_cc1_scratch1, H_cc2_stg0_0, H_cc2_stg0_1, H_cc2_stg1_0, H_cc2_stg1_1, H_cc2_stg2_0, H_cc2_stg2_1, H_cc2_scratch0, H_cc2_scratch1⟩
  isplitl [H_cc0_scratch0]; · iexact H_cc0_scratch0
  isplitl [H_cc0_scratch1]; · iexact H_cc0_scratch1
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  isplitl [H_cc1_stg2_1]; · iexact H_cc1_stg2_1
  isplitl [H_cc1_scratch0]; · iexact H_cc1_scratch0
  isplitl [H_cc1_scratch1]; · iexact H_cc1_scratch1
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  isplitl [H_cc2_stg2_1]; · iexact H_cc2_stg2_1
  isplitl [H_cc2_scratch0]; · iexact H_cc2_scratch0
  iexact H_cc2_scratch1

/-- The accumulators at whatever they hold and the other scoped buffers make the invariant before the first point. -/
theorem inv0_first (P Q : sProp 𝕄) :
    iprop(P ∗ Q ∗ Pipeline.scopedRest (Ix := Unit) (Name := ℕ) (U := UR sig nD τ) (Lvl := ℕ) (Val := Elt F) spec0 c) ⊢ inv0 V c 0 := by
  unfold inv0
  simp only [owns_whole]
  iintro ⟨-, -, Hs⟩
  ihave H := (scoped_perm0 (F := F) c) $$ Hs
  icases H with ⟨⟨%n, H0⟩, ⟨%d, H1⟩, Hrest⟩
  iexists n, d
  isplitr; · ipureintro; intro h; exact absurd rfl h
  isplitl [H0]; · iexact H0
  isplitl [H1]; · iexact H1
  iexact Hrest

/-- The invariant after the last point gives the scoped buffers back, at whatever they hold. -/
theorem inv0_last :
    inv0 V c (Fin.last cfg0.N)
      ⊢ iprop(BI.emp ∗ BI.emp ∗ Pipeline.scopedRest (Ix := Unit) (Name := ℕ) (U := UR sig nD τ) (Lvl := ℕ) (Val := Elt F) spec0 c) := by
  unfold inv0
  simp only [owns_whole]
  iintro ⟨%n, %d, -, H0, H1, Hrest⟩
  isplitr; · iempintro
  isplitr; · iempintro
  iapply (scoped_unperm0 (F := F) c)
  isplitl [H0]; · iexists n; iexact H0
  isplitl [H1]; · iexists d; iexact H1
  iexact Hrest

end Scoped

-- a library lemma stated over `pin pcs a p` unifies with the pinned configuration only when unification may
-- unfold plain definitions in a metavariable's type
set_option backward.isDefEq.respectTransparency.types false in
/-- The call over the thread state "every unscoped buffer at `Wa`, nothing owed". -/
def reg0 : Pipeline.RegionSeg (pcfgs (F := F)) adm (pdats W) () defs₀ 𝒱₀ L lv pix0 where
  win := winFacts₀0
  block_pos := block_pos0
  stage_whole := stage_whole0
  K := PEmpty
  osem k := k.elim
  ho := Pipeline.OwnSemFacts.none _
  hbody c := (body_obligation0 (atTc (We0 W)) c).loose
  hwaits := Pipeline.hwaits_of_owed_zero _ _ _ _ L lv pix0 fun _ _ => rfl
  pre c := iprop(StableHlo.held (c : Thread nD τ) (Pipeline.ucRefs τ sig) (We0 W c) ∗ owe c)
  post c := iprop(StableHlo.held (c : Thread nD τ) (Pipeline.ucRefs τ sig) (exitV0 (We0 W) c) ∗ owe c)
  X _ := BI.emp
  Y _ := BI.emp
  Z c := Pipeline.unscopedRest (Ix := Unit) (Name := ℕ) (U := UR sig nD τ) (Lvl := ℕ) spec0 c (atTc (We0 W) c)
  hentry c := by
    rw [Pipeline.ownSems0_none]
    have hsplit := arrays_of_held0 (F := F) c (We0 W)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitr; · iempintro
    iexact Hrest
  hin c := by
    exact inv0_first (atTc (We0 W)) c _ _
  hout c := by
    rw [Pipeline.ownSems0_none]
    exact inv0_last (atTc (We0 W)) c
  hexit c := by
    have hjoin := held_of_arrays0 (F := F) c (We0 W)
    iintro ⟨Ha, HO, -, Hrest⟩
    imodintro
    isplitl [Ha Hrest]
    · iapply hjoin; isplitl [Ha]; · iexact Ha
      iexact Hrest
    unfold Pipeline.Dat.owesAt Pipeline.owesWithin
    icases HO with ⟨%T, -, HO⟩; iexists T; iexact HO

end Cert.Kernel.Hand

end
-- ==== Proof.KB.Reg1.lean ====
import proofs.«135566_j39496519254112_1_alg».proof.Proof.KB.Exit1
import Idealize.ShloMosaic.Lib.Pipeline.RegionsLoop
import Idealize.ShloMosaic.Lib.Pipeline.FrameSuffix

/-!
# A mean-shift step's pallas_call as an item of @main

The call is entered from every unscoped buffer held at the contents `Wa` and left with the same
buffers but the result array, which holds what the write-backs of the 64 points leave. The array
behind both input windows is lent to them half each at entry and put together again at exit (an
input array is never written, so both halves come back at the entry contents).
-/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Fin 3 → Dev nD → Valuation τ sig (Elt F))

/-! ## The call's arrays among the unscoped buffers -/

section Arrays

variable (c : Dev nD)

/-- The unscoped buffers are the two buffers behind the call's arrays and the rest. -/
theorem unscopedBufs1_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec1 c V ∗ Pipeline.unscopedRest spec1 c V) :=
  Pipeline.unscopedBufs_split₀ cfgs pix1 winFacts₀1.arr_unscoped c V

/-- The buffers behind the arrays: the one both inputs read and the result's. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v3) ↦{fullShare} V main_v3)) := by
  unfold Pipeline.arrBufs
  exact bigSep_eq_bigSepL_of_eq [main_v1, main_v3] (by decide) (by decide) _

/-- The proof data's arrays window by window: the shared array at a half each, the result's whole. -/
theorem arrays1_eq (V : (c : Dev nD) → (b : Ref sig .tc) → Buf (Elt F) ((c : Thread nD τ).loc b))
    (G : (w : Fin cfg1.W) → Buf (Elt F) ((cfg1.win w).arr.view.loc (c : Thread nD τ))) :
    (dat1 V c).arrays G
      = iprop((((c : Thread nD τ).loc main_v1) ↦{fullShare.left} G 0) ∗ (((c : Thread nD τ).loc main_v1) ↦{fullShare.right} G 1)
          ∗ (((c : Thread nD τ).loc main_v3) ↦{fullShare} G 2)) := by
  unfold Dat.arrays
  rw [bigSep_W1, (arr_whole1 0).set_eq_univ, (arr_whole1 2).set_eq_univ]
  rfl

variable (V : Dev nD → Valuation τ sig (Elt F))

/-- ENTRY: the unscoped buffers lend the call its arrays, the shared one split in halves. -/
theorem arrays_of_held1 :
    (StableHlo.held (c : Thread nD τ) (Pipeline.ucRefs τ sig) (V c) : sProp 𝕄)
      ⊢ iprop((dat1 (atTc V) c).arrays (dat1 (atTc V) c).A
          ∗ Pipeline.unscopedRest (Ix := Unit) (Name := ℕ) (U := UR sig nD τ) (Lvl := ℕ) spec1 c (atTc V c)) := by
  rw [← Pipeline.unscopedBufs_held c (V c), unscopedBufs1_split, arrBufs1_eq, arrays1_eq, A_eq1, A_eq1, A_eq1]
  iintro ⟨⟨H0, H1⟩, Hrest⟩
  have hhalf : (((c : Thread nD τ).loc main_v1) ↦{fullShare} V c main_v1 : sProp 𝕄)
      ⊢ iprop((((c : Thread nD τ).loc main_v1) ↦{fullShare.left} V c main_v1) ∗ (((c : Thread nD τ).loc main_v1) ↦{fullShare.right} V c main_v1)) :=
    (pointsTo_share (PosShare.mem_left_op_right fullShare)).1
  ihave H := hhalf $$ H0
  icases H with ⟨Hl, Hr⟩
  isplitr [Hrest]
  · isplitl [Hl]; · iexact Hl
    isplitl [Hr]; · iexact Hr
    iexact H1
  · iexact Hrest

/-- Off the result array the exit contents are the entry contents. -/
theorem unscopedRest1_exit :
    (Pipeline.unscopedRest (Ix := Unit) (Name := ℕ) (U := UR sig nD τ) (Lvl := ℕ) spec1 c (fun b => exitV1 V c b) : sProp 𝕄)
      = Pipeline.unscopedRest spec1 c (atTc V c) := by
  unfold Pipeline.unscopedRest
  refine bigSep_congr fun b hb => ?_
  have hmem : main_v3 ∈ Finset.univ.image (Pipeline.arrRef spec1) := by decide
  have hne : b ≠ main_v3 := fun h => (Finset.mem_sdiff.mp hb).2 (h ▸ hmem)
  have e : exitV1 V c b = V c b := Function.update_of_ne (StableHlo.devRef_ne_of_ne hne) _ _
  exact congrArg (fun f : Buf (Elt F) ((c : Thread nD τ).loc b) => (((c : Thread nD τ).loc b) ↦{fullShare} f : sProp 𝕄)) e

/-- EXIT: the halves of the shared array, given back at the entry contents, and the result array make the
    unscoped buffers at the exit contents. -/
theorem held_of_arrays1 :
    iprop((dat1 (atTc V) c).arrays ((dat1 (atTc V) c).arrAt · cfg1.N)
        ∗ Pipeline.unscopedRest (Ix := Unit) (Name := ℕ) (U := UR sig nD τ) (Lvl := ℕ) spec1 c (atTc V c))
      ⊢ (StableHlo.held (c : Thread nD τ) (Pipeline.ucRefs τ sig) (exitV1 V c) : sProp 𝕄) := by
  have h0 : exitV1 V c (Proc.devRef .tc main_v1) = V c main_v1 :=
    Function.update_of_ne (StableHlo.devRef_ne_of_ne (by decide)) _ _
  have h1 : exitV1 V c (Proc.devRef .tc main_v3) = Arr1 V c := Function.update_self ..
  rw [← Pipeline.unscopedBufs_held c (exitV1 V c), unscopedBufs1_split, arrBufs1_eq, unscopedRest1_exit, h0, h1, arrays1_eq,
    (dat1 (atTc V) c).arrAt_in 0 rfl, (dat1 (atTc V) c).arrAt_in 1 rfl, A_eq1, A_eq1]
  iintro ⟨⟨Hl, Hr, H1⟩, Hrest⟩
  isplitr [Hrest]
  · isplitl [Hl Hr]
    · have hwhole : iprop((((c : Thread nD τ).loc main_v1) ↦{fullShare.left} V c main_v1) ∗ (((c : Thread nD τ).loc main_v1) ↦{fullShare.right} V c main_v1))
          ⊢ (((c : Thread nD τ).loc main_v1) ↦{fullShare} V c main_v1 : sProp 𝕄) :=
        (pointsTo_share (PosShare.mem_left_op_right fullShare)).2
      iapply hwhole
      isplitl [Hl]; · iexact Hl
      iexact Hr
    · iexact H1
  · iexact Hrest

end Arrays

/-! ## The scoped buffers no window stages, and the invariant at the first and the last point -/

section Scoped

variable (V : (c : Dev nD) → (b : Ref sig .tc) → Buf (Elt F) ((c : Thread nD τ).loc b)) (c : Dev nD)

/-- The scoped buffers no window stages: the call's two accumulators, then the other calls' buffers. -/
theorem scoped_perm1 :
    (Pipeline.scopedRest (Ix := Unit) (Name := ℕ) (U := UR sig nD τ) (Lvl := ℕ) (Val := Elt F) spec1 c : sProp 𝕄)
      ⊢ iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ rest1 c) := by
  rw [scopedRest1_eq]
  unfold rest1
  iintro ⟨H_cc0_stg0_0, H_cc0_stg0_1, H_cc0_stg1_0, H_cc0_stg1_1, H_cc0_stg2_0, H_cc0_stg2_1, H_cc0_scratch0, H_cc0_scratch1, H_cc1_scratch0, H_cc1_scratch1, H_cc2_stg0_0, H_cc2_stg0_1, H_cc2_stg1_0, H_cc2_stg1_1, H_cc2_stg2_0, H_cc2_stg2_1, H_cc2_scratch0, H_cc2_scratch1⟩
  isplitl [H_cc1_scratch0]; · iexact H_cc1_scratch0
  isplitl [H_cc1_scratch1]; · iexact H_cc1_scratch1
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_stg2_1]; · iexact H_cc0_stg2_1
  isplitl [H_cc0_scratch0]; · iexact H_cc0_scratch0
  isplitl [H_cc0_scratch1]; · iexact H_cc0_scratch1
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  isplitl [H_cc2_stg2_1]; · iexact H_cc2_stg2_1
  isplitl [H_cc2_scratch0]; · iexact H_cc2_scratch0
  iexact H_cc2_scratch1

/-- The same, read the other way. -/
theorem scoped_unperm1 :
    iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ rest1 c)
      ⊢ (Pipeline.scopedRest (Ix := Unit) (Name := ℕ) (U := UR sig nD τ) (Lvl := ℕ) (Val := Elt F) spec1 c : sProp 𝕄) := by
  rw [scopedRest1_eq]
  unfold rest1
  iintro ⟨H_cc1_scratch0, H_cc1_scratch1, H_cc0_stg0_0, H_cc0_stg0_1, H_cc0_stg1_0, H_cc0_stg1_1, H_cc0_stg2_0, H_cc0_stg2_1, H_cc0_scratch0, H_cc0_scratch1, H_cc2_stg0_0, H_cc2_stg0_1, H_cc2_stg1_0, H_cc2_stg1_1, H_cc2_stg2_0, H_cc2_stg2_1, H_cc2_scratch0, H_cc2_scratch1⟩
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_stg2_1]; · iexact H_cc0_stg2_1
  isplitl [H_cc0_scratch0]; · iexact H_cc0_scratch0
  isplitl [H_cc0_scratch1]; · iexact H_cc0_scratch1
  isplitl [H_cc1_scratch0]; · iexact H_cc1_scratch0
  isplitl [H_cc1_scratch1]; · iexact H_cc1_scratch1
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  isplitl [H_cc2_stg2_1]; · iexact H_cc2_stg2_1
  isplitl [H_cc2_scratch0]; · iexact H_cc2_scratch0
  iexact H_cc2_scratch1

/-- The accumulators at whatever they hold and the other scoped buffers make the invariant before the first point. -/
theorem inv1_first (P Q : sProp 𝕄) :
    iprop(P ∗ Q ∗ Pipeline.scopedRest (Ix := Unit) (Name := ℕ) (U := UR sig nD τ) (Lvl := ℕ) (Val := Elt F) spec1 c) ⊢ inv1 V c 0 := by
  unfold inv1
  simp only [owns_whole]
  iintro ⟨-, -, Hs⟩
  ihave H := (scoped_perm1 (F := F) c) $$ Hs
  icases H with ⟨⟨%n, H0⟩, ⟨%d, H1⟩, Hrest⟩
  iexists n, d
  isplitr; · ipureintro; intro h; exact absurd rfl h
  isplitl [H0]; · iexact H0
  isplitl [H1]; · iexact H1
  iexact Hrest

/-- The invariant after the last point gives the scoped buffers back, at whatever they hold. -/
theorem inv1_last :
    inv1 V c (Fin.last cfg1.N)
      ⊢ iprop(BI.emp ∗ BI.emp ∗ Pipeline.scopedRest (Ix := Unit) (Name := ℕ) (U := UR sig nD τ) (Lvl := ℕ) (Val := Elt F) spec1 c) := by
  unfold inv1
  simp only [owns_whole]
  iintro ⟨%n, %d, -, H0, H1, Hrest⟩
  isplitr; · iempintro
  isplitr; · iempintro
  iapply (scoped_unperm1 (F := F) c)
  isplitl [H0]; · iexists n; iexact H0
  isplitl [H1]; · iexists d; iexact H1
  iexact Hrest

end Scoped

-- a library lemma stated over `pin pcs a p` unifies with the pinned configuration only when unification may
-- unfold plain definitions in a metavariable's type
set_option backward.isDefEq.respectTransparency.types false in
/-- The call over the thread state "every unscoped buffer at `Wa`, nothing owed". -/
def reg1 : Pipeline.RegionSeg (pcfgs (F := F)) adm (pdats W) () defs₀ 𝒱₀ L lv pix1 where
  win := winFacts₀1
  block_pos := block_pos1
  stage_whole := stage_whole1
  K := PEmpty
  osem k := k.elim
  ho := Pipeline.OwnSemFacts.none _
  hbody c := (body_obligation1 (atTc (We1 W)) c).loose
  hwaits := Pipeline.hwaits_of_owed_zero _ _ _ _ L lv pix1 fun _ _ => rfl
  pre c := iprop(StableHlo.held (c : Thread nD τ) (Pipeline.ucRefs τ sig) (We1 W c) ∗ owe c)
  post c := iprop(StableHlo.held (c : Thread nD τ) (Pipeline.ucRefs τ sig) (exitV1 (We1 W) c) ∗ owe c)
  X _ := BI.emp
  Y _ := BI.emp
  Z c := Pipeline.unscopedRest (Ix := Unit) (Name := ℕ) (U := UR sig nD τ) (Lvl := ℕ) spec1 c (atTc (We1 W) c)
  hentry c := by
    rw [Pipeline.ownSems0_none]
    have hsplit := arrays_of_held1 (F := F) c (We1 W)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitr; · iempintro
    iexact Hrest
  hin c := by
    exact inv1_first (atTc (We1 W)) c _ _
  hout c := by
    rw [Pipeline.ownSems0_none]
    exact inv1_last (atTc (We1 W)) c
  hexit c := by
    have hjoin := held_of_arrays1 (F := F) c (We1 W)
    iintro ⟨Ha, HO, -, Hrest⟩
    imodintro
    isplitl [Ha Hrest]
    · iapply hjoin; isplitl [Ha]; · iexact Ha
      iexact Hrest
    unfold Pipeline.Dat.owesAt Pipeline.owesWithin
    icases HO with ⟨%T, -, HO⟩; iexists T; iexact HO

end Cert.Kernel.Hand

end
-- ==== Proof.KB.Reg2.lean ====
import proofs.«135566_j39496519254112_1_alg».proof.Proof.KB.Exit2
import Idealize.ShloMosaic.Lib.Pipeline.RegionsLoop
import Idealize.ShloMosaic.Lib.Pipeline.FrameSuffix

/-!
# A mean-shift step's pallas_call as an item of @main

The call is entered from every unscoped buffer held at the contents `Wa` and left with the same
buffers but the result array, which holds what the write-backs of the 64 points leave. The array
behind both input windows is lent to them half each at entry and put together again at exit (an
input array is never written, so both halves come back at the entry contents).
-/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Fin 3 → Dev nD → Valuation τ sig (Elt F))

/-! ## The call's arrays among the unscoped buffers -/

section Arrays

variable (c : Dev nD)

/-- The unscoped buffers are the two buffers behind the call's arrays and the rest. -/
theorem unscopedBufs2_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec2 c V ∗ Pipeline.unscopedRest spec2 c V) :=
  Pipeline.unscopedBufs_split₀ cfgs pix2 winFacts₀2.arr_unscoped c V

/-- The buffers behind the arrays: the one both inputs read and the result's. -/
theorem arrBufs2_eq (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v3) ↦{fullShare} V main_v3) ∗ (((c : Thread nD τ).loc main_v5) ↦{fullShare} V main_v5)) := by
  unfold Pipeline.arrBufs
  exact bigSep_eq_bigSepL_of_eq [main_v3, main_v5] (by decide) (by decide) _

/-- The proof data's arrays window by window: the shared array at a half each, the result's whole. -/
theorem arrays2_eq (V : (c : Dev nD) → (b : Ref sig .tc) → Buf (Elt F) ((c : Thread nD τ).loc b))
    (G : (w : Fin cfg2.W) → Buf (Elt F) ((cfg2.win w).arr.view.loc (c : Thread nD τ))) :
    (dat2 V c).arrays G
      = iprop((((c : Thread nD τ).loc main_v3) ↦{fullShare.left} G 0) ∗ (((c : Thread nD τ).loc main_v3) ↦{fullShare.right} G 1)
          ∗ (((c : Thread nD τ).loc main_v5) ↦{fullShare} G 2)) := by
  unfold Dat.arrays
  rw [bigSep_W2, (arr_whole2 0).set_eq_univ, (arr_whole2 2).set_eq_univ]
  rfl

variable (V : Dev nD → Valuation τ sig (Elt F))

/-- ENTRY: the unscoped buffers lend the call its arrays, the shared one split in halves. -/
theorem arrays_of_held2 :
    (StableHlo.held (c : Thread nD τ) (Pipeline.ucRefs τ sig) (V c) : sProp 𝕄)
      ⊢ iprop((dat2 (atTc V) c).arrays (dat2 (atTc V) c).A
          ∗ Pipeline.unscopedRest (Ix := Unit) (Name := ℕ) (U := UR sig nD τ) (Lvl := ℕ) spec2 c (atTc V c)) := by
  rw [← Pipeline.unscopedBufs_held c (V c), unscopedBufs2_split, arrBufs2_eq, arrays2_eq, A_eq2, A_eq2, A_eq2]
  iintro ⟨⟨H0, H1⟩, Hrest⟩
  have hhalf : (((c : Thread nD τ).loc main_v3) ↦{fullShare} V c main_v3 : sProp 𝕄)
      ⊢ iprop((((c : Thread nD τ).loc main_v3) ↦{fullShare.left} V c main_v3) ∗ (((c : Thread nD τ).loc main_v3) ↦{fullShare.right} V c main_v3)) :=
    (pointsTo_share (PosShare.mem_left_op_right fullShare)).1
  ihave H := hhalf $$ H0
  icases H with ⟨Hl, Hr⟩
  isplitr [Hrest]
  · isplitl [Hl]; · iexact Hl
    isplitl [Hr]; · iexact Hr
    iexact H1
  · iexact Hrest

/-- Off the result array the exit contents are the entry contents. -/
theorem unscopedRest2_exit :
    (Pipeline.unscopedRest (Ix := Unit) (Name := ℕ) (U := UR sig nD τ) (Lvl := ℕ) spec2 c (fun b => exitV2 V c b) : sProp 𝕄)
      = Pipeline.unscopedRest spec2 c (atTc V c) := by
  unfold Pipeline.unscopedRest
  refine bigSep_congr fun b hb => ?_
  have hmem : main_v5 ∈ Finset.univ.image (Pipeline.arrRef spec2) := by decide
  have hne : b ≠ main_v5 := fun h => (Finset.mem_sdiff.mp hb).2 (h ▸ hmem)
  have e : exitV2 V c b = V c b := Function.update_of_ne (StableHlo.devRef_ne_of_ne hne) _ _
  exact congrArg (fun f : Buf (Elt F) ((c : Thread nD τ).loc b) => (((c : Thread nD τ).loc b) ↦{fullShare} f : sProp 𝕄)) e

/-- EXIT: the halves of the shared array, given back at the entry contents, and the result array make the
    unscoped buffers at the exit contents. -/
theorem held_of_arrays2 :
    iprop((dat2 (atTc V) c).arrays ((dat2 (atTc V) c).arrAt · cfg2.N)
        ∗ Pipeline.unscopedRest (Ix := Unit) (Name := ℕ) (U := UR sig nD τ) (Lvl := ℕ) spec2 c (atTc V c))
      ⊢ (StableHlo.held (c : Thread nD τ) (Pipeline.ucRefs τ sig) (exitV2 V c) : sProp 𝕄) := by
  have h0 : exitV2 V c (Proc.devRef .tc main_v3) = V c main_v3 :=
    Function.update_of_ne (StableHlo.devRef_ne_of_ne (by decide)) _ _
  have h1 : exitV2 V c (Proc.devRef .tc main_v5) = Arr2 V c := Function.update_self ..
  rw [← Pipeline.unscopedBufs_held c (exitV2 V c), unscopedBufs2_split, arrBufs2_eq, unscopedRest2_exit, h0, h1, arrays2_eq,
    (dat2 (atTc V) c).arrAt_in 0 rfl, (dat2 (atTc V) c).arrAt_in 1 rfl, A_eq2, A_eq2]
  iintro ⟨⟨Hl, Hr, H1⟩, Hrest⟩
  isplitr [Hrest]
  · isplitl [Hl Hr]
    · have hwhole : iprop((((c : Thread nD τ).loc main_v3) ↦{fullShare.left} V c main_v3) ∗ (((c : Thread nD τ).loc main_v3) ↦{fullShare.right} V c main_v3))
          ⊢ (((c : Thread nD τ).loc main_v3) ↦{fullShare} V c main_v3 : sProp 𝕄) :=
        (pointsTo_share (PosShare.mem_left_op_right fullShare)).2
      iapply hwhole
      isplitl [Hl]; · iexact Hl
      iexact Hr
    · iexact H1
  · iexact Hrest

end Arrays

/-! ## The scoped buffers no window stages, and the invariant at the first and the last point -/

section Scoped

variable (V : (c : Dev nD) → (b : Ref sig .tc) → Buf (Elt F) ((c : Thread nD τ).loc b)) (c : Dev nD)

/-- The scoped buffers no window stages: the call's two accumulators, then the other calls' buffers. -/
theorem scoped_perm2 :
    (Pipeline.scopedRest (Ix := Unit) (Name := ℕ) (U := UR sig nD τ) (Lvl := ℕ) (Val := Elt F) spec2 c : sProp 𝕄)
      ⊢ iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ rest2 c) := by
  rw [scopedRest2_eq]
  unfold rest2
  iintro ⟨H_cc0_stg0_0, H_cc0_stg0_1, H_cc0_stg1_0, H_cc0_stg1_1, H_cc0_stg2_0, H_cc0_stg2_1, H_cc0_scratch0, H_cc0_scratch1, H_cc1_stg0_0, H_cc1_stg0_1, H_cc1_stg1_0, H_cc1_stg1_1, H_cc1_stg2_0, H_cc1_stg2_1, H_cc1_scratch0, H_cc1_scratch1, H_cc2_scratch0, H_cc2_scratch1⟩
  isplitl [H_cc2_scratch0]; · iexact H_cc2_scratch0
  isplitl [H_cc2_scratch1]; · iexact H_cc2_scratch1
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_stg2_1]; · iexact H_cc0_stg2_1
  isplitl [H_cc0_scratch0]; · iexact H_cc0_scratch0
  isplitl [H_cc0_scratch1]; · iexact H_cc0_scratch1
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  isplitl [H_cc1_stg2_1]; · iexact H_cc1_stg2_1
  isplitl [H_cc1_scratch0]; · iexact H_cc1_scratch0
  iexact H_cc1_scratch1

/-- The same, read the other way. -/
theorem scoped_unperm2 :
    iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ rest2 c)
      ⊢ (Pipeline.scopedRest (Ix := Unit) (Name := ℕ) (U := UR sig nD τ) (Lvl := ℕ) (Val := Elt F) spec2 c : sProp 𝕄) := by
  rw [scopedRest2_eq]
  unfold rest2
  iintro ⟨H_cc2_scratch0, H_cc2_scratch1, H_cc0_stg0_0, H_cc0_stg0_1, H_cc0_stg1_0, H_cc0_stg1_1, H_cc0_stg2_0, H_cc0_stg2_1, H_cc0_scratch0, H_cc0_scratch1, H_cc1_stg0_0, H_cc1_stg0_1, H_cc1_stg1_0, H_cc1_stg1_1, H_cc1_stg2_0, H_cc1_stg2_1, H_cc1_scratch0, H_cc1_scratch1⟩
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_stg2_1]; · iexact H_cc0_stg2_1
  isplitl [H_cc0_scratch0]; · iexact H_cc0_scratch0
  isplitl [H_cc0_scratch1]; · iexact H_cc0_scratch1
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  isplitl [H_cc1_stg2_1]; · iexact H_cc1_stg2_1
  isplitl [H_cc1_scratch0]; · iexact H_cc1_scratch0
  isplitl [H_cc1_scratch1]; · iexact H_cc1_scratch1
  isplitl [H_cc2_scratch0]; · iexact H_cc2_scratch0
  iexact H_cc2_scratch1

/-- The accumulators at whatever they hold and the other scoped buffers make the invariant before the first point. -/
theorem inv2_first (P Q : sProp 𝕄) :
    iprop(P ∗ Q ∗ Pipeline.scopedRest (Ix := Unit) (Name := ℕ) (U := UR sig nD τ) (Lvl := ℕ) (Val := Elt F) spec2 c) ⊢ inv2 V c 0 := by
  unfold inv2
  simp only [owns_whole]
  iintro ⟨-, -, Hs⟩
  ihave H := (scoped_perm2 (F := F) c) $$ Hs
  icases H with ⟨⟨%n, H0⟩, ⟨%d, H1⟩, Hrest⟩
  iexists n, d
  isplitr; · ipureintro; intro h; exact absurd rfl h
  isplitl [H0]; · iexact H0
  isplitl [H1]; · iexact H1
  iexact Hrest

/-- The invariant after the last point gives the scoped buffers back, at whatever they hold. -/
theorem inv2_last :
    inv2 V c (Fin.last cfg2.N)
      ⊢ iprop(BI.emp ∗ BI.emp ∗ Pipeline.scopedRest (Ix := Unit) (Name := ℕ) (U := UR sig nD τ) (Lvl := ℕ) (Val := Elt F) spec2 c) := by
  unfold inv2
  simp only [owns_whole]
  iintro ⟨%n, %d, -, H0, H1, Hrest⟩
  isplitr; · iempintro
  isplitr; · iempintro
  iapply (scoped_unperm2 (F := F) c)
  isplitl [H0]; · iexists n; iexact H0
  isplitl [H1]; · iexists d; iexact H1
  iexact Hrest

end Scoped

-- a library lemma stated over `pin pcs a p` unifies with the pinned configuration only when unification may
-- unfold plain definitions in a metavariable's type
set_option backward.isDefEq.respectTransparency.types false in
/-- The call over the thread state "every unscoped buffer at `Wa`, nothing owed". -/
def reg2 : Pipeline.RegionSeg (pcfgs (F := F)) adm (pdats W) () defs₀ 𝒱₀ L lv pix2 where
  win := winFacts₀2
  block_pos := block_pos2
  stage_whole := stage_whole2
  K := PEmpty
  osem k := k.elim
  ho := Pipeline.OwnSemFacts.none _
  hbody c := (body_obligation2 (atTc (We2 W)) c).loose
  hwaits := Pipeline.hwaits_of_owed_zero _ _ _ _ L lv pix2 fun _ _ => rfl
  pre c := iprop(StableHlo.held (c : Thread nD τ) (Pipeline.ucRefs τ sig) (We2 W c) ∗ owe c)
  post c := iprop(StableHlo.held (c : Thread nD τ) (Pipeline.ucRefs τ sig) (exitV2 (We2 W) c) ∗ owe c)
  X _ := BI.emp
  Y _ := BI.emp
  Z c := Pipeline.unscopedRest (Ix := Unit) (Name := ℕ) (U := UR sig nD τ) (Lvl := ℕ) spec2 c (atTc (We2 W) c)
  hentry c := by
    rw [Pipeline.ownSems0_none]
    have hsplit := arrays_of_held2 (F := F) c (We2 W)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitr; · iempintro
    iexact Hrest
  hin c := by
    exact inv2_first (atTc (We2 W)) c _ _
  hout c := by
    rw [Pipeline.ownSems0_none]
    exact inv2_last (atTc (We2 W)) c
  hexit c := by
    have hjoin := held_of_arrays2 (F := F) c (We2 W)
    iintro ⟨Ha, HO, -, Hrest⟩
    imodintro
    isplitl [Ha Hrest]
    · iapply hjoin; isplitl [Ha]; · iexact Ha
      iexact Hrest
    unfold Pipeline.Dat.owesAt Pipeline.owesWithin
    icases HO with ⟨%T, -, HO⟩; iexists T; iexact HO

end Cert.Kernel.Hand

end
-- ==== Proof.KB.ArgKept.lean ====
import proofs.«135566_j39496519254112_1_alg».proof.Proof.KB.Fold

/-!
# The argument array is never written

No host operation of @main writes `main_arg0` and no pallas_call has it as a result, so the fold
of the buffer contents through @main reads back the launch contents at it.
-/

noncomputable section

namespace Cert.Kernel.Hand

open Cert.Kernel Cert.Kernel.Gen
open Idealize.ShloMosaic Idealize.ShloMosaic.TcCoe
open Idealize.SL.Sem

variable {F : FTy → Type} [FloatOps F]

variable (m : (ℓ : Loc nD τ sig) → Buf (Elt F) ℓ)

/-! ## What each item leaves unchanged

A host stretch changes only the buffers its operations write; a pallas_call only its result array. -/

theorem U1_of (c : Dev nD) (r : Ref sig .tc) (h : r ∉ hostOps0_W) : U1 m c r = U0 m c r :=
  StableHlo.after_of_writes_sub hostOps0 _ hostOps0_writes h
theorem U2_of (c : Dev nD) (r : Ref sig .tc) (h : r ≠ main_v1) : U2 m c r = U1 m c r :=
  Function.update_of_ne (StableHlo.devRef_ne_of_ne h) _ _
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : r ≠ main_v3) : U4 m c r = U3 m c r :=
  Function.update_of_ne (StableHlo.devRef_ne_of_ne h) _ _
theorem U5_of (c : Dev nD) (r : Ref sig .tc) (h : r ∉ hostOps2_W) : U5 m c r = U4 m c r :=
  StableHlo.after_of_writes_sub hostOps2 _ hostOps2_writes h
theorem U6_of (c : Dev nD) (r : Ref sig .tc) (h : r ≠ main_v5) : U6 m c r = U5 m c r :=
  Function.update_of_ne (StableHlo.devRef_ne_of_ne h) _ _
theorem U7_of (c : Dev nD) (r : Ref sig .tc) (h : r ∉ hostOps3_W) : U7 m c r = U6 m c r :=
  StableHlo.after_of_writes_sub hostOps3 _ hostOps3_writes h

/-- At the return the argument's buffer holds what it held at launch. -/
theorem U7_arg0 (c : Dev nD) : U7 m c main_arg0 = m ((c : Thread nD τ).loc main_arg0) :=
  (U7_of m c main_arg0 (by decide)).trans <| (U6_of m c main_arg0 (by decide)).trans <|
    (U5_of m c main_arg0 (by decide)).trans <| (U4_of m c main_arg0 (by decide)).trans <|
    (U3_of m c main_arg0 (by decide)).trans <| (U2_of m c main_arg0 (by decide)).trans <|
    (U1_of m c main_arg0 (by decide)).trans rfl

end Cert.Kernel.Hand

end
-- ==== Proof.KI.Body0.lean ====
import proofs.«135566_j39496519254112_1_alg».proof.Proof.Gen.KernelIdeal.Skeleton
import proofs.«135566_j39496519254112_1_alg».proof.Proof.Gen.KernelIdeal.Launch
import Idealize.ShloMosaic.Lib.Pipeline.FrameBody
import Idealize.ShloMosaic.Lib.Pipeline.Value
import Idealize.ShloMosaic.Lib.Tactic

/-!
# The body of a mean-shift step's pallas_call, one grid point

A grid point is a pair (q, k): the q-th tile of 1152 output columns and the k-th tile of 1152
source columns. The body holds two accumulators in scratch: `num` (32 x 1152) and `den` (1 x 1152).
At k = 0 both are reset to zero; at every k the tile's affinities `exp (3 * <x_i, x_j>)` are
summed into `den` over the rows i of the k-tile and `x_k * affinities` is added to `num`;
at k = 7 the output block `1/2 * (num / den) + 1/2 * x_q` is stored.

The three theorems below run the body in each of the three control cases and name what it
leaves in the two accumulators and, at k = 7, in the output's buffer, as the printed arithmetic
(`k0_pay6`, `k0_pay7`, `k0_pay8`) of what it found.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, and what whole-buffer loads and stores read -/

/-- The first conditional's test holds exactly at source tile 0. -/
theorem body0_cond1_iff (i : grid0.Coords) :
    (Scalar.cmpi .ne (Scalar.extui (Scalar.cmpi .eq (BitVec.ofNat 32 (i 1).val) 0#32)) 0#32 = 1#1) ↔ (i 1).val = 0 :=
  (by decide : ∀ k : Fin 8,
    (Scalar.cmpi .ne (Scalar.extui (Scalar.cmpi .eq (BitVec.ofNat 32 k.val) 0#32)) 0#32 = 1#1) ↔ k.val = 0) (i 1)

/-- The second conditional's test holds exactly at source tile 7. -/
theorem body0_cond2_iff (i : grid0.Coords) : (k0_cond2 i = 1#1) ↔ (i 1).val = 7 :=
  (by decide : ∀ k : Fin 8,
    (Scalar.cmpi .ne (Scalar.extui (Scalar.cmpi .eq (BitVec.ofNat 32 k.val) 7#32)) 0#32 = 1#1) ↔ k.val = 7) (i 1)

/-- The two zero offsets, however spelt. -/
private theorem hz : (![0, 0] : Fin 2 → Nat) = fun _ => 0 := by funext a; fin_cases a <;> rfl

section
variable {Val : EltTy → Type} [∀ e, Nonempty (Val e)] {sg : RefSig} {κ : Kind} {sp : Space} {S : Shape} {e : EltTy}

/-- A buffer whose last store went through the whole-shape rectangle reads as that store's payload. -/
private theorem read_writes_cons_unit_zero (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-shape rectangle reads the buffer's contents. -/
private theorem readAt_unit_zero (v : View sg κ sp S e) (f : v.ty.Contents Val) {off : Fin S.rank → Nat}
    (h : off = fun _ => 0) (inb : ∀ a, off a + S.size a ≤ S.size a) :
    v.readAt Val (Rect.unit off S.size inb).toLoadRect f = v.read Val f := by
  rw [View.readAt_eq_ld, View.ld_unit_zero h]
end

set_option maxHeartbeats 1000000 in
/-- First source tile (k = 0): the accumulators are reset, then take the tile's contribution. -/
theorem body0_first (c : Dev nD) (i : grid0.Coords) (hk : (i 1).val = 0)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk o : Vec F S32x1152 .f32) (K : PUnit → sProp 𝕄) :
    iprop(owns (c : Thread nD τ) arg2 fullShare xq ∗ owns (c : Thread nD τ) arg3 fullShare xk ∗ owns (c : Thread nD τ) arg4 fullShare o
        ∗ (∃ n, owns (c : Thread nD τ) arg5 fullShare n) ∗ (∃ d, owns (c : Thread nD τ) arg6 fullShare d)
        ∗ (iprop(owns (c : Thread nD τ) arg2 fullShare xq ∗ owns (c : Thread nD τ) arg3 fullShare xk ∗ owns (c : Thread nD τ) arg4 fullShare o
            ∗ owns (c : Thread nD τ) arg5 fullShare (k0_pay7 xq xk (k0_pay1 (F := F)))
            ∗ owns (c : Thread nD τ) arg6 fullShare (k0_pay6 xq xk (k0_pay2 (F := F)))) -∗ K ⟨⟩))
      ⊢ wp frame (wpE (defs₀ (F := F)) Variants.none c none) Set.univ
          (cc0__ms_iter_kernel i arg2 harg2 arg3 harg3 arg4 harg4 arg5 harg5 arg6 harg6) K := by
  have hc1 : (Scalar.cmpi .ne (Scalar.extui (Scalar.cmpi .eq (BitVec.ofNat 32 (i 1).val) 0#32)) 0#32 = 1#1) := (body0_cond1_iff i).2 hk
  have hc2 : ¬ (k0_cond2 i = 1#1) := fun h => by
    have := (body0_cond2_iff i).1 h; omega
  simp only [cc0__ms_iter_kernel_eq_skeleton]; unfold cc0__ms_iter_kernel_skel
  unfold owns
  iintro ⟨⟨%f2, %hf2, H2⟩, ⟨%f3, %hf3, H3⟩, ⟨%f4, %hf4, H4⟩, ⟨%n, %f5, -, H5⟩, ⟨%d, %f6, -, H6⟩, Hk⟩
  subst hf2 hf3 hf4
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; (· iexact H5)
    ipureintro
    sl_unfold_run_names
    rw [read_writes_cons_unit_zero _ _ hz, View.readCov_unit_zero _ hz]
    simp only [readAt_unit_zero (S := S32x1152) _ _ hz, readAt_unit_zero (S := S1x1152) _ _ hz]
  iexists _; isplitr; swap; (· iexact H6)
  ipureintro
  sl_unfold_run_names
  rw [read_writes_cons_unit_zero _ _ hz, View.readCov_unit_zero _ hz]
  simp only [readAt_unit_zero (S := S32x1152) _ _ hz, readAt_unit_zero (S := S1x1152) _ _ hz]

set_option maxHeartbeats 1000000 in
/-- A middle source tile (0 < k < 7): the accumulators take the tile's contribution. -/
theorem body0_mid (c : Dev nD) (i : grid0.Coords) (hk0 : (i 1).val ≠ 0) (hk7 : (i 1).val ≠ 7)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk o n : Vec F S32x1152 .f32) (d : Vec F S1x1152 .f32) (K : PUnit → sProp 𝕄) :
    iprop(owns (c : Thread nD τ) arg2 fullShare xq ∗ owns (c : Thread nD τ) arg3 fullShare xk ∗ owns (c : Thread nD τ) arg4 fullShare o
        ∗ owns (c : Thread nD τ) arg5 fullShare n ∗ owns (c : Thread nD τ) arg6 fullShare d
        ∗ (iprop(owns (c : Thread nD τ) arg2 fullShare xq ∗ owns (c : Thread nD τ) arg3 fullShare xk ∗ owns (c : Thread nD τ) arg4 fullShare o
            ∗ owns (c : Thread nD τ) arg5 fullShare (k0_pay7 xq xk n)
            ∗ owns (c : Thread nD τ) arg6 fullShare (k0_pay6 xq xk d)) -∗ K ⟨⟩))
      ⊢ wp frame (wpE (defs₀ (F := F)) Variants.none c none) Set.univ
          (cc0__ms_iter_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) :=
    fun h => hk0 ((body0_cond1_iff i).1 h)
  have hc2 : ¬ (k0_cond2 i = 1#1) := fun h => hk7 ((body0_cond2_iff i).1 h)
  simp only [cc0__ms_iter_kernel_eq_skeleton]; unfold cc0__ms_iter_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2 hf3 hf4 hf5 hf6
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; (· iexact H5)
    ipureintro
    rw [read_writes_cons_unit_zero _ _ hz]
    simp only [readAt_unit_zero (S := S32x1152) _ _ hz, readAt_unit_zero (S := S1x1152) _ _ hz]
  iexists _; isplitr; swap; (· iexact H6)
  ipureintro
  rw [read_writes_cons_unit_zero _ _ hz]
  simp only [readAt_unit_zero (S := S32x1152) _ _ hz, readAt_unit_zero (S := S1x1152) _ _ hz]

set_option maxHeartbeats 1000000 in
/-- The last source tile (k = 7): the accumulators take the tile's contribution and the output
    block is stored from them. -/
theorem body0_last (c : Dev nD) (i : grid0.Coords) (hk : (i 1).val = 7)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk n : Vec F S32x1152 .f32) (d : Vec F S1x1152 .f32) (K : PUnit → sProp 𝕄) :
    iprop(owns (c : Thread nD τ) arg2 fullShare xq ∗ owns (c : Thread nD τ) arg3 fullShare xk ∗ (∃ o, owns (c : Thread nD τ) arg4 fullShare o)
        ∗ owns (c : Thread nD τ) arg5 fullShare n ∗ owns (c : Thread nD τ) arg6 fullShare d
        ∗ (iprop(owns (c : Thread nD τ) arg2 fullShare xq ∗ owns (c : Thread nD τ) arg3 fullShare xk
            ∗ owns (c : Thread nD τ) arg4 fullShare (k0_pay8 xq (k0_pay6 xq xk d) (k0_pay7 xq xk n))
            ∗ owns (c : Thread nD τ) arg5 fullShare (k0_pay7 xq xk n)
            ∗ owns (c : Thread nD τ) arg6 fullShare (k0_pay6 xq xk d)) -∗ K ⟨⟩))
      ⊢ wp frame (wpE (defs₀ (F := F)) Variants.none c none) Set.univ
          (cc0__ms_iter_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) := fun h => by
    have := (body0_cond1_iff i).1 h; omega
  have hc2 : k0_cond2 i = 1#1 := (body0_cond2_iff i).2 hk
  simp only [cc0__ms_iter_kernel_eq_skeleton]; unfold cc0__ms_iter_kernel_skel
  unfold owns
  iintro ⟨⟨%f2, %hf2, H2⟩, ⟨%f3, %hf3, H3⟩, ⟨%o, %f4, -, H4⟩, ⟨%f5, %hf5, H5⟩, ⟨%f6, %hf6, H6⟩, Hk⟩
  subst hf2 hf3 hf5 hf6
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_run_names
    rw [read_writes_cons_unit_zero _ _ hz, View.readCov_unit_zero _ hz, View.readCov_unit_zero _ hz]
    simp only [readAt_unit_zero (S := S32x1152) _ _ hz, readAt_unit_zero (S := S1x1152) _ _ hz]
  isplitl [H5]
  · iexists _; isplitr; swap; (· iexact H5)
    ipureintro
    sl_unfold_run_names
    rw [read_writes_cons_unit_zero _ _ hz]
    simp only [readAt_unit_zero (S := S32x1152) _ _ hz, readAt_unit_zero (S := S1x1152) _ _ hz]
  iexists _; isplitr; swap; (· iexact H6)
  ipureintro
  sl_unfold_run_names
  rw [read_writes_cons_unit_zero _ _ hz]
  simp only [readAt_unit_zero (S := S32x1152) _ _ hz, readAt_unit_zero (S := S1x1152) _ _ hz]

end Cert.KernelIdeal.Hand

end
-- ==== Proof.KI.Dat0.lean ====
import proofs.«135566_j39496519254112_1_alg».proof.Proof.KI.Body0
import proofs.«135566_j39496519254112_1_alg».proof.Proof.Gen.KernelIdeal.Points
import Idealize.ShloMosaic.Lib.Pipeline.FrameBody
import Idealize.ShloMosaic.Lib.Pipeline.Frame

/-!
# A mean-shift step's pallas_call as a pipeline: what every buffer holds, point by point

The grid is 8 x 8, the point `t` being (q, k) = (t / 8, t % 8). Window 0 stages the q-th column
tile of `x`, window 1 the k-th, both out of ONE array; window 2 is the q-th column tile of the
result, stored at k = 7 only. Between points the two accumulators hold the partial sums over the
source tiles 0 .. k of the current q, stated here by recursion on the point (`acc0`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The q-tile of `x` at point `t` (window 0's block), at its literal type. -/
abbrev xq0 (c : Dev nD) (t : Fin cfg0.N) : Vec F S32x1152 .f32 := iblk0 V c 0 t
/-- The k-tile of `x` at point `t` (window 1's block), at its literal type. -/
abbrev xk0 (c : Dev nD) (t : Fin cfg0.N) : Vec F S32x1152 .f32 := iblk0 V c 1 t

/-- The two accumulators (`num`, `den`) BEFORE point `t`: a placeholder (zeros, never consulted) before the first point; after point
    `t` the tile's contribution added to what point `t` found, which is zero when `t` starts a new q. -/
def acc0 (c : Dev nD) : Nat → Vec F S32x1152 .f32 × Vec F S1x1152 .f32
  | 0 => (k0_pay1 (F := F), k0_pay2 (F := F))
  | t + 1 =>
    if h : t < cfg0.N then
      let base : Vec F S32x1152 .f32 × Vec F S1x1152 .f32 := if t % 8 = 0 then (k0_pay1 (F := F), k0_pay2 (F := F)) else acc0 c t
      (k0_pay7 (xq0 V c ⟨t, h⟩) (xk0 V c ⟨t, h⟩) base.1, k0_pay6 (xq0 V c ⟨t, h⟩) (xk0 V c ⟨t, h⟩) base.2)
    else acc0 c t

/-- What the body stores in the output's buffer at a point with k = 7: half the quotient of the
    accumulators plus half the q-tile. -/
def out0 (c : Dev nD) (t : Fin cfg0.N) : Vec F S32x1152 .f32 :=
  k0_pay8 (xq0 V c t) (acc0 V c (t.val + 1)).2 (acc0 V c (t.val + 1)).1

/-- The scoped buffers the pipeline does not stage, the two accumulators apart: the other
    pallas_calls' staging buffers and scratch, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))

/-- The invariant before point `t`: the accumulators at some contents, which after the first point
    are `acc0`'s; the other scoped buffers at anything. -/
def inv0 (c : Dev nD) (t : Fin (cfg0.N + 1)) : sProp 𝕄 :=
  iprop(∃ (n : Vec F S32x1152 .f32) (d : Vec F S1x1152 .f32), ⌜t.val ≠ 0 → n = (acc0 V c t.val).1 ∧ d = (acc0 V c t.val).2⌝
    ∗ owns (c : Thread nD τ) (Memref.whole cc0_scratch0) fullShare n
    ∗ owns (c : Thread nD τ) (Memref.whole cc0_scratch1) fullShare d
    ∗ rest0 c)

/-- The proof data of the pallas_call on core `c`: the arrays as the region finds them; after the
    body each input's buffer at its block and the output's at `out0`; the invariant `inv0`; the one
    array behind both inputs held half by each window; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := inv0 V c t
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The source-tile coordinate of point `t` is `t % 8`. -/
theorem kcoord0 : ∀ t : Fin cfg0.N, ((grid0.coords t) 1).val = t.val % 8 :=
  (by decide +kernel : ∀ t : Fin grid0.N, ((grid0.coords t) 1).val = t.val % 8)

/-- The output window is idle exactly off the points with k = 7. -/
theorem idle0_2 : ∀ t : Fin cfg0.N, cfg0.idle 2 (cfg0.grid.coords t) = true ↔ t.val % 8 ≠ 7 :=
  (by decide +kernel : ∀ t : Fin grid0.N, idle0 2 (grid0.coords t) = true ↔ t.val % 8 ≠ 7)

/-- The invariant is the proof data's. -/
theorem Φ_eq0 (c : Dev nD) (t : Fin (cfg0.N + 1)) : (dat0 V c).Φ t = inv0 V c t := rfl

/-- The accumulators after point `t`: the tile's contribution added to what the point found, which is
    zero at a point with k = 0. -/
theorem acc0_succ (c : Dev nD) (t : Fin cfg0.N) :
    acc0 V c (t.val + 1) =
      (k0_pay7 (xq0 V c t) (xk0 V c t) (if t.val % 8 = 0 then k0_pay1 (F := F) else (acc0 V c t.val).1),
       k0_pay6 (xq0 V c t) (xk0 V c t) (if t.val % 8 = 0 then k0_pay2 (F := F) else (acc0 V c t.val).2)) := by
  rw [acc0, dif_pos t.isLt]
  by_cases h : t.val % 8 = 0
  · simp only [if_pos h]
  · simp only [if_neg h]

theorem acc0_succ_first (c : Dev nD) (t : Fin cfg0.N) (h : t.val % 8 = 0) :
    acc0 V c (t.val + 1) =
      (k0_pay7 (xq0 V c t) (xk0 V c t) (k0_pay1 (F := F)), k0_pay6 (xq0 V c t) (xk0 V c t) (k0_pay2 (F := F))) := by
  rw [acc0_succ, if_pos h, if_pos h]

theorem acc0_succ_next (c : Dev nD) (t : Fin cfg0.N) (h : t.val % 8 ≠ 0) :
    acc0 V c (t.val + 1) =
      (k0_pay7 (xq0 V c t) (xk0 V c t) (acc0 V c t.val).1, k0_pay6 (xq0 V c t) (xk0 V c t) (acc0 V c t.val).2) := by
  rw [acc0_succ, if_neg h, if_neg h]

/-- The library's body obligation, at every point: by the source-tile coordinate k = t % 8, the body's triple for
    k = 0, for k = 7 or for a k between them, on the buffers at the blocks and the accumulators at `acc0`. -/
theorem body_obligation0 (c : Dev nD) : BodyObligation (dat0 (F := F) V c) (defs₀ (F := F)) Variants.none () Set.univ := fun t => by
  rw [bigSep_W0, bigSep_W0]
  simp only [before0_0, before0_1]
  rw [Φ_eq0, Φ_eq0, show (dat0 V c).owesAt () t.succ = (dat0 V c).owesAt () t.castSucc from rfl,
    after0_0, after0_1]
  have hbody : defs₀ (F := F) .tc cfg0.body (cfg0.bodyArgs t (cfg0.slots t)) = bodyAt0 t := rfl
  rw [hbody]
  unfold inv0
  by_cases h0 : t.val % 8 = 0
  · -- k = 0: the accumulators, at anything, are reset; the output's buffer is handed back as found
    have hi : idle0 2 (grid0.coords t) = true := (idle0_2 t).mpr (by omega)
    have hf : (win0 2).flush t = false := Bool.eq_false_iff.mpr fun h => absurd ((flush0_2 t).mp h) (by omega)
    simp only [hi, hf]
    iintro ⟨⟨%n, %d, -, Hn, Hd, Hrest⟩, Ho, ⟨%d0, H0⟩, ⟨%d1, H1⟩, ⟨%d2, H2⟩⟩
    iapply (body0_first c (grid0.coords t) ((kcoord0 t).trans h0)
        (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (Memref.whole cc0_scratch0) (Memref.isWhole_whole _) (Memref.whole cc0_scratch1) (Memref.isWhole_whole _)
        (xq0 V c t) (xk0 V c t) ((dat0 V c).before 2 t d2) _)
    isplitl [H0]; · iexact H0
    isplitl [H1]; · iexact H1
    isplitl [H2]; · iexact H2
    isplitl [Hn]; · iexists n; iexact Hn
    isplitl [Hd]; · iexists d; iexact Hd
    iintro ⟨H0, H1, H2, Hn, Hd⟩
    isplitl [Hn Hd Hrest]
    · iexists _, _
      isplitr
      · ipureintro
        intro _
        rw [Fin.val_succ, acc0_succ_first V c t h0]
        exact ⟨rfl, rfl⟩
      isplitl [Hn]; · iexact Hn
      isplitl [Hd]; · iexact Hd
      iexact Hrest
    isplitl [Ho]; · iexact Ho
    isplitl [H0]; · iexact H0
    isplitl [H1]; · iexact H1
    iexists d2; iexact H2
  · have ht : t.castSucc.val ≠ 0 := by rw [Fin.coe_castSucc]; omega
    by_cases h7 : t.val % 8 = 7
    · -- k = 7: the accumulators take the tile's contribution and the output block is stored from them
      have hi : idle0 2 (grid0.coords t) = false := Bool.eq_false_iff.mpr fun h => (idle0_2 t).mp h h7
      simp only [hi]
      rw [after0_2]
      iintro ⟨⟨%n, %d, %hnd, Hn, Hd, Hrest⟩, Ho, ⟨%d0, H0⟩, ⟨%d1, H1⟩, ⟨%d2, H2⟩⟩
      obtain ⟨hn, hd⟩ := hnd ht
      rw [Fin.coe_castSucc] at hn hd
      subst hn hd
      iapply (body0_last c (grid0.coords t) ((kcoord0 t).trans h7)
        (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (Memref.whole cc0_scratch0) (Memref.isWhole_whole _) (Memref.whole cc0_scratch1) (Memref.isWhole_whole _)
        (xq0 V c t) (xk0 V c t) (acc0 V c t.val).1 (acc0 V c t.val).2 _)
      isplitl [H0]; · iexact H0
      isplitl [H1]; · iexact H1
      isplitl [H2]; · iexists _; iexact H2
      isplitl [Hn]; · iexact Hn
      isplitl [Hd]; · iexact Hd
      iintro ⟨H0, H1, H2, Hn, Hd⟩
      isplitl [Hn Hd Hrest]
      · iexists _, _
        isplitr
        · ipureintro
          intro _
          rw [Fin.val_succ, acc0_succ_next V c t h0]
          exact ⟨rfl, rfl⟩
        isplitl [Hn]; · iexact Hn
        isplitl [Hd]; · iexact Hd
        iexact Hrest
      isplitl [Ho]; · iexact Ho
      isplitl [H0]; · iexact H0
      isplitl [H1]; · iexact H1
      unfold out0
      rw [acc0_succ_next V c t h0]
      iexact H2
    · -- 0 < k < 7: the accumulators take the tile's contribution; the output's buffer is handed back as found
      have hi : idle0 2 (grid0.coords t) = true := (idle0_2 t).mpr h7
      have hf : (win0 2).flush t = false := Bool.eq_false_iff.mpr fun h => absurd ((flush0_2 t).mp h) h7
      simp only [hi, hf]
      iintro ⟨⟨%n, %d, %hnd, Hn, Hd, Hrest⟩, Ho, ⟨%d0, H0⟩, ⟨%d1, H1⟩, ⟨%d2, H2⟩⟩
      obtain ⟨hn, hd⟩ := hnd ht
      rw [Fin.coe_castSucc] at hn hd
      subst hn hd
      iapply (body0_mid c (grid0.coords t) (by rw [kcoord0 t]; exact h0) (by rw [kcoord0 t]; exact h7)
        (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (Memref.whole cc0_scratch0) (Memref.isWhole_whole _) (Memref.whole cc0_scratch1) (Memref.isWhole_whole _)
        (xq0 V c t) (xk0 V c t) ((dat0 V c).before 2 t d2) (acc0 V c t.val).1 (acc0 V c t.val).2 _)
      isplitl [H0]; · iexact H0
      isplitl [H1]; · iexact H1
      isplitl [H2]; · iexact H2
      isplitl [Hn]; · iexact Hn
      isplitl [Hd]; · iexact Hd
      iintro ⟨H0, H1, H2, Hn, Hd⟩
      isplitl [Hn Hd Hrest]
      · iexists _, _
        isplitr
        · ipureintro
          intro _
          rw [Fin.val_succ, acc0_succ_next V c t h0]
          exact ⟨rfl, rfl⟩
        isplitl [Hn]; · iexact Hn
        isplitl [Hd]; · iexact Hd
        iexact Hrest
      isplitl [Ho]; · iexact Ho
      isplitl [H0]; · iexact H0
      isplitl [H1]; · iexact H1
      iexists d2; iexact H2

end Cert.KernelIdeal.Hand

end
-- ==== Proof.KI.Body1.lean ====
import proofs.«135566_j39496519254112_1_alg».proof.Proof.Gen.KernelIdeal.Skeleton
import proofs.«135566_j39496519254112_1_alg».proof.Proof.Gen.KernelIdeal.Launch
import Idealize.ShloMosaic.Lib.Pipeline.FrameBody
import Idealize.ShloMosaic.Lib.Pipeline.Value
import Idealize.ShloMosaic.Lib.Tactic

/-!
# The body of a mean-shift step's pallas_call, one grid point

A grid point is a pair (q, k): the q-th tile of 1152 output columns and the k-th tile of 1152
source columns. The body holds two accumulators in scratch: `num` (32 x 1152) and `den` (1 x 1152).
At k = 0 both are reset to zero; at every k the tile's affinities `exp (3 * <x_i, x_j>)` are
summed into `den` over the rows i of the k-tile and `x_k * affinities` is added to `num`;
at k = 7 the output block `1/2 * (num / den) + 1/2 * x_q` is stored.

The three theorems below run the body in each of the three control cases and name what it
leaves in the two accumulators and, at k = 7, in the output's buffer, as the printed arithmetic
(`k1_pay6`, `k1_pay7`, `k1_pay8`) of what it found.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, and what whole-buffer loads and stores read -/

/-- The first conditional's test holds exactly at source tile 0. -/
theorem body1_cond1_iff (i : grid1.Coords) :
    (Scalar.cmpi .ne (Scalar.extui (Scalar.cmpi .eq (BitVec.ofNat 32 (i 1).val) 0#32)) 0#32 = 1#1) ↔ (i 1).val = 0 :=
  (by decide : ∀ k : Fin 8,
    (Scalar.cmpi .ne (Scalar.extui (Scalar.cmpi .eq (BitVec.ofNat 32 k.val) 0#32)) 0#32 = 1#1) ↔ k.val = 0) (i 1)

/-- The second conditional's test holds exactly at source tile 7. -/
theorem body1_cond2_iff (i : grid1.Coords) : (k1_cond2 i = 1#1) ↔ (i 1).val = 7 :=
  (by decide : ∀ k : Fin 8,
    (Scalar.cmpi .ne (Scalar.extui (Scalar.cmpi .eq (BitVec.ofNat 32 k.val) 7#32)) 0#32 = 1#1) ↔ k.val = 7) (i 1)

/-- The two zero offsets, however spelt. -/
private theorem hz : (![0, 0] : Fin 2 → Nat) = fun _ => 0 := by funext a; fin_cases a <;> rfl

section
variable {Val : EltTy → Type} [∀ e, Nonempty (Val e)] {sg : RefSig} {κ : Kind} {sp : Space} {S : Shape} {e : EltTy}

/-- A buffer whose last store went through the whole-shape rectangle reads as that store's payload. -/
private theorem read_writes_cons_unit_zero (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-shape rectangle reads the buffer's contents. -/
private theorem readAt_unit_zero (v : View sg κ sp S e) (f : v.ty.Contents Val) {off : Fin S.rank → Nat}
    (h : off = fun _ => 0) (inb : ∀ a, off a + S.size a ≤ S.size a) :
    v.readAt Val (Rect.unit off S.size inb).toLoadRect f = v.read Val f := by
  rw [View.readAt_eq_ld, View.ld_unit_zero h]
end

set_option maxHeartbeats 1000000 in
/-- First source tile (k = 0): the accumulators are reset, then take the tile's contribution. -/
theorem body1_first (c : Dev nD) (i : grid1.Coords) (hk : (i 1).val = 0)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk o : Vec F S32x1152 .f32) (K : PUnit → sProp 𝕄) :
    iprop(owns (c : Thread nD τ) arg2 fullShare xq ∗ owns (c : Thread nD τ) arg3 fullShare xk ∗ owns (c : Thread nD τ) arg4 fullShare o
        ∗ (∃ n, owns (c : Thread nD τ) arg5 fullShare n) ∗ (∃ d, owns (c : Thread nD τ) arg6 fullShare d)
        ∗ (iprop(owns (c : Thread nD τ) arg2 fullShare xq ∗ owns (c : Thread nD τ) arg3 fullShare xk ∗ owns (c : Thread nD τ) arg4 fullShare o
            ∗ owns (c : Thread nD τ) arg5 fullShare (k1_pay7 xq xk (k1_pay1 (F := F)))
            ∗ owns (c : Thread nD τ) arg6 fullShare (k1_pay6 xq xk (k1_pay2 (F := F)))) -∗ K ⟨⟩))
      ⊢ wp frame (wpE (defs₀ (F := F)) Variants.none c none) Set.univ
          (cc1__ms_iter_kernel i arg2 harg2 arg3 harg3 arg4 harg4 arg5 harg5 arg6 harg6) K := by
  have hc1 : (Scalar.cmpi .ne (Scalar.extui (Scalar.cmpi .eq (BitVec.ofNat 32 (i 1).val) 0#32)) 0#32 = 1#1) := (body1_cond1_iff i).2 hk
  have hc2 : ¬ (k1_cond2 i = 1#1) := fun h => by
    have := (body1_cond2_iff i).1 h; omega
  simp only [cc1__ms_iter_kernel_eq_skeleton]; unfold cc1__ms_iter_kernel_skel
  unfold owns
  iintro ⟨⟨%f2, %hf2, H2⟩, ⟨%f3, %hf3, H3⟩, ⟨%f4, %hf4, H4⟩, ⟨%n, %f5, -, H5⟩, ⟨%d, %f6, -, H6⟩, Hk⟩
  subst hf2 hf3 hf4
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; (· iexact H5)
    ipureintro
    sl_unfold_run_names
    rw [read_writes_cons_unit_zero _ _ hz, View.readCov_unit_zero _ hz]
    simp only [readAt_unit_zero (S := S32x1152) _ _ hz, readAt_unit_zero (S := S1x1152) _ _ hz]
  iexists _; isplitr; swap; (· iexact H6)
  ipureintro
  sl_unfold_run_names
  rw [read_writes_cons_unit_zero _ _ hz, View.readCov_unit_zero _ hz]
  simp only [readAt_unit_zero (S := S32x1152) _ _ hz, readAt_unit_zero (S := S1x1152) _ _ hz]

set_option maxHeartbeats 1000000 in
/-- A middle source tile (0 < k < 7): the accumulators take the tile's contribution. -/
theorem body1_mid (c : Dev nD) (i : grid1.Coords) (hk0 : (i 1).val ≠ 0) (hk7 : (i 1).val ≠ 7)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk o n : Vec F S32x1152 .f32) (d : Vec F S1x1152 .f32) (K : PUnit → sProp 𝕄) :
    iprop(owns (c : Thread nD τ) arg2 fullShare xq ∗ owns (c : Thread nD τ) arg3 fullShare xk ∗ owns (c : Thread nD τ) arg4 fullShare o
        ∗ owns (c : Thread nD τ) arg5 fullShare n ∗ owns (c : Thread nD τ) arg6 fullShare d
        ∗ (iprop(owns (c : Thread nD τ) arg2 fullShare xq ∗ owns (c : Thread nD τ) arg3 fullShare xk ∗ owns (c : Thread nD τ) arg4 fullShare o
            ∗ owns (c : Thread nD τ) arg5 fullShare (k1_pay7 xq xk n)
            ∗ owns (c : Thread nD τ) arg6 fullShare (k1_pay6 xq xk d)) -∗ K ⟨⟩))
      ⊢ wp frame (wpE (defs₀ (F := F)) Variants.none c none) Set.univ
          (cc1__ms_iter_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) :=
    fun h => hk0 ((body1_cond1_iff i).1 h)
  have hc2 : ¬ (k1_cond2 i = 1#1) := fun h => hk7 ((body1_cond2_iff i).1 h)
  simp only [cc1__ms_iter_kernel_eq_skeleton]; unfold cc1__ms_iter_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2 hf3 hf4 hf5 hf6
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; (· iexact H5)
    ipureintro
    rw [read_writes_cons_unit_zero _ _ hz]
    simp only [readAt_unit_zero (S := S32x1152) _ _ hz, readAt_unit_zero (S := S1x1152) _ _ hz]
  iexists _; isplitr; swap; (· iexact H6)
  ipureintro
  rw [read_writes_cons_unit_zero _ _ hz]
  simp only [readAt_unit_zero (S := S32x1152) _ _ hz, readAt_unit_zero (S := S1x1152) _ _ hz]

set_option maxHeartbeats 1000000 in
/-- The last source tile (k = 7): the accumulators take the tile's contribution and the output
    block is stored from them. -/
theorem body1_last (c : Dev nD) (i : grid1.Coords) (hk : (i 1).val = 7)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk n : Vec F S32x1152 .f32) (d : Vec F S1x1152 .f32) (K : PUnit → sProp 𝕄) :
    iprop(owns (c : Thread nD τ) arg2 fullShare xq ∗ owns (c : Thread nD τ) arg3 fullShare xk ∗ (∃ o, owns (c : Thread nD τ) arg4 fullShare o)
        ∗ owns (c : Thread nD τ) arg5 fullShare n ∗ owns (c : Thread nD τ) arg6 fullShare d
        ∗ (iprop(owns (c : Thread nD τ) arg2 fullShare xq ∗ owns (c : Thread nD τ) arg3 fullShare xk
            ∗ owns (c : Thread nD τ) arg4 fullShare (k1_pay8 xq (k1_pay6 xq xk d) (k1_pay7 xq xk n))
            ∗ owns (c : Thread nD τ) arg5 fullShare (k1_pay7 xq xk n)
            ∗ owns (c : Thread nD τ) arg6 fullShare (k1_pay6 xq xk d)) -∗ K ⟨⟩))
      ⊢ wp frame (wpE (defs₀ (F := F)) Variants.none c none) Set.univ
          (cc1__ms_iter_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) := fun h => by
    have := (body1_cond1_iff i).1 h; omega
  have hc2 : k1_cond2 i = 1#1 := (body1_cond2_iff i).2 hk
  simp only [cc1__ms_iter_kernel_eq_skeleton]; unfold cc1__ms_iter_kernel_skel
  unfold owns
  iintro ⟨⟨%f2, %hf2, H2⟩, ⟨%f3, %hf3, H3⟩, ⟨%o, %f4, -, H4⟩, ⟨%f5, %hf5, H5⟩, ⟨%f6, %hf6, H6⟩, Hk⟩
  subst hf2 hf3 hf5 hf6
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_run_names
    rw [read_writes_cons_unit_zero _ _ hz, View.readCov_unit_zero _ hz, View.readCov_unit_zero _ hz]
    simp only [readAt_unit_zero (S := S32x1152) _ _ hz, readAt_unit_zero (S := S1x1152) _ _ hz]
  isplitl [H5]
  · iexists _; isplitr; swap; (· iexact H5)
    ipureintro
    sl_unfold_run_names
    rw [read_writes_cons_unit_zero _ _ hz]
    simp only [readAt_unit_zero (S := S32x1152) _ _ hz, readAt_unit_zero (S := S1x1152) _ _ hz]
  iexists _; isplitr; swap; (· iexact H6)
  ipureintro
  sl_unfold_run_names
  rw [read_writes_cons_unit_zero _ _ hz]
  simp only [readAt_unit_zero (S := S32x1152) _ _ hz, readAt_unit_zero (S := S1x1152) _ _ hz]

end Cert.KernelIdeal.Hand

end
-- ==== Proof.KI.Dat1.lean ====
import proofs.«135566_j39496519254112_1_alg».proof.Proof.KI.Body1
import proofs.«135566_j39496519254112_1_alg».proof.Proof.Gen.KernelIdeal.Points
import Idealize.ShloMosaic.Lib.Pipeline.FrameBody
import Idealize.ShloMosaic.Lib.Pipeline.Frame

/-!
# A mean-shift step's pallas_call as a pipeline: what every buffer holds, point by point

The grid is 8 x 8, the point `t` being (q, k) = (t / 8, t % 8). Window 0 stages the q-th column
tile of `x`, window 1 the k-th, both out of ONE array; window 2 is the q-th column tile of the
result, stored at k = 7 only. Between points the two accumulators hold the partial sums over the
source tiles 0 .. k of the current q, stated here by recursion on the point (`acc1`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The q-tile of `x` at point `t` (window 0's block), at its literal type. -/
abbrev xq1 (c : Dev nD) (t : Fin cfg1.N) : Vec F S32x1152 .f32 := iblk1 V c 0 t
/-- The k-tile of `x` at point `t` (window 1's block), at its literal type. -/
abbrev xk1 (c : Dev nD) (t : Fin cfg1.N) : Vec F S32x1152 .f32 := iblk1 V c 1 t

/-- The two accumulators (`num`, `den`) BEFORE point `t`: a placeholder (zeros, never consulted) before the first point; after point
    `t` the tile's contribution added to what point `t` found, which is zero when `t` starts a new q. -/
def acc1 (c : Dev nD) : Nat → Vec F S32x1152 .f32 × Vec F S1x1152 .f32
  | 0 => (k1_pay1 (F := F), k1_pay2 (F := F))
  | t + 1 =>
    if h : t < cfg1.N then
      let base : Vec F S32x1152 .f32 × Vec F S1x1152 .f32 := if t % 8 = 0 then (k1_pay1 (F := F), k1_pay2 (F := F)) else acc1 c t
      (k1_pay7 (xq1 V c ⟨t, h⟩) (xk1 V c ⟨t, h⟩) base.1, k1_pay6 (xq1 V c ⟨t, h⟩) (xk1 V c ⟨t, h⟩) base.2)
    else acc1 c t

/-- What the body stores in the output's buffer at a point with k = 7: half the quotient of the
    accumulators plus half the q-tile. -/
def out1 (c : Dev nD) (t : Fin cfg1.N) : Vec F S32x1152 .f32 :=
  k1_pay8 (xq1 V c t) (acc1 V c (t.val + 1)).2 (acc1 V c (t.val + 1)).1

/-- The scoped buffers the pipeline does not stage, the two accumulators apart: the other
    pallas_calls' staging buffers and scratch, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))

/-- The invariant before point `t`: the accumulators at some contents, which after the first point
    are `acc1`'s; the other scoped buffers at anything. -/
def inv1 (c : Dev nD) (t : Fin (cfg1.N + 1)) : sProp 𝕄 :=
  iprop(∃ (n : Vec F S32x1152 .f32) (d : Vec F S1x1152 .f32), ⌜t.val ≠ 0 → n = (acc1 V c t.val).1 ∧ d = (acc1 V c t.val).2⌝
    ∗ owns (c : Thread nD τ) (Memref.whole cc1_scratch0) fullShare n
    ∗ owns (c : Thread nD τ) (Memref.whole cc1_scratch1) fullShare d
    ∗ rest1 c)

/-- The proof data of the pallas_call on core `c`: the arrays as the region finds them; after the
    body each input's buffer at its block and the output's at `out1`; the invariant `inv1`; the one
    array behind both inputs held half by each window; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := inv1 V c t
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The source-tile coordinate of point `t` is `t % 8`. -/
theorem kcoord1 : ∀ t : Fin cfg1.N, ((grid1.coords t) 1).val = t.val % 8 :=
  (by decide +kernel : ∀ t : Fin grid1.N, ((grid1.coords t) 1).val = t.val % 8)

/-- The output window is idle exactly off the points with k = 7. -/
theorem idle1_2 : ∀ t : Fin cfg1.N, cfg1.idle 2 (cfg1.grid.coords t) = true ↔ t.val % 8 ≠ 7 :=
  (by decide +kernel : ∀ t : Fin grid1.N, idle1 2 (grid1.coords t) = true ↔ t.val % 8 ≠ 7)

/-- The invariant is the proof data's. -/
theorem Φ_eq1 (c : Dev nD) (t : Fin (cfg1.N + 1)) : (dat1 V c).Φ t = inv1 V c t := rfl

/-- The accumulators after point `t`: the tile's contribution added to what the point found, which is
    zero at a point with k = 0. -/
theorem acc1_succ (c : Dev nD) (t : Fin cfg1.N) :
    acc1 V c (t.val + 1) =
      (k1_pay7 (xq1 V c t) (xk1 V c t) (if t.val % 8 = 0 then k1_pay1 (F := F) else (acc1 V c t.val).1),
       k1_pay6 (xq1 V c t) (xk1 V c t) (if t.val % 8 = 0 then k1_pay2 (F := F) else (acc1 V c t.val).2)) := by
  rw [acc1, dif_pos t.isLt]
  by_cases h : t.val % 8 = 0
  · simp only [if_pos h]
  · simp only [if_neg h]

theorem acc1_succ_first (c : Dev nD) (t : Fin cfg1.N) (h : t.val % 8 = 0) :
    acc1 V c (t.val + 1) =
      (k1_pay7 (xq1 V c t) (xk1 V c t) (k1_pay1 (F := F)), k1_pay6 (xq1 V c t) (xk1 V c t) (k1_pay2 (F := F))) := by
  rw [acc1_succ, if_pos h, if_pos h]

theorem acc1_succ_next (c : Dev nD) (t : Fin cfg1.N) (h : t.val % 8 ≠ 0) :
    acc1 V c (t.val + 1) =
      (k1_pay7 (xq1 V c t) (xk1 V c t) (acc1 V c t.val).1, k1_pay6 (xq1 V c t) (xk1 V c t) (acc1 V c t.val).2) := by
  rw [acc1_succ, if_neg h, if_neg h]

/-- The library's body obligation, at every point: by the source-tile coordinate k = t % 8, the body's triple for
    k = 0, for k = 7 or for a k between them, on the buffers at the blocks and the accumulators at `acc1`. -/
theorem body_obligation1 (c : Dev nD) : BodyObligation (dat1 (F := F) V c) (defs₀ (F := F)) Variants.none () Set.univ := fun t => by
  rw [bigSep_W1, bigSep_W1]
  simp only [before1_0, before1_1]
  rw [Φ_eq1, Φ_eq1, show (dat1 V c).owesAt () t.succ = (dat1 V c).owesAt () t.castSucc from rfl,
    after1_0, after1_1]
  have hbody : defs₀ (F := F) .tc cfg1.body (cfg1.bodyArgs t (cfg1.slots t)) = bodyAt1 t := rfl
  rw [hbody]
  unfold inv1
  by_cases h0 : t.val % 8 = 0
  · -- k = 0: the accumulators, at anything, are reset; the output's buffer is handed back as found
    have hi : idle1 2 (grid1.coords t) = true := (idle1_2 t).mpr (by omega)
    have hf : (win1 2).flush t = false := Bool.eq_false_iff.mpr fun h => absurd ((flush1_2 t).mp h) (by omega)
    simp only [hi, hf]
    iintro ⟨⟨%n, %d, -, Hn, Hd, Hrest⟩, Ho, ⟨%d0, H0⟩, ⟨%d1, H1⟩, ⟨%d2, H2⟩⟩
    iapply (body1_first c (grid1.coords t) ((kcoord1 t).trans h0)
        (win1_0.stage (cfg1.slots t 0)) (hstage1_0 ((cfg1.slots t 0).cast nbuf1_0))
        (win1_1.stage (cfg1.slots t 1)) (hstage1_1 ((cfg1.slots t 1).cast nbuf1_1))
        (win1_2.stage (cfg1.slots t 2)) (hstage1_2 ((cfg1.slots t 2).cast nbuf1_2))
        (Memref.whole cc1_scratch0) (Memref.isWhole_whole _) (Memref.whole cc1_scratch1) (Memref.isWhole_whole _)
        (xq1 V c t) (xk1 V c t) ((dat1 V c).before 2 t d2) _)
    isplitl [H0]; · iexact H0
    isplitl [H1]; · iexact H1
    isplitl [H2]; · iexact H2
    isplitl [Hn]; · iexists n; iexact Hn
    isplitl [Hd]; · iexists d; iexact Hd
    iintro ⟨H0, H1, H2, Hn, Hd⟩
    isplitl [Hn Hd Hrest]
    · iexists _, _
      isplitr
      · ipureintro
        intro _
        rw [Fin.val_succ, acc1_succ_first V c t h0]
        exact ⟨rfl, rfl⟩
      isplitl [Hn]; · iexact Hn
      isplitl [Hd]; · iexact Hd
      iexact Hrest
    isplitl [Ho]; · iexact Ho
    isplitl [H0]; · iexact H0
    isplitl [H1]; · iexact H1
    iexists d2; iexact H2
  · have ht : t.castSucc.val ≠ 0 := by rw [Fin.coe_castSucc]; omega
    by_cases h7 : t.val % 8 = 7
    · -- k = 7: the accumulators take the tile's contribution and the output block is stored from them
      have hi : idle1 2 (grid1.coords t) = false := Bool.eq_false_iff.mpr fun h => (idle1_2 t).mp h h7
      simp only [hi]
      rw [after1_2]
      iintro ⟨⟨%n, %d, %hnd, Hn, Hd, Hrest⟩, Ho, ⟨%d0, H0⟩, ⟨%d1, H1⟩, ⟨%d2, H2⟩⟩
      obtain ⟨hn, hd⟩ := hnd ht
      rw [Fin.coe_castSucc] at hn hd
      subst hn hd
      iapply (body1_last c (grid1.coords t) ((kcoord1 t).trans h7)
        (win1_0.stage (cfg1.slots t 0)) (hstage1_0 ((cfg1.slots t 0).cast nbuf1_0))
        (win1_1.stage (cfg1.slots t 1)) (hstage1_1 ((cfg1.slots t 1).cast nbuf1_1))
        (win1_2.stage (cfg1.slots t 2)) (hstage1_2 ((cfg1.slots t 2).cast nbuf1_2))
        (Memref.whole cc1_scratch0) (Memref.isWhole_whole _) (Memref.whole cc1_scratch1) (Memref.isWhole_whole _)
        (xq1 V c t) (xk1 V c t) (acc1 V c t.val).1 (acc1 V c t.val).2 _)
      isplitl [H0]; · iexact H0
      isplitl [H1]; · iexact H1
      isplitl [H2]; · iexists _; iexact H2
      isplitl [Hn]; · iexact Hn
      isplitl [Hd]; · iexact Hd
      iintro ⟨H0, H1, H2, Hn, Hd⟩
      isplitl [Hn Hd Hrest]
      · iexists _, _
        isplitr
        · ipureintro
          intro _
          rw [Fin.val_succ, acc1_succ_next V c t h0]
          exact ⟨rfl, rfl⟩
        isplitl [Hn]; · iexact Hn
        isplitl [Hd]; · iexact Hd
        iexact Hrest
      isplitl [Ho]; · iexact Ho
      isplitl [H0]; · iexact H0
      isplitl [H1]; · iexact H1
      unfold out1
      rw [acc1_succ_next V c t h0]
      iexact H2
    · -- 0 < k < 7: the accumulators take the tile's contribution; the output's buffer is handed back as found
      have hi : idle1 2 (grid1.coords t) = true := (idle1_2 t).mpr h7
      have hf : (win1 2).flush t = false := Bool.eq_false_iff.mpr fun h => absurd ((flush1_2 t).mp h) h7
      simp only [hi, hf]
      iintro ⟨⟨%n, %d, %hnd, Hn, Hd, Hrest⟩, Ho, ⟨%d0, H0⟩, ⟨%d1, H1⟩, ⟨%d2, H2⟩⟩
      obtain ⟨hn, hd⟩ := hnd ht
      rw [Fin.coe_castSucc] at hn hd
      subst hn hd
      iapply (body1_mid c (grid1.coords t) (by rw [kcoord1 t]; exact h0) (by rw [kcoord1 t]; exact h7)
        (win1_0.stage (cfg1.slots t 0)) (hstage1_0 ((cfg1.slots t 0).cast nbuf1_0))
        (win1_1.stage (cfg1.slots t 1)) (hstage1_1 ((cfg1.slots t 1).cast nbuf1_1))
        (win1_2.stage (cfg1.slots t 2)) (hstage1_2 ((cfg1.slots t 2).cast nbuf1_2))
        (Memref.whole cc1_scratch0) (Memref.isWhole_whole _) (Memref.whole cc1_scratch1) (Memref.isWhole_whole _)
        (xq1 V c t) (xk1 V c t) ((dat1 V c).before 2 t d2) (acc1 V c t.val).1 (acc1 V c t.val).2 _)
      isplitl [H0]; · iexact H0
      isplitl [H1]; · iexact H1
      isplitl [H2]; · iexact H2
      isplitl [Hn]; · iexact Hn
      isplitl [Hd]; · iexact Hd
      iintro ⟨H0, H1, H2, Hn, Hd⟩
      isplitl [Hn Hd Hrest]
      · iexists _, _
        isplitr
        · ipureintro
          intro _
          rw [Fin.val_succ, acc1_succ_next V c t h0]
          exact ⟨rfl, rfl⟩
        isplitl [Hn]; · iexact Hn
        isplitl [Hd]; · iexact Hd
        iexact Hrest
      isplitl [Ho]; · iexact Ho
      isplitl [H0]; · iexact H0
      isplitl [H1]; · iexact H1
      iexists d2; iexact H2

end Cert.KernelIdeal.Hand

end
-- ==== Proof.KI.Body2.lean ====
import proofs.«135566_j39496519254112_1_alg».proof.Proof.Gen.KernelIdeal.Skeleton
import proofs.«135566_j39496519254112_1_alg».proof.Proof.Gen.KernelIdeal.Launch
import Idealize.ShloMosaic.Lib.Pipeline.FrameBody
import Idealize.ShloMosaic.Lib.Pipeline.Value
import Idealize.ShloMosaic.Lib.Tactic

/-!
# The body of a mean-shift step's pallas_call, one grid point

A grid point is a pair (q, k): the q-th tile of 1152 output columns and the k-th tile of 1152
source columns. The body holds two accumulators in scratch: `num` (32 x 1152) and `den` (1 x 1152).
At k = 0 both are reset to zero; at every k the tile's affinities `exp (3 * <x_i, x_j>)` are
summed into `den` over the rows i of the k-tile and `x_k * affinities` is added to `num`;
at k = 7 the output block `1/2 * (num / den) + 1/2 * x_q` is stored.

The three theorems below run the body in each of the three control cases and name what it
leaves in the two accumulators and, at k = 7, in the output's buffer, as the printed arithmetic
(`k2_pay6`, `k2_pay7`, `k2_pay8`) of what it found.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, and what whole-buffer loads and stores read -/

/-- The first conditional's test holds exactly at source tile 0. -/
theorem body2_cond1_iff (i : grid2.Coords) :
    (Scalar.cmpi .ne (Scalar.extui (Scalar.cmpi .eq (BitVec.ofNat 32 (i 1).val) 0#32)) 0#32 = 1#1) ↔ (i 1).val = 0 :=
  (by decide : ∀ k : Fin 8,
    (Scalar.cmpi .ne (Scalar.extui (Scalar.cmpi .eq (BitVec.ofNat 32 k.val) 0#32)) 0#32 = 1#1) ↔ k.val = 0) (i 1)

/-- The second conditional's test holds exactly at source tile 7. -/
theorem body2_cond2_iff (i : grid2.Coords) : (k2_cond2 i = 1#1) ↔ (i 1).val = 7 :=
  (by decide : ∀ k : Fin 8,
    (Scalar.cmpi .ne (Scalar.extui (Scalar.cmpi .eq (BitVec.ofNat 32 k.val) 7#32)) 0#32 = 1#1) ↔ k.val = 7) (i 1)

/-- The two zero offsets, however spelt. -/
private theorem hz : (![0, 0] : Fin 2 → Nat) = fun _ => 0 := by funext a; fin_cases a <;> rfl

section
variable {Val : EltTy → Type} [∀ e, Nonempty (Val e)] {sg : RefSig} {κ : Kind} {sp : Space} {S : Shape} {e : EltTy}

/-- A buffer whose last store went through the whole-shape rectangle reads as that store's payload. -/
private theorem read_writes_cons_unit_zero (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-shape rectangle reads the buffer's contents. -/
private theorem readAt_unit_zero (v : View sg κ sp S e) (f : v.ty.Contents Val) {off : Fin S.rank → Nat}
    (h : off = fun _ => 0) (inb : ∀ a, off a + S.size a ≤ S.size a) :
    v.readAt Val (Rect.unit off S.size inb).toLoadRect f = v.read Val f := by
  rw [View.readAt_eq_ld, View.ld_unit_zero h]
end

set_option maxHeartbeats 1000000 in
/-- First source tile (k = 0): the accumulators are reset, then take the tile's contribution. -/
theorem body2_first (c : Dev nD) (i : grid2.Coords) (hk : (i 1).val = 0)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk o : Vec F S32x1152 .f32) (K : PUnit → sProp 𝕄) :
    iprop(owns (c : Thread nD τ) arg2 fullShare xq ∗ owns (c : Thread nD τ) arg3 fullShare xk ∗ owns (c : Thread nD τ) arg4 fullShare o
        ∗ (∃ n, owns (c : Thread nD τ) arg5 fullShare n) ∗ (∃ d, owns (c : Thread nD τ) arg6 fullShare d)
        ∗ (iprop(owns (c : Thread nD τ) arg2 fullShare xq ∗ owns (c : Thread nD τ) arg3 fullShare xk ∗ owns (c : Thread nD τ) arg4 fullShare o
            ∗ owns (c : Thread nD τ) arg5 fullShare (k2_pay7 xq xk (k2_pay1 (F := F)))
            ∗ owns (c : Thread nD τ) arg6 fullShare (k2_pay6 xq xk (k2_pay2 (F := F)))) -∗ K ⟨⟩))
      ⊢ wp frame (wpE (defs₀ (F := F)) Variants.none c none) Set.univ
          (cc2__ms_iter_kernel i arg2 harg2 arg3 harg3 arg4 harg4 arg5 harg5 arg6 harg6) K := by
  have hc1 : (Scalar.cmpi .ne (Scalar.extui (Scalar.cmpi .eq (BitVec.ofNat 32 (i 1).val) 0#32)) 0#32 = 1#1) := (body2_cond1_iff i).2 hk
  have hc2 : ¬ (k2_cond2 i = 1#1) := fun h => by
    have := (body2_cond2_iff i).1 h; omega
  simp only [cc2__ms_iter_kernel_eq_skeleton]; unfold cc2__ms_iter_kernel_skel
  unfold owns
  iintro ⟨⟨%f2, %hf2, H2⟩, ⟨%f3, %hf3, H3⟩, ⟨%f4, %hf4, H4⟩, ⟨%n, %f5, -, H5⟩, ⟨%d, %f6, -, H6⟩, Hk⟩
  subst hf2 hf3 hf4
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; (· iexact H5)
    ipureintro
    sl_unfold_run_names
    rw [read_writes_cons_unit_zero _ _ hz, View.readCov_unit_zero _ hz]
    simp only [readAt_unit_zero (S := S32x1152) _ _ hz, readAt_unit_zero (S := S1x1152) _ _ hz]
  iexists _; isplitr; swap; (· iexact H6)
  ipureintro
  sl_unfold_run_names
  rw [read_writes_cons_unit_zero _ _ hz, View.readCov_unit_zero _ hz]
  simp only [readAt_unit_zero (S := S32x1152) _ _ hz, readAt_unit_zero (S := S1x1152) _ _ hz]

set_option maxHeartbeats 1000000 in
/-- A middle source tile (0 < k < 7): the accumulators take the tile's contribution. -/
theorem body2_mid (c : Dev nD) (i : grid2.Coords) (hk0 : (i 1).val ≠ 0) (hk7 : (i 1).val ≠ 7)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk o n : Vec F S32x1152 .f32) (d : Vec F S1x1152 .f32) (K : PUnit → sProp 𝕄) :
    iprop(owns (c : Thread nD τ) arg2 fullShare xq ∗ owns (c : Thread nD τ) arg3 fullShare xk ∗ owns (c : Thread nD τ) arg4 fullShare o
        ∗ owns (c : Thread nD τ) arg5 fullShare n ∗ owns (c : Thread nD τ) arg6 fullShare d
        ∗ (iprop(owns (c : Thread nD τ) arg2 fullShare xq ∗ owns (c : Thread nD τ) arg3 fullShare xk ∗ owns (c : Thread nD τ) arg4 fullShare o
            ∗ owns (c : Thread nD τ) arg5 fullShare (k2_pay7 xq xk n)
            ∗ owns (c : Thread nD τ) arg6 fullShare (k2_pay6 xq xk d)) -∗ K ⟨⟩))
      ⊢ wp frame (wpE (defs₀ (F := F)) Variants.none c none) Set.univ
          (cc2__ms_iter_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) :=
    fun h => hk0 ((body2_cond1_iff i).1 h)
  have hc2 : ¬ (k2_cond2 i = 1#1) := fun h => hk7 ((body2_cond2_iff i).1 h)
  simp only [cc2__ms_iter_kernel_eq_skeleton]; unfold cc2__ms_iter_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2 hf3 hf4 hf5 hf6
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; (· iexact H5)
    ipureintro
    rw [read_writes_cons_unit_zero _ _ hz]
    simp only [readAt_unit_zero (S := S32x1152) _ _ hz, readAt_unit_zero (S := S1x1152) _ _ hz]
  iexists _; isplitr; swap; (· iexact H6)
  ipureintro
  rw [read_writes_cons_unit_zero _ _ hz]
  simp only [readAt_unit_zero (S := S32x1152) _ _ hz, readAt_unit_zero (S := S1x1152) _ _ hz]

set_option maxHeartbeats 1000000 in
/-- The last source tile (k = 7): the accumulators take the tile's contribution and the output
    block is stored from them. -/
theorem body2_last (c : Dev nD) (i : grid2.Coords) (hk : (i 1).val = 7)
    (arg2 : Memref sig .tc .vmem S32x1152 .f32) (harg2 : arg2.IsWhole) (arg3 : Memref sig .tc .vmem S32x1152 .f32) (harg3 : arg3.IsWhole)
    (arg4 : Memref sig .tc .vmem S32x1152 .f32) (harg4 : arg4.IsWhole) (arg5 : Memref sig .tc .vmem S32x1152 .f32) (harg5 : arg5.IsWhole)
    (arg6 : Memref sig .tc .vmem S1x1152 .f32) (harg6 : arg6.IsWhole)
    (xq xk n : Vec F S32x1152 .f32) (d : Vec F S1x1152 .f32) (K : PUnit → sProp 𝕄) :
    iprop(owns (c : Thread nD τ) arg2 fullShare xq ∗ owns (c : Thread nD τ) arg3 fullShare xk ∗ (∃ o, owns (c : Thread nD τ) arg4 fullShare o)
        ∗ owns (c : Thread nD τ) arg5 fullShare n ∗ owns (c : Thread nD τ) arg6 fullShare d
        ∗ (iprop(owns (c : Thread nD τ) arg2 fullShare xq ∗ owns (c : Thread nD τ) arg3 fullShare xk
            ∗ owns (c : Thread nD τ) arg4 fullShare (k2_pay8 xq (k2_pay6 xq xk d) (k2_pay7 xq xk n))
            ∗ owns (c : Thread nD τ) arg5 fullShare (k2_pay7 xq xk n)
            ∗ owns (c : Thread nD τ) arg6 fullShare (k2_pay6 xq xk d)) -∗ K ⟨⟩))
      ⊢ wp frame (wpE (defs₀ (F := F)) Variants.none c none) Set.univ
          (cc2__ms_iter_kernel i arg2 harg2 arg3 harg3 arg4 harg4 arg5 harg5 arg6 harg6) K := by
  have hc1 : ¬ (Scalar.cmpi .ne (Scalar.extui (Scalar.cmpi .eq (BitVec.ofNat 32 (i 1).val) 0#32)) 0#32 = 1#1) := fun h => by
    have := (body2_cond1_iff i).1 h; omega
  have hc2 : k2_cond2 i = 1#1 := (body2_cond2_iff i).2 hk
  simp only [cc2__ms_iter_kernel_eq_skeleton]; unfold cc2__ms_iter_kernel_skel
  unfold owns
  iintro ⟨⟨%f2, %hf2, H2⟩, ⟨%f3, %hf3, H3⟩, ⟨%o, %f4, -, H4⟩, ⟨%f5, %hf5, H5⟩, ⟨%f6, %hf6, H6⟩, Hk⟩
  subst hf2 hf3 hf5 hf6
  sl_exec (disch := first | exact hc1 | exact hc2)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_run_names
    rw [read_writes_cons_unit_zero _ _ hz, View.readCov_unit_zero _ hz, View.readCov_unit_zero _ hz]
    simp only [readAt_unit_zero (S := S32x1152) _ _ hz, readAt_unit_zero (S := S1x1152) _ _ hz]
  isplitl [H5]
  · iexists _; isplitr; swap; (· iexact H5)
    ipureintro
    sl_unfold_run_names
    rw [read_writes_cons_unit_zero _ _ hz]
    simp only [readAt_unit_zero (S := S32x1152) _ _ hz, readAt_unit_zero (S := S1x1152) _ _ hz]
  iexists _; isplitr; swap; (· iexact H6)
  ipureintro
  sl_unfold_run_names
  rw [read_writes_cons_unit_zero _ _ hz]
  simp only [readAt_unit_zero (S := S32x1152) _ _ hz, readAt_unit_zero (S := S1x1152) _ _ hz]

end Cert.KernelIdeal.Hand

end
-- ==== Proof.KI.Dat2.lean ====
import proofs.«135566_j39496519254112_1_alg».proof.Proof.KI.Body2
import proofs.«135566_j39496519254112_1_alg».proof.Proof.Gen.KernelIdeal.Points
import Idealize.ShloMosaic.Lib.Pipeline.FrameBody
import Idealize.ShloMosaic.Lib.Pipeline.Frame

/-!
# A mean-shift step's pallas_call as a pipeline: what every buffer holds, point by point

The grid is 8 x 8, the point `t` being (q, k) = (t / 8, t % 8). Window 0 stages the q-th column
tile of `x`, window 1 the k-th, both out of ONE array; window 2 is the q-th column tile of the
result, stored at k = 7 only. Between points the two accumulators hold the partial sums over the
source tiles 0 .. k of the current q, stated here by recursion on the point (`acc2`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The q-tile of `x` at point `t` (window 0's block), at its literal type. -/
abbrev xq2 (c : Dev nD) (t : Fin cfg2.N) : Vec F S32x1152 .f32 := iblk2 V c 0 t
/-- The k-tile of `x` at point `t` (window 1's block), at its literal type. -/
abbrev xk2 (c : Dev nD) (t : Fin cfg2.N) : Vec F S32x1152 .f32 := iblk2 V c 1 t

/-- The two accumulators (`num`, `den`) BEFORE point `t`: a placeholder (zeros, never consulted) before the first point; after point
    `t` the tile's contribution added to what point `t` found, which is zero when `t` starts a new q. -/
def acc2 (c : Dev nD) : Nat → Vec F S32x1152 .f32 × Vec F S1x1152 .f32
  | 0 => (k2_pay1 (F := F), k2_pay2 (F := F))
  | t + 1 =>
    if h : t < cfg2.N then
      let base : Vec F S32x1152 .f32 × Vec F S1x1152 .f32 := if t % 8 = 0 then (k2_pay1 (F := F), k2_pay2 (F := F)) else acc2 c t
      (k2_pay7 (xq2 V c ⟨t, h⟩) (xk2 V c ⟨t, h⟩) base.1, k2_pay6 (xq2 V c ⟨t, h⟩) (xk2 V c ⟨t, h⟩) base.2)
    else acc2 c t

/-- What the body stores in the output's buffer at a point with k = 7: half the quotient of the
    accumulators plus half the q-tile. -/
def out2 (c : Dev nD) (t : Fin cfg2.N) : Vec F S32x1152 .f32 :=
  k2_pay8 (xq2 V c t) (acc2 V c (t.val + 1)).2 (acc2 V c (t.val + 1)).1

/-- The scoped buffers the pipeline does not stage, the two accumulators apart: the other
    pallas_calls' staging buffers and scratch, each at some contents. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The invariant before point `t`: the accumulators at some contents, which after the first point
    are `acc2`'s; the other scoped buffers at anything. -/
def inv2 (c : Dev nD) (t : Fin (cfg2.N + 1)) : sProp 𝕄 :=
  iprop(∃ (n : Vec F S32x1152 .f32) (d : Vec F S1x1152 .f32), ⌜t.val ≠ 0 → n = (acc2 V c t.val).1 ∧ d = (acc2 V c t.val).2⌝
    ∗ owns (c : Thread nD τ) (Memref.whole cc2_scratch0) fullShare n
    ∗ owns (c : Thread nD τ) (Memref.whole cc2_scratch1) fullShare d
    ∗ rest2 c)

/-- The proof data of the pallas_call on core `c`: the arrays as the region finds them; after the
    body each input's buffer at its block and the output's at `out2`; the invariant `inv2`; the one
    array behind both inputs held half by each window; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := inv2 V c t
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 V c t := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The source-tile coordinate of point `t` is `t % 8`. -/
theorem kcoord2 : ∀ t : Fin cfg2.N, ((grid2.coords t) 1).val = t.val % 8 :=
  (by decide +kernel : ∀ t : Fin grid2.N, ((grid2.coords t) 1).val = t.val % 8)

/-- The output window is idle exactly off the points with k = 7. -/
theorem idle2_2 : ∀ t : Fin cfg2.N, cfg2.idle 2 (cfg2.grid.coords t) = true ↔ t.val % 8 ≠ 7 :=
  (by decide +kernel : ∀ t : Fin grid2.N, idle2 2 (grid2.coords t) = true ↔ t.val % 8 ≠ 7)

/-- The invariant is the proof data's. -/
theorem Φ_eq2 (c : Dev nD) (t : Fin (cfg2.N + 1)) : (dat2 V c).Φ t = inv2 V c t := rfl

/-- The accumulators after point `t`: the tile's contribution added to what the point found, which is
    zero at a point with k = 0. -/
theorem acc2_succ (c : Dev nD) (t : Fin cfg2.N) :
    acc2 V c (t.val + 1) =
      (k2_pay7 (xq2 V c t) (xk2 V c t) (if t.val % 8 = 0 then k2_pay1 (F := F) else (acc2 V c t.val).1),
       k2_pay6 (xq2 V c t) (xk2 V c t) (if t.val % 8 = 0 then k2_pay2 (F := F) else (acc2 V c t.val).2)) := by
  rw [acc2, dif_pos t.isLt]
  by_cases h : t.val % 8 = 0
  · simp only [if_pos h]
  · simp only [if_neg h]

theorem acc2_succ_first (c : Dev nD) (t : Fin cfg2.N) (h : t.val % 8 = 0) :
    acc2 V c (t.val + 1) =
      (k2_pay7 (xq2 V c t) (xk2 V c t) (k2_pay1 (F := F)), k2_pay6 (xq2 V c t) (xk2 V c t) (k2_pay2 (F := F))) := by
  rw [acc2_succ, if_pos h, if_pos h]

theorem acc2_succ_next (c : Dev nD) (t : Fin cfg2.N) (h : t.val % 8 ≠ 0) :
    acc2 V c (t.val + 1) =
      (k2_pay7 (xq2 V c t) (xk2 V c t) (acc2 V c t.val).1, k2_pay6 (xq2 V c t) (xk2 V c t) (acc2 V c t.val).2) := by
  rw [acc2_succ, if_neg h, if_neg h]

/-- The library's body obligation, at every point: by the source-tile coordinate k = t % 8, the body's triple for
    k = 0, for k = 7 or for a k between them, on the buffers at the blocks and the accumulators at `acc2`. -/
theorem body_obligation2 (c : Dev nD) : BodyObligation (dat2 (F := F) V c) (defs₀ (F := F)) Variants.none () Set.univ := fun t => by
  rw [bigSep_W2, bigSep_W2]
  simp only [before2_0, before2_1]
  rw [Φ_eq2, Φ_eq2, show (dat2 V c).owesAt () t.succ = (dat2 V c).owesAt () t.castSucc from rfl,
    after2_0, after2_1]
  have hbody : defs₀ (F := F) .tc cfg2.body (cfg2.bodyArgs t (cfg2.slots t)) = bodyAt2 t := rfl
  rw [hbody]
  unfold inv2
  by_cases h0 : t.val % 8 = 0
  · -- k = 0: the accumulators, at anything, are reset; the output's buffer is handed back as found
    have hi : idle2 2 (grid2.coords t) = true := (idle2_2 t).mpr (by omega)
    have hf : (win2 2).flush t = false := Bool.eq_false_iff.mpr fun h => absurd ((flush2_2 t).mp h) (by omega)
    simp only [hi, hf]
    iintro ⟨⟨%n, %d, -, Hn, Hd, Hrest⟩, Ho, ⟨%d0, H0⟩, ⟨%d1, H1⟩, ⟨%d2, H2⟩⟩
    iapply (body2_first c (grid2.coords t) ((kcoord2 t).trans h0)
        (win2_0.stage (cfg2.slots t 0)) (hstage2_0 ((cfg2.slots t 0).cast nbuf2_0))
        (win2_1.stage (cfg2.slots t 1)) (hstage2_1 ((cfg2.slots t 1).cast nbuf2_1))
        (win2_2.stage (cfg2.slots t 2)) (hstage2_2 ((cfg2.slots t 2).cast nbuf2_2))
        (Memref.whole cc2_scratch0) (Memref.isWhole_whole _) (Memref.whole cc2_scratch1) (Memref.isWhole_whole _)
        (xq2 V c t) (xk2 V c t) ((dat2 V c).before 2 t d2) _)
    isplitl [H0]; · iexact H0
    isplitl [H1]; · iexact H1
    isplitl [H2]; · iexact H2
    isplitl [Hn]; · iexists n; iexact Hn
    isplitl [Hd]; · iexists d; iexact Hd
    iintro ⟨H0, H1, H2, Hn, Hd⟩
    isplitl [Hn Hd Hrest]
    · iexists _, _
      isplitr
      · ipureintro
        intro _
        rw [Fin.val_succ, acc2_succ_first V c t h0]
        exact ⟨rfl, rfl⟩
      isplitl [Hn]; · iexact Hn
      isplitl [Hd]; · iexact Hd
      iexact Hrest
    isplitl [Ho]; · iexact Ho
    isplitl [H0]; · iexact H0
    isplitl [H1]; · iexact H1
    iexists d2; iexact H2
  · have ht : t.castSucc.val ≠ 0 := by rw [Fin.coe_castSucc]; omega
    by_cases h7 : t.val % 8 = 7
    · -- k = 7: the accumulators take the tile's contribution and the output block is stored from them
      have hi : idle2 2 (grid2.coords t) = false := Bool.eq_false_iff.mpr fun h => (idle2_2 t).mp h h7
      simp only [hi]
      rw [after2_2]
      iintro ⟨⟨%n, %d, %hnd, Hn, Hd, Hrest⟩, Ho, ⟨%d0, H0⟩, ⟨%d1, H1⟩, ⟨%d2, H2⟩⟩
      obtain ⟨hn, hd⟩ := hnd ht
      rw [Fin.coe_castSucc] at hn hd
      subst hn hd
      iapply (body2_last c (grid2.coords t) ((kcoord2 t).trans h7)
        (win2_0.stage (cfg2.slots t 0)) (hstage2_0 ((cfg2.slots t 0).cast nbuf2_0))
        (win2_1.stage (cfg2.slots t 1)) (hstage2_1 ((cfg2.slots t 1).cast nbuf2_1))
        (win2_2.stage (cfg2.slots t 2)) (hstage2_2 ((cfg2.slots t 2).cast nbuf2_2))
        (Memref.whole cc2_scratch0) (Memref.isWhole_whole _) (Memref.whole cc2_scratch1) (Memref.isWhole_whole _)
        (xq2 V c t) (xk2 V c t) (acc2 V c t.val).1 (acc2 V c t.val).2 _)
      isplitl [H0]; · iexact H0
      isplitl [H1]; · iexact H1
      isplitl [H2]; · iexists _; iexact H2
      isplitl [Hn]; · iexact Hn
      isplitl [Hd]; · iexact Hd
      iintro ⟨H0, H1, H2, Hn, Hd⟩
      isplitl [Hn Hd Hrest]
      · iexists _, _
        isplitr
        · ipureintro
          intro _
          rw [Fin.val_succ, acc2_succ_next V c t h0]
          exact ⟨rfl, rfl⟩
        isplitl [Hn]; · iexact Hn
        isplitl [Hd]; · iexact Hd
        iexact Hrest
      isplitl [Ho]; · iexact Ho
      isplitl [H0]; · iexact H0
      isplitl [H1]; · iexact H1
      unfold out2
      rw [acc2_succ_next V c t h0]
      iexact H2
    · -- 0 < k < 7: the accumulators take the tile's contribution; the output's buffer is handed back as found
      have hi : idle2 2 (grid2.coords t) = true := (idle2_2 t).mpr h7
      have hf : (win2 2).flush t = false := Bool.eq_false_iff.mpr fun h => absurd ((flush2_2 t).mp h) h7
      simp only [hi, hf]
      iintro ⟨⟨%n, %d, %hnd, Hn, Hd, Hrest⟩, Ho, ⟨%d0, H0⟩, ⟨%d1, H1⟩, ⟨%d2, H2⟩⟩
      obtain ⟨hn, hd⟩ := hnd ht
      rw [Fin.coe_castSucc] at hn hd
      subst hn hd
      iapply (body2_mid c (grid2.coords t) (by rw [kcoord2 t]; exact h0) (by rw [kcoord2 t]; exact h7)
        (win2_0.stage (cfg2.slots t 0)) (hstage2_0 ((cfg2.slots t 0).cast nbuf2_0))
        (win2_1.stage (cfg2.slots t 1)) (hstage2_1 ((cfg2.slots t 1).cast nbuf2_1))
        (win2_2.stage (cfg2.slots t 2)) (hstage2_2 ((cfg2.slots t 2).cast nbuf2_2))
        (Memref.whole cc2_scratch0) (Memref.isWhole_whole _) (Memref.whole cc2_scratch1) (Memref.isWhole_whole _)
        (xq2 V c t) (xk2 V c t) ((dat2 V c).before 2 t d2) (acc2 V c t.val).1 (acc2 V c t.val).2 _)
      isplitl [H0]; · iexact H0
      isplitl [H1]; · iexact H1
      isplitl [H2]; · iexact H2
      isplitl [Hn]; · iexact Hn
      isplitl [Hd]; · iexact Hd
      iintro ⟨H0, H1, H2, Hn, Hd⟩
      isplitl [Hn Hd Hrest]
      · iexists _, _
        isplitr
        · ipureintro
          intro _
          rw [Fin.val_succ, acc2_succ_next V c t h0]
          exact ⟨rfl, rfl⟩
        isplitl [Hn]; · iexact Hn
        isplitl [Hd]; · iexact Hd
        iexact Hrest
      isplitl [Ho]; · iexact Ho
      isplitl [H0]; · iexact H0
      isplitl [H1]; · iexact H1
      iexists d2; iexact H2

end Cert.KernelIdeal.Hand

end
-- ==== Proof.KI.Fam.lean ====
import proofs.«135566_j39496519254112_1_alg».proof.Proof.KI.Dat0
import proofs.«135566_j39496519254112_1_alg».proof.Proof.KI.Dat1
import proofs.«135566_j39496519254112_1_alg».proof.Proof.KI.Dat2
import proofs.«135566_j39496519254112_1_alg».proof.Proof.Gen.KernelIdeal.Regions

/-!
# The three pallas_calls' proof data as one family

Each mean-shift step is a pallas_call entered from the buffer contents the items before it left:
`W p` are those contents at the entry of call `p`. Besides the buffers a core carries only
that it owes no other core anything.
-/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Fin 3 → Dev nD → Valuation τ sig (Elt F))

/-- A valuation read at the TensorCore's references: what a pallas_call's proof data take. -/
abbrev atTc (W : Dev nD → Valuation τ sig (Elt F)) : (c : Dev nD) → (b : Ref sig .tc) → Buf (Elt F) ((c : Thread nD τ).loc b) :=
  fun c b => W c b

/-- The calls' places in @main's list of pipelines. -/
abbrev pix0 : Fin 3 := 0
abbrev pix1 : Fin 3 := 1
abbrev pix2 : Fin 3 := 2

/-- The entry contents of each call. -/
abbrev We0 : Dev nD → Valuation τ sig (Elt F) := W 0
abbrev We1 : Dev nD → Valuation τ sig (Elt F) := W 1
abbrev We2 : Dev nD → Valuation τ sig (Elt F) := W 2

/-- Every pallas_call's proof data, each at its entry contents. -/
def pdats : (p : Fin 3) → (c : Dev nD) → Dat τ (Elt F) Unit ℕ (UR sig nD τ) ℕ (Pipeline.pin (pcfgs (F := F)) adm p) c
  | ⟨0, _⟩ => fun c => dat0 (atTc (We0 W)) c
  | ⟨1, _⟩ => fun c => dat1 (atTc (We1 W)) c
  | ⟨2, _⟩ => fun c => dat2 (atTc (We2 W)) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core owes nothing. -/
abbrev owe (c : Dev nD) : sProp 𝕄 := iprop(∃ W, owes (c : Thread nD τ) (0 : CellTallies nD τ sig Unit) W)

end Cert.KernelIdeal.Hand

end
-- ==== Proof.KI.Exit0.lean ====
import proofs.«135566_j39496519254112_1_alg».proof.Proof.KI.Fam

/-!
# The buffer contents a mean-shift step's pallas_call leaves

Only the result array changes: it holds what the write-backs of the 64 points leave.
-/

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The result array after the call: the write-backs of all 64 points folded over the entry contents. -/
def Arr0 (Wa : Dev nD → Valuation τ sig (Elt F)) (c : Dev nD) : Buf (Elt F) ((c : Thread nD τ).loc main_v1) := (dat0 (atTc Wa) c).arrAt 2 cfg0.N

/-- The buffer contents at the call's exit: the entry contents but for the result array. -/
abbrev exitV0 (Wa : Dev nD → Valuation τ sig (Elt F)) (c : Dev nD) : Valuation τ sig (Elt F) := Function.update (Wa c) main_v1 (Arr0 Wa c)

end Cert.KernelIdeal.Hand

end
-- ==== Proof.KI.Exit1.lean ====
import proofs.«135566_j39496519254112_1_alg».proof.Proof.KI.Fam

/-!
# The buffer contents a mean-shift step's pallas_call leaves

Only the result array changes: it holds what the write-backs of the 64 points leave.
-/

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The result array after the call: the write-backs of all 64 points folded over the entry contents. -/
def Arr1 (Wa : Dev nD → Valuation τ sig (Elt F)) (c : Dev nD) : Buf (Elt F) ((c : Thread nD τ).loc main_v3) := (dat1 (atTc Wa) c).arrAt 2 cfg1.N

/-- The buffer contents at the call's exit: the entry contents but for the result array. -/
abbrev exitV1 (Wa : Dev nD → Valuation τ sig (Elt F)) (c : Dev nD) : Valuation τ sig (Elt F) := Function.update (Wa c) main_v3 (Arr1 Wa c)

end Cert.KernelIdeal.Hand

end
-- ==== Proof.KI.Exit2.lean ====
import proofs.«135566_j39496519254112_1_alg».proof.Proof.KI.Fam

/-!
# The buffer contents a mean-shift step's pallas_call leaves

Only the result array changes: it holds what the write-backs of the 64 points leave.
-/

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The result array after the call: the write-backs of all 64 points folded over the entry contents. -/
def Arr2 (Wa : Dev nD → Valuation τ sig (Elt F)) (c : Dev nD) : Buf (Elt F) ((c : Thread nD τ).loc main_v5) := (dat2 (atTc Wa) c).arrAt 2 cfg2.N

/-- The buffer contents at the call's exit: the entry contents but for the result array. -/
abbrev exitV2 (Wa : Dev nD → Valuation τ sig (Elt F)) (c : Dev nD) : Valuation τ sig (Elt F) := Function.update (Wa c) main_v5 (Arr2 Wa c)

end Cert.KernelIdeal.Hand

end
-- ==== Proof.KI.Fold.lean ====
import proofs.«135566_j39496519254112_1_alg».proof.Proof.KI.Exit0
import proofs.«135566_j39496519254112_1_alg».proof.Proof.KI.Exit1
import proofs.«135566_j39496519254112_1_alg».proof.Proof.KI.Exit2

/-!
# The buffer contents between the items of @main

A fold from the launch memory: a stretch of host operations applies them, a pallas_call replaces
its result array by what its write-backs leave.
-/

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

/-- At launch. -/
abbrev U0 : Dev nD → Valuation τ sig (Elt F) := fun c b => m (c, b)
/-- After the first host stretch (the first call's entry). -/
abbrev U1 : Dev nD → Valuation τ sig (Elt F) := fun c => StableHlo.after hostOps0 (U0 m c)
/-- After the first call. -/
abbrev U2 : Dev nD → Valuation τ sig (Elt F) := fun c => exitV0 (U1 m) c
/-- After the second host stretch (the second call's entry). -/
abbrev U3 : Dev nD → Valuation τ sig (Elt F) := fun c => StableHlo.after hostOps1 (U2 m c)
/-- After the second call. -/
abbrev U4 : Dev nD → Valuation τ sig (Elt F) := fun c => exitV1 (U3 m) c
/-- After the third host stretch (the third call's entry). -/
abbrev U5 : Dev nD → Valuation τ sig (Elt F) := fun c => StableHlo.after hostOps2 (U4 m c)
/-- After the third call. -/
abbrev U6 : Dev nD → Valuation τ sig (Elt F) := fun c => exitV2 (U5 m) c
/-- After the last host stretch: at the return. -/
abbrev U7 : Dev nD → Valuation τ sig (Elt F) := fun c => StableHlo.after hostOps3 (U6 m c)

/-- The three calls' entry contents. -/
abbrev Ws : Fin 3 → Dev nD → Valuation τ sig (Elt F)
  | ⟨0, _⟩ => U1 m
  | ⟨1, _⟩ => U3 m
  | ⟨2, _⟩ => U5 m

/-- The three calls' proof data, each at its entry contents. -/
abbrev fam := pdats (F := F) (Ws m)

end Cert.KernelIdeal.Hand

end
-- ==== Proof.KI.Reg0.lean ====
import proofs.«135566_j39496519254112_1_alg».proof.Proof.KI.Exit0
import Idealize.ShloMosaic.Lib.Pipeline.RegionsLoop
import Idealize.ShloMosaic.Lib.Pipeline.FrameSuffix

/-!
# A mean-shift step's pallas_call as an item of @main

The call is entered from every unscoped buffer held at the contents `Wa` and left with the same
buffers but the result array, which holds what the write-backs of the 64 points leave. The array
behind both input windows is lent to them half each at entry and put together again at exit (an
input array is never written, so both halves come back at the entry contents).
-/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Fin 3 → Dev nD → Valuation τ sig (Elt F))

/-! ## The call's arrays among the unscoped buffers -/

section Arrays

variable (c : Dev nD)

/-- The unscoped buffers are the two buffers behind the call's arrays and the rest. -/
theorem unscopedBufs0_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec0 c V ∗ Pipeline.unscopedRest spec0 c V) :=
  Pipeline.unscopedBufs_split₀ cfgs pix0 winFacts₀0.arr_unscoped c V

/-- The buffers behind the arrays: the one both inputs read and the result's. -/
theorem arrBufs0_eq (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_v1) ↦{fullShare} V main_v1)) := by
  unfold Pipeline.arrBufs
  exact bigSep_eq_bigSepL_of_eq [main_v0, main_v1] (by decide) (by decide) _

/-- The proof data's arrays window by window: the shared array at a half each, the result's whole. -/
theorem arrays0_eq (V : (c : Dev nD) → (b : Ref sig .tc) → Buf (Elt F) ((c : Thread nD τ).loc b))
    (G : (w : Fin cfg0.W) → Buf (Elt F) ((cfg0.win w).arr.view.loc (c : Thread nD τ))) :
    (dat0 V c).arrays G
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W0, (arr_whole0 0).set_eq_univ, (arr_whole0 2).set_eq_univ]
  rfl

variable (V : Dev nD → Valuation τ sig (Elt F))

/-- ENTRY: the unscoped buffers lend the call its arrays, the shared one split in halves. -/
theorem arrays_of_held0 :
    (StableHlo.held (c : Thread nD τ) (Pipeline.ucRefs τ sig) (V c) : sProp 𝕄)
      ⊢ iprop((dat0 (atTc V) c).arrays (dat0 (atTc V) c).A
          ∗ Pipeline.unscopedRest (Ix := Unit) (Name := ℕ) (U := UR sig nD τ) (Lvl := ℕ) spec0 c (atTc V c)) := by
  rw [← Pipeline.unscopedBufs_held c (V c), unscopedBufs0_split, arrBufs0_eq, arrays0_eq, A_eq0, A_eq0, A_eq0]
  iintro ⟨⟨H0, H1⟩, Hrest⟩
  have hhalf : (((c : Thread nD τ).loc main_v0) ↦{fullShare} V c main_v0 : sProp 𝕄)
      ⊢ iprop((((c : Thread nD τ).loc main_v0) ↦{fullShare.left} V c main_v0) ∗ (((c : Thread nD τ).loc main_v0) ↦{fullShare.right} V c main_v0)) :=
    (pointsTo_share (PosShare.mem_left_op_right fullShare)).1
  ihave H := hhalf $$ H0
  icases H with ⟨Hl, Hr⟩
  isplitr [Hrest]
  · isplitl [Hl]; · iexact Hl
    isplitl [Hr]; · iexact Hr
    iexact H1
  · iexact Hrest

/-- Off the result array the exit contents are the entry contents. -/
theorem unscopedRest0_exit :
    (Pipeline.unscopedRest (Ix := Unit) (Name := ℕ) (U := UR sig nD τ) (Lvl := ℕ) spec0 c (fun b => exitV0 V c b) : sProp 𝕄)
      = Pipeline.unscopedRest spec0 c (atTc V c) := by
  unfold Pipeline.unscopedRest
  refine bigSep_congr fun b hb => ?_
  have hmem : main_v1 ∈ Finset.univ.image (Pipeline.arrRef spec0) := by decide
  have hne : b ≠ main_v1 := fun h => (Finset.mem_sdiff.mp hb).2 (h ▸ hmem)
  have e : exitV0 V c b = V c b := Function.update_of_ne (StableHlo.devRef_ne_of_ne hne) _ _
  exact congrArg (fun f : Buf (Elt F) ((c : Thread nD τ).loc b) => (((c : Thread nD τ).loc b) ↦{fullShare} f : sProp 𝕄)) e

/-- EXIT: the halves of the shared array, given back at the entry contents, and the result array make the
    unscoped buffers at the exit contents. -/
theorem held_of_arrays0 :
    iprop((dat0 (atTc V) c).arrays ((dat0 (atTc V) c).arrAt · cfg0.N)
        ∗ Pipeline.unscopedRest (Ix := Unit) (Name := ℕ) (U := UR sig nD τ) (Lvl := ℕ) spec0 c (atTc V c))
      ⊢ (StableHlo.held (c : Thread nD τ) (Pipeline.ucRefs τ sig) (exitV0 V c) : sProp 𝕄) := by
  have h0 : exitV0 V c (Proc.devRef .tc main_v0) = V c main_v0 :=
    Function.update_of_ne (StableHlo.devRef_ne_of_ne (by decide)) _ _
  have h1 : exitV0 V c (Proc.devRef .tc main_v1) = Arr0 V c := Function.update_self ..
  rw [← Pipeline.unscopedBufs_held c (exitV0 V c), unscopedBufs0_split, arrBufs0_eq, unscopedRest0_exit, h0, h1, arrays0_eq,
    (dat0 (atTc V) c).arrAt_in 0 rfl, (dat0 (atTc V) c).arrAt_in 1 rfl, A_eq0, A_eq0]
  iintro ⟨⟨Hl, Hr, H1⟩, Hrest⟩
  isplitr [Hrest]
  · isplitl [Hl Hr]
    · have hwhole : iprop((((c : Thread nD τ).loc main_v0) ↦{fullShare.left} V c main_v0) ∗ (((c : Thread nD τ).loc main_v0) ↦{fullShare.right} V c main_v0))
          ⊢ (((c : Thread nD τ).loc main_v0) ↦{fullShare} V c main_v0 : sProp 𝕄) :=
        (pointsTo_share (PosShare.mem_left_op_right fullShare)).2
      iapply hwhole
      isplitl [Hl]; · iexact Hl
      iexact Hr
    · iexact H1
  · iexact Hrest

end Arrays

/-! ## The scoped buffers no window stages, and the invariant at the first and the last point -/

section Scoped

variable (V : (c : Dev nD) → (b : Ref sig .tc) → Buf (Elt F) ((c : Thread nD τ).loc b)) (c : Dev nD)

/-- The scoped buffers no window stages: the call's two accumulators, then the other calls' buffers. -/
theorem scoped_perm0 :
    (Pipeline.scopedRest (Ix := Unit) (Name := ℕ) (U := UR sig nD τ) (Lvl := ℕ) (Val := Elt F) spec0 c : sProp 𝕄)
      ⊢ iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ rest0 c) := by
  rw [scopedRest0_eq]
  unfold rest0
  iintro ⟨H_cc0_scratch0, H_cc0_scratch1, H_cc1_stg0_0, H_cc1_stg0_1, H_cc1_stg1_0, H_cc1_stg1_1, H_cc1_stg2_0, H_cc1_stg2_1, H_cc1_scratch0, H_cc1_scratch1, H_cc2_stg0_0, H_cc2_stg0_1, H_cc2_stg1_0, H_cc2_stg1_1, H_cc2_stg2_0, H_cc2_stg2_1, H_cc2_scratch0, H_cc2_scratch1⟩
  isplitl [H_cc0_scratch0]; · iexact H_cc0_scratch0
  isplitl [H_cc0_scratch1]; · iexact H_cc0_scratch1
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  isplitl [H_cc1_stg2_1]; · iexact H_cc1_stg2_1
  isplitl [H_cc1_scratch0]; · iexact H_cc1_scratch0
  isplitl [H_cc1_scratch1]; · iexact H_cc1_scratch1
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  isplitl [H_cc2_stg2_1]; · iexact H_cc2_stg2_1
  isplitl [H_cc2_scratch0]; · iexact H_cc2_scratch0
  iexact H_cc2_scratch1

/-- The same, read the other way. -/
theorem scoped_unperm0 :
    iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ rest0 c)
      ⊢ (Pipeline.scopedRest (Ix := Unit) (Name := ℕ) (U := UR sig nD τ) (Lvl := ℕ) (Val := Elt F) spec0 c : sProp 𝕄) := by
  rw [scopedRest0_eq]
  unfold rest0
  iintro ⟨H_cc0_scratch0, H_cc0_scratch1, H_cc1_stg0_0, H_cc1_stg0_1, H_cc1_stg1_0, H_cc1_stg1_1, H_cc1_stg2_0, H_cc1_stg2_1, H_cc1_scratch0, H_cc1_scratch1, H_cc2_stg0_0, H_cc2_stg0_1, H_cc2_stg1_0, H_cc2_stg1_1, H_cc2_stg2_0, H_cc2_stg2_1, H_cc2_scratch0, H_cc2_scratch1⟩
  isplitl [H_cc0_scratch0]; · iexact H_cc0_scratch0
  isplitl [H_cc0_scratch1]; · iexact H_cc0_scratch1
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  isplitl [H_cc1_stg2_1]; · iexact H_cc1_stg2_1
  isplitl [H_cc1_scratch0]; · iexact H_cc1_scratch0
  isplitl [H_cc1_scratch1]; · iexact H_cc1_scratch1
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  isplitl [H_cc2_stg2_1]; · iexact H_cc2_stg2_1
  isplitl [H_cc2_scratch0]; · iexact H_cc2_scratch0
  iexact H_cc2_scratch1

/-- The accumulators at whatever they hold and the other scoped buffers make the invariant before the first point. -/
theorem inv0_first (P Q : sProp 𝕄) :
    iprop(P ∗ Q ∗ Pipeline.scopedRest (Ix := Unit) (Name := ℕ) (U := UR sig nD τ) (Lvl := ℕ) (Val := Elt F) spec0 c) ⊢ inv0 V c 0 := by
  unfold inv0
  simp only [owns_whole]
  iintro ⟨-, -, Hs⟩
  ihave H := (scoped_perm0 (F := F) c) $$ Hs
  icases H with ⟨⟨%n, H0⟩, ⟨%d, H1⟩, Hrest⟩
  iexists n, d
  isplitr; · ipureintro; intro h; exact absurd rfl h
  isplitl [H0]; · iexact H0
  isplitl [H1]; · iexact H1
  iexact Hrest

/-- The invariant after the last point gives the scoped buffers back, at whatever they hold. -/
theorem inv0_last :
    inv0 V c (Fin.last cfg0.N)
      ⊢ iprop(BI.emp ∗ BI.emp ∗ Pipeline.scopedRest (Ix := Unit) (Name := ℕ) (U := UR sig nD τ) (Lvl := ℕ) (Val := Elt F) spec0 c) := by
  unfold inv0
  simp only [owns_whole]
  iintro ⟨%n, %d, -, H0, H1, Hrest⟩
  isplitr; · iempintro
  isplitr; · iempintro
  iapply (scoped_unperm0 (F := F) c)
  isplitl [H0]; · iexists n; iexact H0
  isplitl [H1]; · iexists d; iexact H1
  iexact Hrest

end Scoped

-- a library lemma stated over `pin pcs a p` unifies with the pinned configuration only when unification may
-- unfold plain definitions in a metavariable's type
set_option backward.isDefEq.respectTransparency.types false in
/-- The call over the thread state "every unscoped buffer at `Wa`, nothing owed". -/
def reg0 : Pipeline.RegionSeg (pcfgs (F := F)) adm (pdats W) () defs₀ 𝒱₀ L lv pix0 where
  win := winFacts₀0
  block_pos := block_pos0
  stage_whole := stage_whole0
  K := PEmpty
  osem k := k.elim
  ho := Pipeline.OwnSemFacts.none _
  hbody c := (body_obligation0 (atTc (We0 W)) c).loose
  hwaits := Pipeline.hwaits_of_owed_zero _ _ _ _ L lv pix0 fun _ _ => rfl
  pre c := iprop(StableHlo.held (c : Thread nD τ) (Pipeline.ucRefs τ sig) (We0 W c) ∗ owe c)
  post c := iprop(StableHlo.held (c : Thread nD τ) (Pipeline.ucRefs τ sig) (exitV0 (We0 W) c) ∗ owe c)
  X _ := BI.emp
  Y _ := BI.emp
  Z c := Pipeline.unscopedRest (Ix := Unit) (Name := ℕ) (U := UR sig nD τ) (Lvl := ℕ) spec0 c (atTc (We0 W) c)
  hentry c := by
    rw [Pipeline.ownSems0_none]
    have hsplit := arrays_of_held0 (F := F) c (We0 W)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitr; · iempintro
    iexact Hrest
  hin c := by
    exact inv0_first (atTc (We0 W)) c _ _
  hout c := by
    rw [Pipeline.ownSems0_none]
    exact inv0_last (atTc (We0 W)) c
  hexit c := by
    have hjoin := held_of_arrays0 (F := F) c (We0 W)
    iintro ⟨Ha, HO, -, Hrest⟩
    imodintro
    isplitl [Ha Hrest]
    · iapply hjoin; isplitl [Ha]; · iexact Ha
      iexact Hrest
    unfold Pipeline.Dat.owesAt Pipeline.owesWithin
    icases HO with ⟨%T, -, HO⟩; iexists T; iexact HO

end Cert.KernelIdeal.Hand

end
-- ==== Proof.KI.Reg1.lean ====
import proofs.«135566_j39496519254112_1_alg».proof.Proof.KI.Exit1
import Idealize.ShloMosaic.Lib.Pipeline.RegionsLoop
import Idealize.ShloMosaic.Lib.Pipeline.FrameSuffix

/-!
# A mean-shift step's pallas_call as an item of @main

The call is entered from every unscoped buffer held at the contents `Wa` and left with the same
buffers but the result array, which holds what the write-backs of the 64 points leave. The array
behind both input windows is lent to them half each at entry and put together again at exit (an
input array is never written, so both halves come back at the entry contents).
-/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Fin 3 → Dev nD → Valuation τ sig (Elt F))

/-! ## The call's arrays among the unscoped buffers -/

section Arrays

variable (c : Dev nD)

/-- The unscoped buffers are the two buffers behind the call's arrays and the rest. -/
theorem unscopedBufs1_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec1 c V ∗ Pipeline.unscopedRest spec1 c V) :=
  Pipeline.unscopedBufs_split₀ cfgs pix1 winFacts₀1.arr_unscoped c V

/-- The buffers behind the arrays: the one both inputs read and the result's. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v3) ↦{fullShare} V main_v3)) := by
  unfold Pipeline.arrBufs
  exact bigSep_eq_bigSepL_of_eq [main_v1, main_v3] (by decide) (by decide) _

/-- The proof data's arrays window by window: the shared array at a half each, the result's whole. -/
theorem arrays1_eq (V : (c : Dev nD) → (b : Ref sig .tc) → Buf (Elt F) ((c : Thread nD τ).loc b))
    (G : (w : Fin cfg1.W) → Buf (Elt F) ((cfg1.win w).arr.view.loc (c : Thread nD τ))) :
    (dat1 V c).arrays G
      = iprop((((c : Thread nD τ).loc main_v1) ↦{fullShare.left} G 0) ∗ (((c : Thread nD τ).loc main_v1) ↦{fullShare.right} G 1)
          ∗ (((c : Thread nD τ).loc main_v3) ↦{fullShare} G 2)) := by
  unfold Dat.arrays
  rw [bigSep_W1, (arr_whole1 0).set_eq_univ, (arr_whole1 2).set_eq_univ]
  rfl

variable (V : Dev nD → Valuation τ sig (Elt F))

/-- ENTRY: the unscoped buffers lend the call its arrays, the shared one split in halves. -/
theorem arrays_of_held1 :
    (StableHlo.held (c : Thread nD τ) (Pipeline.ucRefs τ sig) (V c) : sProp 𝕄)
      ⊢ iprop((dat1 (atTc V) c).arrays (dat1 (atTc V) c).A
          ∗ Pipeline.unscopedRest (Ix := Unit) (Name := ℕ) (U := UR sig nD τ) (Lvl := ℕ) spec1 c (atTc V c)) := by
  rw [← Pipeline.unscopedBufs_held c (V c), unscopedBufs1_split, arrBufs1_eq, arrays1_eq, A_eq1, A_eq1, A_eq1]
  iintro ⟨⟨H0, H1⟩, Hrest⟩
  have hhalf : (((c : Thread nD τ).loc main_v1) ↦{fullShare} V c main_v1 : sProp 𝕄)
      ⊢ iprop((((c : Thread nD τ).loc main_v1) ↦{fullShare.left} V c main_v1) ∗ (((c : Thread nD τ).loc main_v1) ↦{fullShare.right} V c main_v1)) :=
    (pointsTo_share (PosShare.mem_left_op_right fullShare)).1
  ihave H := hhalf $$ H0
  icases H with ⟨Hl, Hr⟩
  isplitr [Hrest]
  · isplitl [Hl]; · iexact Hl
    isplitl [Hr]; · iexact Hr
    iexact H1
  · iexact Hrest

/-- Off the result array the exit contents are the entry contents. -/
theorem unscopedRest1_exit :
    (Pipeline.unscopedRest (Ix := Unit) (Name := ℕ) (U := UR sig nD τ) (Lvl := ℕ) spec1 c (fun b => exitV1 V c b) : sProp 𝕄)
      = Pipeline.unscopedRest spec1 c (atTc V c) := by
  unfold Pipeline.unscopedRest
  refine bigSep_congr fun b hb => ?_
  have hmem : main_v3 ∈ Finset.univ.image (Pipeline.arrRef spec1) := by decide
  have hne : b ≠ main_v3 := fun h => (Finset.mem_sdiff.mp hb).2 (h ▸ hmem)
  have e : exitV1 V c b = V c b := Function.update_of_ne (StableHlo.devRef_ne_of_ne hne) _ _
  exact congrArg (fun f : Buf (Elt F) ((c : Thread nD τ).loc b) => (((c : Thread nD τ).loc b) ↦{fullShare} f : sProp 𝕄)) e

/-- EXIT: the halves of the shared array, given back at the entry contents, and the result array make the
    unscoped buffers at the exit contents. -/
theorem held_of_arrays1 :
    iprop((dat1 (atTc V) c).arrays ((dat1 (atTc V) c).arrAt · cfg1.N)
        ∗ Pipeline.unscopedRest (Ix := Unit) (Name := ℕ) (U := UR sig nD τ) (Lvl := ℕ) spec1 c (atTc V c))
      ⊢ (StableHlo.held (c : Thread nD τ) (Pipeline.ucRefs τ sig) (exitV1 V c) : sProp 𝕄) := by
  have h0 : exitV1 V c (Proc.devRef .tc main_v1) = V c main_v1 :=
    Function.update_of_ne (StableHlo.devRef_ne_of_ne (by decide)) _ _
  have h1 : exitV1 V c (Proc.devRef .tc main_v3) = Arr1 V c := Function.update_self ..
  rw [← Pipeline.unscopedBufs_held c (exitV1 V c), unscopedBufs1_split, arrBufs1_eq, unscopedRest1_exit, h0, h1, arrays1_eq,
    (dat1 (atTc V) c).arrAt_in 0 rfl, (dat1 (atTc V) c).arrAt_in 1 rfl, A_eq1, A_eq1]
  iintro ⟨⟨Hl, Hr, H1⟩, Hrest⟩
  isplitr [Hrest]
  · isplitl [Hl Hr]
    · have hwhole : iprop((((c : Thread nD τ).loc main_v1) ↦{fullShare.left} V c main_v1) ∗ (((c : Thread nD τ).loc main_v1) ↦{fullShare.right} V c main_v1))
          ⊢ (((c : Thread nD τ).loc main_v1) ↦{fullShare} V c main_v1 : sProp 𝕄) :=
        (pointsTo_share (PosShare.mem_left_op_right fullShare)).2
      iapply hwhole
      isplitl [Hl]; · iexact Hl
      iexact Hr
    · iexact H1
  · iexact Hrest

end Arrays

/-! ## The scoped buffers no window stages, and the invariant at the first and the last point -/

section Scoped

variable (V : (c : Dev nD) → (b : Ref sig .tc) → Buf (Elt F) ((c : Thread nD τ).loc b)) (c : Dev nD)

/-- The scoped buffers no window stages: the call's two accumulators, then the other calls' buffers. -/
theorem scoped_perm1 :
    (Pipeline.scopedRest (Ix := Unit) (Name := ℕ) (U := UR sig nD τ) (Lvl := ℕ) (Val := Elt F) spec1 c : sProp 𝕄)
      ⊢ iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ rest1 c) := by
  rw [scopedRest1_eq]
  unfold rest1
  iintro ⟨H_cc0_stg0_0, H_cc0_stg0_1, H_cc0_stg1_0, H_cc0_stg1_1, H_cc0_stg2_0, H_cc0_stg2_1, H_cc0_scratch0, H_cc0_scratch1, H_cc1_scratch0, H_cc1_scratch1, H_cc2_stg0_0, H_cc2_stg0_1, H_cc2_stg1_0, H_cc2_stg1_1, H_cc2_stg2_0, H_cc2_stg2_1, H_cc2_scratch0, H_cc2_scratch1⟩
  isplitl [H_cc1_scratch0]; · iexact H_cc1_scratch0
  isplitl [H_cc1_scratch1]; · iexact H_cc1_scratch1
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_stg2_1]; · iexact H_cc0_stg2_1
  isplitl [H_cc0_scratch0]; · iexact H_cc0_scratch0
  isplitl [H_cc0_scratch1]; · iexact H_cc0_scratch1
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  isplitl [H_cc2_stg2_1]; · iexact H_cc2_stg2_1
  isplitl [H_cc2_scratch0]; · iexact H_cc2_scratch0
  iexact H_cc2_scratch1

/-- The same, read the other way. -/
theorem scoped_unperm1 :
    iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ rest1 c)
      ⊢ (Pipeline.scopedRest (Ix := Unit) (Name := ℕ) (U := UR sig nD τ) (Lvl := ℕ) (Val := Elt F) spec1 c : sProp 𝕄) := by
  rw [scopedRest1_eq]
  unfold rest1
  iintro ⟨H_cc1_scratch0, H_cc1_scratch1, H_cc0_stg0_0, H_cc0_stg0_1, H_cc0_stg1_0, H_cc0_stg1_1, H_cc0_stg2_0, H_cc0_stg2_1, H_cc0_scratch0, H_cc0_scratch1, H_cc2_stg0_0, H_cc2_stg0_1, H_cc2_stg1_0, H_cc2_stg1_1, H_cc2_stg2_0, H_cc2_stg2_1, H_cc2_scratch0, H_cc2_scratch1⟩
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_stg2_1]; · iexact H_cc0_stg2_1
  isplitl [H_cc0_scratch0]; · iexact H_cc0_scratch0
  isplitl [H_cc0_scratch1]; · iexact H_cc0_scratch1
  isplitl [H_cc1_scratch0]; · iexact H_cc1_scratch0
  isplitl [H_cc1_scratch1]; · iexact H_cc1_scratch1
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  isplitl [H_cc2_stg2_1]; · iexact H_cc2_stg2_1
  isplitl [H_cc2_scratch0]; · iexact H_cc2_scratch0
  iexact H_cc2_scratch1

/-- The accumulators at whatever they hold and the other scoped buffers make the invariant before the first point. -/
theorem inv1_first (P Q : sProp 𝕄) :
    iprop(P ∗ Q ∗ Pipeline.scopedRest (Ix := Unit) (Name := ℕ) (U := UR sig nD τ) (Lvl := ℕ) (Val := Elt F) spec1 c) ⊢ inv1 V c 0 := by
  unfold inv1
  simp only [owns_whole]
  iintro ⟨-, -, Hs⟩
  ihave H := (scoped_perm1 (F := F) c) $$ Hs
  icases H with ⟨⟨%n, H0⟩, ⟨%d, H1⟩, Hrest⟩
  iexists n, d
  isplitr; · ipureintro; intro h; exact absurd rfl h
  isplitl [H0]; · iexact H0
  isplitl [H1]; · iexact H1
  iexact Hrest

/-- The invariant after the last point gives the scoped buffers back, at whatever they hold. -/
theorem inv1_last :
    inv1 V c (Fin.last cfg1.N)
      ⊢ iprop(BI.emp ∗ BI.emp ∗ Pipeline.scopedRest (Ix := Unit) (Name := ℕ) (U := UR sig nD τ) (Lvl := ℕ) (Val := Elt F) spec1 c) := by
  unfold inv1
  simp only [owns_whole]
  iintro ⟨%n, %d, -, H0, H1, Hrest⟩
  isplitr; · iempintro
  isplitr; · iempintro
  iapply (scoped_unperm1 (F := F) c)
  isplitl [H0]; · iexists n; iexact H0
  isplitl [H1]; · iexists d; iexact H1
  iexact Hrest

end Scoped

-- a library lemma stated over `pin pcs a p` unifies with the pinned configuration only when unification may
-- unfold plain definitions in a metavariable's type
set_option backward.isDefEq.respectTransparency.types false in
/-- The call over the thread state "every unscoped buffer at `Wa`, nothing owed". -/
def reg1 : Pipeline.RegionSeg (pcfgs (F := F)) adm (pdats W) () defs₀ 𝒱₀ L lv pix1 where
  win := winFacts₀1
  block_pos := block_pos1
  stage_whole := stage_whole1
  K := PEmpty
  osem k := k.elim
  ho := Pipeline.OwnSemFacts.none _
  hbody c := (body_obligation1 (atTc (We1 W)) c).loose
  hwaits := Pipeline.hwaits_of_owed_zero _ _ _ _ L lv pix1 fun _ _ => rfl
  pre c := iprop(StableHlo.held (c : Thread nD τ) (Pipeline.ucRefs τ sig) (We1 W c) ∗ owe c)
  post c := iprop(StableHlo.held (c : Thread nD τ) (Pipeline.ucRefs τ sig) (exitV1 (We1 W) c) ∗ owe c)
  X _ := BI.emp
  Y _ := BI.emp
  Z c := Pipeline.unscopedRest (Ix := Unit) (Name := ℕ) (U := UR sig nD τ) (Lvl := ℕ) spec1 c (atTc (We1 W) c)
  hentry c := by
    rw [Pipeline.ownSems0_none]
    have hsplit := arrays_of_held1 (F := F) c (We1 W)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitr; · iempintro
    iexact Hrest
  hin c := by
    exact inv1_first (atTc (We1 W)) c _ _
  hout c := by
    rw [Pipeline.ownSems0_none]
    exact inv1_last (atTc (We1 W)) c
  hexit c := by
    have hjoin := held_of_arrays1 (F := F) c (We1 W)
    iintro ⟨Ha, HO, -, Hrest⟩
    imodintro
    isplitl [Ha Hrest]
    · iapply hjoin; isplitl [Ha]; · iexact Ha
      iexact Hrest
    unfold Pipeline.Dat.owesAt Pipeline.owesWithin
    icases HO with ⟨%T, -, HO⟩; iexists T; iexact HO

end Cert.KernelIdeal.Hand

end
-- ==== Proof.KI.Reg2.lean ====
import proofs.«135566_j39496519254112_1_alg».proof.Proof.KI.Exit2
import Idealize.ShloMosaic.Lib.Pipeline.RegionsLoop
import Idealize.ShloMosaic.Lib.Pipeline.FrameSuffix

/-!
# A mean-shift step's pallas_call as an item of @main

The call is entered from every unscoped buffer held at the contents `Wa` and left with the same
buffers but the result array, which holds what the write-backs of the 64 points leave. The array
behind both input windows is lent to them half each at entry and put together again at exit (an
input array is never written, so both halves come back at the entry contents).
-/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Fin 3 → Dev nD → Valuation τ sig (Elt F))

/-! ## The call's arrays among the unscoped buffers -/

section Arrays

variable (c : Dev nD)

/-- The unscoped buffers are the two buffers behind the call's arrays and the rest. -/
theorem unscopedBufs2_split (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec2 c V ∗ Pipeline.unscopedRest spec2 c V) :=
  Pipeline.unscopedBufs_split₀ cfgs pix2 winFacts₀2.arr_unscoped c V

/-- The buffers behind the arrays: the one both inputs read and the result's. -/
theorem arrBufs2_eq (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v3) ↦{fullShare} V main_v3) ∗ (((c : Thread nD τ).loc main_v5) ↦{fullShare} V main_v5)) := by
  unfold Pipeline.arrBufs
  exact bigSep_eq_bigSepL_of_eq [main_v3, main_v5] (by decide) (by decide) _

/-- The proof data's arrays window by window: the shared array at a half each, the result's whole. -/
theorem arrays2_eq (V : (c : Dev nD) → (b : Ref sig .tc) → Buf (Elt F) ((c : Thread nD τ).loc b))
    (G : (w : Fin cfg2.W) → Buf (Elt F) ((cfg2.win w).arr.view.loc (c : Thread nD τ))) :
    (dat2 V c).arrays G
      = iprop((((c : Thread nD τ).loc main_v3) ↦{fullShare.left} G 0) ∗ (((c : Thread nD τ).loc main_v3) ↦{fullShare.right} G 1)
          ∗ (((c : Thread nD τ).loc main_v5) ↦{fullShare} G 2)) := by
  unfold Dat.arrays
  rw [bigSep_W2, (arr_whole2 0).set_eq_univ, (arr_whole2 2).set_eq_univ]
  rfl

variable (V : Dev nD → Valuation τ sig (Elt F))

/-- ENTRY: the unscoped buffers lend the call its arrays, the shared one split in halves. -/
theorem arrays_of_held2 :
    (StableHlo.held (c : Thread nD τ) (Pipeline.ucRefs τ sig) (V c) : sProp 𝕄)
      ⊢ iprop((dat2 (atTc V) c).arrays (dat2 (atTc V) c).A
          ∗ Pipeline.unscopedRest (Ix := Unit) (Name := ℕ) (U := UR sig nD τ) (Lvl := ℕ) spec2 c (atTc V c)) := by
  rw [← Pipeline.unscopedBufs_held c (V c), unscopedBufs2_split, arrBufs2_eq, arrays2_eq, A_eq2, A_eq2, A_eq2]
  iintro ⟨⟨H0, H1⟩, Hrest⟩
  have hhalf : (((c : Thread nD τ).loc main_v3) ↦{fullShare} V c main_v3 : sProp 𝕄)
      ⊢ iprop((((c : Thread nD τ).loc main_v3) ↦{fullShare.left} V c main_v3) ∗ (((c : Thread nD τ).loc main_v3) ↦{fullShare.right} V c main_v3)) :=
    (pointsTo_share (PosShare.mem_left_op_right fullShare)).1
  ihave H := hhalf $$ H0
  icases H with ⟨Hl, Hr⟩
  isplitr [Hrest]
  · isplitl [Hl]; · iexact Hl
    isplitl [Hr]; · iexact Hr
    iexact H1
  · iexact Hrest

/-- Off the result array the exit contents are the entry contents. -/
theorem unscopedRest2_exit :
    (Pipeline.unscopedRest (Ix := Unit) (Name := ℕ) (U := UR sig nD τ) (Lvl := ℕ) spec2 c (fun b => exitV2 V c b) : sProp 𝕄)
      = Pipeline.unscopedRest spec2 c (atTc V c) := by
  unfold Pipeline.unscopedRest
  refine bigSep_congr fun b hb => ?_
  have hmem : main_v5 ∈ Finset.univ.image (Pipeline.arrRef spec2) := by decide
  have hne : b ≠ main_v5 := fun h => (Finset.mem_sdiff.mp hb).2 (h ▸ hmem)
  have e : exitV2 V c b = V c b := Function.update_of_ne (StableHlo.devRef_ne_of_ne hne) _ _
  exact congrArg (fun f : Buf (Elt F) ((c : Thread nD τ).loc b) => (((c : Thread nD τ).loc b) ↦{fullShare} f : sProp 𝕄)) e

/-- EXIT: the halves of the shared array, given back at the entry contents, and the result array make the
    unscoped buffers at the exit contents. -/
theorem held_of_arrays2 :
    iprop((dat2 (atTc V) c).arrays ((dat2 (atTc V) c).arrAt · cfg2.N)
        ∗ Pipeline.unscopedRest (Ix := Unit) (Name := ℕ) (U := UR sig nD τ) (Lvl := ℕ) spec2 c (atTc V c))
      ⊢ (StableHlo.held (c : Thread nD τ) (Pipeline.ucRefs τ sig) (exitV2 V c) : sProp 𝕄) := by
  have h0 : exitV2 V c (Proc.devRef .tc main_v3) = V c main_v3 :=
    Function.update_of_ne (StableHlo.devRef_ne_of_ne (by decide)) _ _
  have h1 : exitV2 V c (Proc.devRef .tc main_v5) = Arr2 V c := Function.update_self ..
  rw [← Pipeline.unscopedBufs_held c (exitV2 V c), unscopedBufs2_split, arrBufs2_eq, unscopedRest2_exit, h0, h1, arrays2_eq,
    (dat2 (atTc V) c).arrAt_in 0 rfl, (dat2 (atTc V) c).arrAt_in 1 rfl, A_eq2, A_eq2]
  iintro ⟨⟨Hl, Hr, H1⟩, Hrest⟩
  isplitr [Hrest]
  · isplitl [Hl Hr]
    · have hwhole : iprop((((c : Thread nD τ).loc main_v3) ↦{fullShare.left} V c main_v3) ∗ (((c : Thread nD τ).loc main_v3) ↦{fullShare.right} V c main_v3))
          ⊢ (((c : Thread nD τ).loc main_v3) ↦{fullShare} V c main_v3 : sProp 𝕄) :=
        (pointsTo_share (PosShare.mem_left_op_right fullShare)).2
      iapply hwhole
      isplitl [Hl]; · iexact Hl
      iexact Hr
    · iexact H1
  · iexact Hrest

end Arrays

/-! ## The scoped buffers no window stages, and the invariant at the first and the last point -/

section Scoped

variable (V : (c : Dev nD) → (b : Ref sig .tc) → Buf (Elt F) ((c : Thread nD τ).loc b)) (c : Dev nD)

/-- The scoped buffers no window stages: the call's two accumulators, then the other calls' buffers. -/
theorem scoped_perm2 :
    (Pipeline.scopedRest (Ix := Unit) (Name := ℕ) (U := UR sig nD τ) (Lvl := ℕ) (Val := Elt F) spec2 c : sProp 𝕄)
      ⊢ iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ rest2 c) := by
  rw [scopedRest2_eq]
  unfold rest2
  iintro ⟨H_cc0_stg0_0, H_cc0_stg0_1, H_cc0_stg1_0, H_cc0_stg1_1, H_cc0_stg2_0, H_cc0_stg2_1, H_cc0_scratch0, H_cc0_scratch1, H_cc1_stg0_0, H_cc1_stg0_1, H_cc1_stg1_0, H_cc1_stg1_1, H_cc1_stg2_0, H_cc1_stg2_1, H_cc1_scratch0, H_cc1_scratch1, H_cc2_scratch0, H_cc2_scratch1⟩
  isplitl [H_cc2_scratch0]; · iexact H_cc2_scratch0
  isplitl [H_cc2_scratch1]; · iexact H_cc2_scratch1
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_stg2_1]; · iexact H_cc0_stg2_1
  isplitl [H_cc0_scratch0]; · iexact H_cc0_scratch0
  isplitl [H_cc0_scratch1]; · iexact H_cc0_scratch1
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  isplitl [H_cc1_stg2_1]; · iexact H_cc1_stg2_1
  isplitl [H_cc1_scratch0]; · iexact H_cc1_scratch0
  iexact H_cc1_scratch1

/-- The same, read the other way. -/
theorem scoped_unperm2 :
    iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ rest2 c)
      ⊢ (Pipeline.scopedRest (Ix := Unit) (Name := ℕ) (U := UR sig nD τ) (Lvl := ℕ) (Val := Elt F) spec2 c : sProp 𝕄) := by
  rw [scopedRest2_eq]
  unfold rest2
  iintro ⟨H_cc2_scratch0, H_cc2_scratch1, H_cc0_stg0_0, H_cc0_stg0_1, H_cc0_stg1_0, H_cc0_stg1_1, H_cc0_stg2_0, H_cc0_stg2_1, H_cc0_scratch0, H_cc0_scratch1, H_cc1_stg0_0, H_cc1_stg0_1, H_cc1_stg1_0, H_cc1_stg1_1, H_cc1_stg2_0, H_cc1_stg2_1, H_cc1_scratch0, H_cc1_scratch1⟩
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_stg2_1]; · iexact H_cc0_stg2_1
  isplitl [H_cc0_scratch0]; · iexact H_cc0_scratch0
  isplitl [H_cc0_scratch1]; · iexact H_cc0_scratch1
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  isplitl [H_cc1_stg2_1]; · iexact H_cc1_stg2_1
  isplitl [H_cc1_scratch0]; · iexact H_cc1_scratch0
  isplitl [H_cc1_scratch1]; · iexact H_cc1_scratch1
  isplitl [H_cc2_scratch0]; · iexact H_cc2_scratch0
  iexact H_cc2_scratch1

/-- The accumulators at whatever they hold and the other scoped buffers make the invariant before the first point. -/
theorem inv2_first (P Q : sProp 𝕄) :
    iprop(P ∗ Q ∗ Pipeline.scopedRest (Ix := Unit) (Name := ℕ) (U := UR sig nD τ) (Lvl := ℕ) (Val := Elt F) spec2 c) ⊢ inv2 V c 0 := by
  unfold inv2
  simp only [owns_whole]
  iintro ⟨-, -, Hs⟩
  ihave H := (scoped_perm2 (F := F) c) $$ Hs
  icases H with ⟨⟨%n, H0⟩, ⟨%d, H1⟩, Hrest⟩
  iexists n, d
  isplitr; · ipureintro; intro h; exact absurd rfl h
  isplitl [H0]; · iexact H0
  isplitl [H1]; · iexact H1
  iexact Hrest

/-- The invariant after the last point gives the scoped buffers back, at whatever they hold. -/
theorem inv2_last :
    inv2 V c (Fin.last cfg2.N)
      ⊢ iprop(BI.emp ∗ BI.emp ∗ Pipeline.scopedRest (Ix := Unit) (Name := ℕ) (U := UR sig nD τ) (Lvl := ℕ) (Val := Elt F) spec2 c) := by
  unfold inv2
  simp only [owns_whole]
  iintro ⟨%n, %d, -, H0, H1, Hrest⟩
  isplitr; · iempintro
  isplitr; · iempintro
  iapply (scoped_unperm2 (F := F) c)
  isplitl [H0]; · iexists n; iexact H0
  isplitl [H1]; · iexists d; iexact H1
  iexact Hrest

end Scoped

-- a library lemma stated over `pin pcs a p` unifies with the pinned configuration only when unification may
-- unfold plain definitions in a metavariable's type
set_option backward.isDefEq.respectTransparency.types false in
/-- The call over the thread state "every unscoped buffer at `Wa`, nothing owed". -/
def reg2 : Pipeline.RegionSeg (pcfgs (F := F)) adm (pdats W) () defs₀ 𝒱₀ L lv pix2 where
  win := winFacts₀2
  block_pos := block_pos2
  stage_whole := stage_whole2
  K := PEmpty
  osem k := k.elim
  ho := Pipeline.OwnSemFacts.none _
  hbody c := (body_obligation2 (atTc (We2 W)) c).loose
  hwaits := Pipeline.hwaits_of_owed_zero _ _ _ _ L lv pix2 fun _ _ => rfl
  pre c := iprop(StableHlo.held (c : Thread nD τ) (Pipeline.ucRefs τ sig) (We2 W c) ∗ owe c)
  post c := iprop(StableHlo.held (c : Thread nD τ) (Pipeline.ucRefs τ sig) (exitV2 (We2 W) c) ∗ owe c)
  X _ := BI.emp
  Y _ := BI.emp
  Z c := Pipeline.unscopedRest (Ix := Unit) (Name := ℕ) (U := UR sig nD τ) (Lvl := ℕ) spec2 c (atTc (We2 W) c)
  hentry c := by
    rw [Pipeline.ownSems0_none]
    have hsplit := arrays_of_held2 (F := F) c (We2 W)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitr; · iempintro
    iexact Hrest
  hin c := by
    exact inv2_first (atTc (We2 W)) c _ _
  hout c := by
    rw [Pipeline.ownSems0_none]
    exact inv2_last (atTc (We2 W)) c
  hexit c := by
    have hjoin := held_of_arrays2 (F := F) c (We2 W)
    iintro ⟨Ha, HO, -, Hrest⟩
    imodintro
    isplitl [Ha Hrest]
    · iapply hjoin; isplitl [Ha]; · iexact Ha
      iexact Hrest
    unfold Pipeline.Dat.owesAt Pipeline.owesWithin
    icases HO with ⟨%T, -, HO⟩; iexists T; iexact HO

end Cert.KernelIdeal.Hand

end
-- ==== Proof.KI.ArgKept.lean ====
import proofs.«135566_j39496519254112_1_alg».proof.Proof.KI.Fold

/-!
# The argument array is never written

No host operation of @main writes `main_arg0` and no pallas_call has it as a result, so the fold
of the buffer contents through @main reads back the launch contents at it.
-/

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

/-! ## What each item leaves unchanged

A host stretch changes only the buffers its operations write; a pallas_call only its result array. -/

theorem U1_of (c : Dev nD) (r : Ref sig .tc) (h : r ∉ hostOps0_W) : U1 m c r = U0 m c r :=
  StableHlo.after_of_writes_sub hostOps0 _ hostOps0_writes h
theorem U2_of (c : Dev nD) (r : Ref sig .tc) (h : r ≠ main_v1) : U2 m c r = U1 m c r :=
  Function.update_of_ne (StableHlo.devRef_ne_of_ne h) _ _
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : r ≠ main_v3) : U4 m c r = U3 m c r :=
  Function.update_of_ne (StableHlo.devRef_ne_of_ne h) _ _
theorem U5_of (c : Dev nD) (r : Ref sig .tc) (h : r ∉ hostOps2_W) : U5 m c r = U4 m c r :=
  StableHlo.after_of_writes_sub hostOps2 _ hostOps2_writes h
theorem U6_of (c : Dev nD) (r : Ref sig .tc) (h : r ≠ main_v5) : U6 m c r = U5 m c r :=
  Function.update_of_ne (StableHlo.devRef_ne_of_ne h) _ _
theorem U7_of (c : Dev nD) (r : Ref sig .tc) (h : r ∉ hostOps3_W) : U7 m c r = U6 m c r :=
  StableHlo.after_of_writes_sub hostOps3 _ hostOps3_writes h

/-- At the return the argument's buffer holds what it held at launch. -/
theorem U7_arg0 (c : Dev nD) : U7 m c main_arg0 = m ((c : Thread nD τ).loc main_arg0) :=
  (U7_of m c main_arg0 (by decide)).trans <| (U6_of m c main_arg0 (by decide)).trans <|
    (U5_of m c main_arg0 (by decide)).trans <| (U4_of m c main_arg0 (by decide)).trans <|
    (U3_of m c main_arg0 (by decide)).trans <| (U2_of m c main_arg0 (by decide)).trans <|
    (U1_of m c main_arg0 (by decide)).trans rfl

end Cert.KernelIdeal.Hand

end
-- ==== Proof.Spec.lean ====
import Idealize.ShloMosaic.PureOps.Ideal
import Idealize.ShloMosaic.PureOps.Ideal.Laws
import Idealize.ShloMosaic.Lib.ValueIdx

/-!
# One mean-shift step, as a function of the whole array

`x` is a 32 x 9216 array: 9216 points (columns) in 32 dimensions. The affinity of points `i` and
`j` is `exp (3 * <x_i, x_j>)`; `den j` is the sum of column `j` of the affinity matrix and
`num a j` the a-th coordinate of the affinity-weighted sum of the points; the step moves every
point half way to its weighted mean: `(1/2 * num a j) / den j + 1/2 * x a j`. The three literals are
kept as their binary words, read at the extended reals.
-/

noncomputable section

open scoped BigOperators

namespace Cert.Spec

open Idealize.ShloMosaic Idealize.ShloMosaic.ValueIdx

/-- The shape of the iterated array: 32 coordinates of 9216 points. -/
abbrev SX : Shape := ⟨2, ![32, 9216]⟩

/-- Column `j` of the `T`-th tile of 1152 columns. -/
abbrev col (T : Nat) (hT : T < 8) (j : Fin 1152) : Fin 9216 := ⟨T * 1152 + j.val, by have := j.isLt; omega⟩

/-- The bandwidth `3.0`. -/
def bw : EReal := Ideal.ofBits .f32 0x40400000#32
/-- The step size `0.5` (and its complement, the same word). -/
def half : EReal := Ideal.ofBits .f32 0x3F000000#32

/-- The affinity of points `i` and `j`. -/
def aff (x : SX.Idx → EReal) (i j : Fin 9216) : EReal :=
  Ideal.exp (bw * ∑ a : Fin 32, x (ix2 a i) * x (ix2 a j))

/-- The sum of column `j` of the affinity matrix. -/
def den (x : SX.Idx → EReal) (j : Fin 9216) : EReal := ∑ i : Fin 9216, aff x i j

/-- Coordinate `a` of the affinity-weighted sum of the points, for point `j`. -/
def num (x : SX.Idx → EReal) (a : Fin 32) (j : Fin 9216) : EReal := ∑ i : Fin 9216, x (ix2 a i) * aff x i j

/-- One step, at coordinate `a` of point `j`. -/
def stepAt (x : SX.Idx → EReal) (a : Fin 32) (j : Fin 9216) : EReal :=
  Ideal.div (half * num x a j) (den x j) + half * x (ix2 a j)

/-- One step, as an array. -/
def step (x : SX.Idx → EReal) : SX.Idx → EReal := fun p => stepAt x (p 0) (p 1)

theorem step_ix2 (x : SX.Idx → EReal) (a : Fin 32) (j : Fin 9216) : step x (ix2 a j) = stepAt x a j := rfl

/-- The literal `0.5` is the real number one half. -/
theorem half_eq : half = ((1 / 2 : ℝ) : EReal) := by
  -- sign 0, exponent field 126, fraction 0: the value is 2^23 * 2^(126 - 127 - 23) = 1/2
  simp [half, Ideal.ofBits, Ideal.ieee, -EReal.coe_mul]; norm_num

/-- Scaling by one half passes through the quotient, whatever the extended reals `n` and `d`
    (also at `d = 0`, where both sides are the infinity of `n`'s sign, and at the infinities). -/
theorem half_mul_div (n d : EReal) : half * Ideal.div n d = Ideal.div (half * n) d := by
  rw [half_eq]
  have hpos : (0 : ℝ) < 1 / 2 := by norm_num
  have htop : ((1 / 2 : ℝ) : EReal) * ⊤ = ⊤ := EReal.coe_mul_top_of_pos hpos
  have hbot : ((1 / 2 : ℝ) : EReal) * ⊥ = ⊥ := EReal.coe_mul_bot_of_pos hpos
  unfold Ideal.div
  by_cases hd : d = 0
  · -- a zero divisor: both sides are the infinity of the sign of `n`, and halving keeps the sign
    rw [if_pos hd, if_pos hd]
    induction n using EReal.rec with
    | bot =>
      rw [hbot, if_neg (not_lt_of_ge bot_le), hbot]
    | top =>
      rw [htop, if_pos EReal.zero_lt_top, htop]
    | coe r =>
      rw [← EReal.coe_mul]
      by_cases hr : 0 < r
      · have h1 : (0 : EReal) < (r : EReal) := by exact_mod_cast hr
        have h2 : (0 : EReal) < ((1 / 2 * r : ℝ) : EReal) := by
          have : (0 : ℝ) < 1 / 2 * r := by positivity
          exact_mod_cast this
        rw [if_pos h1, if_pos h2, htop]
      · have h1 : ¬ (0 : EReal) < (r : EReal) := by
          intro h; exact hr (by exact_mod_cast h)
        have h2 : ¬ (0 : EReal) < ((1 / 2 * r : ℝ) : EReal) := by
          intro h
          have h' : (0 : ℝ) < 1 / 2 * r := by exact_mod_cast h
          exact hr (by linarith)
        rw [if_neg h1, if_neg h2, hbot]
  · -- a nonzero divisor: the quotient is a product, and the product is associative
    rw [if_neg hd, if_neg hd, mul_assoc]

end Cert.Spec

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KI.AccLib.lean ====
import proofs.«135566_j39496519254112_1_alg».proof.Proof.Gen.KernelIdeal
import proofs.«135566_j39496519254112_1_alg».proof.Proof.Spec
import proofs.«135566_j39496519254112_1_alg».proof.Proof.LibDot2
import Idealize.ShloMosaic.Lib.ValueIdx
import Idealize.ShloMosaic.PureOps.Ideal.Laws

/-!
# The two products and the column sum of a tile step, and sums over tiles

What the three calls of the kernel share, none of it about a grid point: the product that
contracts the 32 rows of two 32 x 1152 tiles (entry `(i, j)` is the sum over the rows of column
`i` of the left tile times column `j` of the right), the rows-by-columns product of a tile with a
1152 x 1152 block, the sum of a block over its first axis, and the fact that a sum over the 9216
columns is the sum over the 8 tiles of the sums over a tile's 1152 columns.
-/

set_option maxRecDepth 16384

noncomputable section

open scoped BigOperators

namespace Cert.KernelIdeal.Hand

open Cert.KernelIdeal Cert.KernelIdeal.Gen
open Idealize.ShloMosaic Idealize.ShloMosaic.ValueIdx
open Cert.Spec (col)

/-! ## The Gram product: both operands contracted along their 32 rows -/

theorem gram_lhs_0 (i : S1152x1152.Idx) (q : dot_S32x1152_S32x1152_S1152x1152_0_0_1_1_n_n.contr.Idx) :
    (dot_S32x1152_S32x1152_S1152x1152_0_0_1_1_n_n.lhsIdx i q 0).val = (q ⟨0, by decide⟩).val :=
  dot_S32x1152_S32x1152_S1152x1152_0_0_1_1_n_n.lhsIdx_val_of_single rfl i q
theorem gram_lhs_1 (i : S1152x1152.Idx) (q : dot_S32x1152_S32x1152_S1152x1152_0_0_1_1_n_n.contr.Idx) :
    (dot_S32x1152_S32x1152_S1152x1152_0_0_1_1_n_n.lhsIdx i q 1).val = (i 0).val := by
  unfold DotDims.lhsIdx
  rw [dif_neg (show ¬(1 : Fin S32x1152.rank) ∈ dot_S32x1152_S32x1152_S1152x1152_0_0_1_1_n_n.lhsBatch by decide), dif_pos (show (1 : Fin S32x1152.rank) ∈ dot_S32x1152_S32x1152_S1152x1152_0_0_1_1_n_n.lhsNonContracting by decide)]
  rfl
theorem gram_rhs_0 (i : S1152x1152.Idx) (q : dot_S32x1152_S32x1152_S1152x1152_0_0_1_1_n_n.contr.Idx) :
    (dot_S32x1152_S32x1152_S1152x1152_0_0_1_1_n_n.rhsIdx i q 0).val = (q ⟨0, by decide⟩).val :=
  dot_S32x1152_S32x1152_S1152x1152_0_0_1_1_n_n.rhsIdx_val_of_single rfl i q
theorem gram_rhs_1 (i : S1152x1152.Idx) (q : dot_S32x1152_S32x1152_S1152x1152_0_0_1_1_n_n.contr.Idx) :
    (dot_S32x1152_S32x1152_S1152x1152_0_0_1_1_n_n.rhsIdx i q 1).val = (i 1).val := by
  unfold DotDims.rhsIdx
  rw [dif_neg (show ¬(1 : Fin S32x1152.rank) ∈ dot_S32x1152_S32x1152_S1152x1152_0_0_1_1_n_n.rhsBatch by decide), dif_pos (show (1 : Fin S32x1152.rank) ∈ dot_S32x1152_S32x1152_S1152x1152_0_0_1_1_n_n.rhsNonContracting by decide)]
  rfl

/-- Entry `(i, j)` of the product that contracts the rows of both operands: the sum over the 32
    rows of column `i` of the left operand times column `j` of the right. -/
theorem gram_apply (l r : FVec Ideal S32x1152 .f32) (i j : Fin 1152) :
    matmul dot_S32x1152_S32x1152_S1152x1152_0_0_1_1_n_n none l r (constant (F := Ideal) S1152x1152 .f32 0x00000000#32) (ix2 i j)
      = ∑ a : Fin 32, l (ix2 a i) * r (ix2 a j) := by
  show FloatOps.matmul dot_S32x1152_S32x1152_S1152x1152_0_0_1_1_n_n none l r (constant (F := Ideal) S1152x1152 .f32 0x00000000#32) (ix2 i j) = _
  rw [Ideal.matmul_constant_zero_apply, ← Equiv.sum_comp (contrEquiv1 dot_S32x1152_S32x1152_S1152x1152_0_0_1_1_n_n 32 rfl rfl).symm]
  refine Finset.sum_congr rfl fun a _ => ?_
  have hk := contrEquiv1_symm_val dot_S32x1152_S32x1152_S1152x1152_0_0_1_1_n_n 32 rfl rfl a
  have el : dot_S32x1152_S32x1152_S1152x1152_0_0_1_1_n_n.lhsIdx (ix2 i j) ((contrEquiv1 dot_S32x1152_S32x1152_S1152x1152_0_0_1_1_n_n 32 rfl rfl).symm a) = ix2 a i := funext fun d => Fin.ext (by
    match d with
    | ⟨0, _⟩ => exact (gram_lhs_0 _ _).trans hk
    | ⟨1, _⟩ => exact gram_lhs_1 _ _)
  have er : dot_S32x1152_S32x1152_S1152x1152_0_0_1_1_n_n.rhsIdx (ix2 i j) ((contrEquiv1 dot_S32x1152_S32x1152_S1152x1152_0_0_1_1_n_n 32 rfl rfl).symm a) = ix2 a j := funext fun d => Fin.ext (by
    match d with
    | ⟨0, _⟩ => exact (gram_rhs_0 _ _).trans hk
    | ⟨1, _⟩ => exact gram_rhs_1 _ _)
  rw [el, er]

/-! ## The weighted product: a 32 x 1152 tile times a 1152 x 1152 block -/

theorem wgt_lhs_0 (i : S32x1152.Idx) (q : dot_S32x1152_S1152x1152_S32x1152_1_0_0_1_n_n.contr.Idx) :
    (dot_S32x1152_S1152x1152_S32x1152_1_0_0_1_n_n.lhsIdx i q 0).val = (i 0).val := by
  unfold DotDims.lhsIdx
  rw [dif_neg (show ¬(0 : Fin S32x1152.rank) ∈ dot_S32x1152_S1152x1152_S32x1152_1_0_0_1_n_n.lhsBatch by decide), dif_pos (show (0 : Fin S32x1152.rank) ∈ dot_S32x1152_S1152x1152_S32x1152_1_0_0_1_n_n.lhsNonContracting by decide)]
  rfl
theorem wgt_lhs_1 (i : S32x1152.Idx) (q : dot_S32x1152_S1152x1152_S32x1152_1_0_0_1_n_n.contr.Idx) :
    (dot_S32x1152_S1152x1152_S32x1152_1_0_0_1_n_n.lhsIdx i q 1).val = (q ⟨0, by decide⟩).val :=
  dot_S32x1152_S1152x1152_S32x1152_1_0_0_1_n_n.lhsIdx_val_of_single rfl i q
theorem wgt_rhs_0 (i : S32x1152.Idx) (q : dot_S32x1152_S1152x1152_S32x1152_1_0_0_1_n_n.contr.Idx) :
    (dot_S32x1152_S1152x1152_S32x1152_1_0_0_1_n_n.rhsIdx i q 0).val = (q ⟨0, by decide⟩).val :=
  dot_S32x1152_S1152x1152_S32x1152_1_0_0_1_n_n.rhsIdx_val_of_single rfl i q
theorem wgt_rhs_1 (i : S32x1152.Idx) (q : dot_S32x1152_S1152x1152_S32x1152_1_0_0_1_n_n.contr.Idx) :
    (dot_S32x1152_S1152x1152_S32x1152_1_0_0_1_n_n.rhsIdx i q 1).val = (i 1).val := by
  unfold DotDims.rhsIdx
  rw [dif_neg (show ¬(1 : Fin S1152x1152.rank) ∈ dot_S32x1152_S1152x1152_S32x1152_1_0_0_1_n_n.rhsBatch by decide), dif_pos (show (1 : Fin S1152x1152.rank) ∈ dot_S32x1152_S1152x1152_S32x1152_1_0_0_1_n_n.rhsNonContracting by decide)]
  rfl

/-- Entry `(a, j)` of the rows-by-columns product of a 32 x 1152 tile with a 1152 x 1152 block. -/
theorem wgt_apply (l : FVec Ideal S32x1152 .f32) (r : FVec Ideal S1152x1152 .f32) (a : Fin 32) (j : Fin 1152) :
    matmul dot_S32x1152_S1152x1152_S32x1152_1_0_0_1_n_n none l r (constant (F := Ideal) S32x1152 .f32 0x00000000#32) (ix2 a j)
      = ∑ i : Fin 1152, l (ix2 a i) * r (ix2 i j) :=
  Cert.Lib.Dot2.matmul_zero_ix2 dot_S32x1152_S1152x1152_S32x1152_1_0_0_1_n_n none rfl rfl wgt_lhs_0 wgt_lhs_1 wgt_rhs_0 wgt_rhs_1 l r a j

/-! ## The column sums of a block -/

/-- The sum over the first axis of a 1152 x 1152 block, started at the neutral word. -/
theorem colsum_apply (src : FVec Ideal S1152x1152 .f32) (j : Fin 1152) :
    multiReduction (F := Ideal) .add [0] S1152 src 0x00000000#32 reduces_S1152x1152_S1152 (.inl rfl) rfl (ix1 j)
      = ∑ i : Fin 1152, src (ix2 i j) := by
  refine (Ideal.multiReduction_add_single src 0x00000000#32 reduces_S1152x1152_S1152 (.inl rfl) rfl (ix1 j)).trans ?_
  refine Finset.sum_congr rfl fun i _ => congrArg src (funext fun d => Fin.ext ?_)
  match d with
  | ⟨0, _⟩ => rfl
  | ⟨1, _⟩ => rfl

/-! ## Sums over 8 tiles of 1152 columns -/

/-- Column `i` of tile `T mod 8`: `col` with no bound to carry, for sums over a range of tiles. -/
def colm (T : Nat) (i : Fin 1152) : Fin 9216 :=
  ⟨T % 8 * 1152 + i.val, by have := i.isLt; have := Nat.mod_lt T (show 0 < 8 by decide); omega⟩

theorem colm_eq (T : Nat) (hT : T < 8) (i : Fin 1152) : colm T i = col T hT i :=
  Fin.ext (by show T % 8 * 1152 + i.val = T * 1152 + i.val; rw [Nat.mod_eq_of_lt hT])

/-- A column is a tile and a column of the tile. -/
def tileEquiv : Fin 8 × Fin 1152 ≃ Fin 9216 where
  toFun p := ⟨p.1.val * 1152 + p.2.val, by have := p.1.isLt; have := p.2.isLt; omega⟩
  invFun n := (⟨n.val / 1152, by have := n.isLt; omega⟩, ⟨n.val % 1152, by omega⟩)
  left_inv p := by
    have h1 := p.1.isLt
    have h2 := p.2.isLt
    refine Prod.ext (Fin.ext ?_) (Fin.ext ?_)
    · show (p.1.val * 1152 + p.2.val) / 1152 = p.1.val
      omega
    · show (p.1.val * 1152 + p.2.val) % 1152 = p.2.val
      omega
  right_inv n := Fin.ext (by show n.val / 1152 * 1152 + n.val % 1152 = n.val; omega)

/-- A sum over the 9216 columns is the sum over the 8 tiles of the sums over a tile's 1152 columns. -/
theorem sum_tiles (f : Fin 9216 → EReal) :
    ∑ T ∈ Finset.range 8, ∑ i : Fin 1152, f (colm T i) = ∑ n : Fin 9216, f n := by
  rw [Finset.sum_range (fun T => ∑ i : Fin 1152, f (colm T i))]
  refine (Fintype.sum_prod_type' (fun (T : Fin 8) (i : Fin 1152) => f (colm T.val i))).symm.trans ?_
  refine Fintype.sum_equiv tileEquiv _ _ fun p => congrArg f (Fin.ext ?_)
  show p.1.val % 8 * 1152 + p.2.val = p.1.val * 1152 + p.2.val
  rw [Nat.mod_eq_of_lt p.1.isLt]

end Cert.KernelIdeal.Hand

end
-- ==== Proof.KI.Acc0.lean ====
import proofs.«135566_j39496519254112_1_alg».proof.Proof.KI.Dat0
import proofs.«135566_j39496519254112_1_alg».proof.Proof.KI.AccLib
import proofs.«135566_j39496519254112_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# What the accumulators hold, and the output block, at the extended reals

Point `t = 8 q + k` stages the q-th and the k-th tile of 1152 columns of the entry array `x`.
After the points `8 q .. 8 q + k` the accumulator `den` holds, at column `j` of the q-tile, the sum of
the affinities of `x`'s columns `0 .. 1152 (k + 1) - 1` with column `1152 q + j`, and `num` the
correspondingly weighted sums; after `k = 7` these are the whole column sums, and the block the
body stores is one mean-shift step of `x` read at the q-tile (`Cert.Spec.stepAt`): scaling by one
half passes through the quotient (`Cert.Spec.half_mul_div`), and a sum over 9216 columns is the
sum over 8 tiles of the sums over a tile's 1152.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.Spec (col)

variable (V : (c : Dev nD) → (b : Ref sig .tc) → Buf (Elt Ideal) ((c : Thread nD τ).loc b))

/-- The entry array of the call, as a function of its index. -/
abbrev xin0 (c : Dev nD) : S32x9216.Idx → EReal := V c main_v0

/-- The output-tile coordinate of a point is below 8. -/
theorem tile_lt0 (t : Fin cfg0.N) : t.val / 8 < 8 := by
  have h : t.val < 64 := lt_of_lt_of_eq t.isLt N_0
  omega

/-! ## The staged blocks -/

/-- The block indices of the two input windows, decided over the 64 points: both take all 32 rows;
    window 0 takes column tile `t / 8`, window 1 column tile `t % 8`. -/
theorem idx_facts0 : ∀ t : Fin cfg0.N, win0_0.index t (0 : Fin 2) = 0 ∧ win0_0.index t (1 : Fin 2) = t.val / 8
    ∧ win0_1.index t (0 : Fin 2) = 0 ∧ win0_1.index t (1 : Fin 2) = t.val % 8 :=
  (by decide +kernel : ∀ t : Fin grid0.N, win0_0.index t (0 : Fin 2) = 0 ∧ win0_0.index t (1 : Fin 2) = t.val / 8
    ∧ win0_1.index t (0 : Fin 2) = 0 ∧ win0_1.index t (1 : Fin 2) = t.val % 8)

/-- The q-tile staged at point `t` is the entry array at the columns of tile `t / 8`. -/
theorem xq0_apply (c : Dev nD) (t : Fin cfg0.N) (a : Fin 32) (j : Fin 1152) :
    xq0 (F := Ideal) V c t (ix2 a j) = xin0 V c (ix2 a (col (t.val / 8) (tile_lt0 t) j)) := by
  obtain ⟨e0, e1, -, -⟩ := idx_facts0 t
  show iblk0 V c 0 t (ix2 a j) = _
  unfold iblk0
  rw [View.read_apply]
  show V c main_v0 _ = V c main_v0 _
  congr 1
  funext b
  apply Fin.ext
  match b with
  | ⟨0, _⟩ => show win0_0.index t (0 : Fin 2) * 32 + 1 * a.val = a.val; rw [e0]; omega
  | ⟨1, _⟩ => show win0_0.index t (1 : Fin 2) * 1152 + 1 * j.val = t.val / 8 * 1152 + j.val; rw [e1]; omega

/-- The k-tile staged at point `t` is the entry array at the columns of tile `t % 8`. -/
theorem xk0_apply (c : Dev nD) (t : Fin cfg0.N) (a : Fin 32) (i : Fin 1152) :
    xk0 (F := Ideal) V c t (ix2 a i) = xin0 V c (ix2 a (col (t.val % 8) (by omega) i)) := by
  obtain ⟨-, -, e0, e1⟩ := idx_facts0 t
  show iblk0 V c 1 t (ix2 a i) = _
  unfold iblk0
  rw [View.read_apply]
  show V c main_v0 _ = V c main_v0 _
  congr 1
  funext b
  apply Fin.ext
  match b with
  | ⟨0, _⟩ => show win0_1.index t (0 : Fin 2) * 32 + 1 * a.val = a.val; rw [e0]; omega
  | ⟨1, _⟩ => show win0_1.index t (1 : Fin 2) * 1152 + 1 * i.val = t.val % 8 * 1152 + i.val; rw [e1]; omega

/-! ## The payloads at an index -/

/-- The zero block the `num` accumulator is reset to. -/
theorem pay1_apply0 (a : Fin 32) (j : Fin 1152) : k0_pay1 (F := Ideal) (ix2 a j) = 0 := by
  unfold k0_pay1
  simp only [shapeCast_self]
  exact Ideal.ofBits_zero_f32

/-- The zero row the `den` accumulator is reset to. -/
theorem pay2_apply0 (u : Fin 1) (j : Fin 1152) : k0_pay2 (F := Ideal) (ix2 u j) = 0 := by
  unfold k0_pay2
  simp only [shapeCast_self]
  exact Ideal.ofBits_zero_f32

/-- A cast to the same shape changes nothing. -/
theorem pay3_eq0 (v : Vec Ideal S32x1152 .f32) : k0_pay3 (F := Ideal) v = v := by
  unfold k0_pay3
  exact shapeCast_self _ _

theorem pay4_eq0 (v : Vec Ideal S32x1152 .f32) : k0_pay4 (F := Ideal) v = v := by
  unfold k0_pay4
  exact shapeCast_self _ _

/-- The exponentiated, scaled Gram block of the two staged tiles. -/
theorem pay5_apply0 (xq xk : Vec Ideal S32x1152 .f32) (i j : Fin 1152) :
    k0_pay5 (F := Ideal) xq xk (ix2 i j) = Ideal.exp (Cert.Spec.bw * ∑ a : Fin 32, xk (ix2 a i) * xq (ix2 a j)) := by
  unfold k0_pay5
  rw [pay3_eq0, pay4_eq0]
  show Ideal.exp (Cert.Spec.bw * matmul dot_S32x1152_S32x1152_S1152x1152_0_0_1_1_n_n none xk xq (constant (F := Ideal) S1152x1152 .f32 0x00000000#32) (ix2 i j)) = _
  rw [gram_apply]

/-- The `den` accumulator after a point: what it held plus the block's column sums. -/
theorem pay6_apply0 (xq xk : Vec Ideal S32x1152 .f32) (den : Vec Ideal S1x1152 .f32) (u : Fin 1) (j : Fin 1152) :
    k0_pay6 (F := Ideal) xq xk den (ix2 u j) = den (ix2 u j) + ∑ i : Fin 1152, k0_pay5 (F := Ideal) xq xk (ix2 i j) := by
  unfold k0_pay6
  simp only [shapeCast_self]
  show den (ix2 u j) + shapeCast S1x1152 (multiReduction (F := Ideal) .add [0] S1152 (k0_pay5 (F := Ideal) xq xk) 0x00000000#32 reduces_S1152x1152_S1152 (.inl rfl) rfl) shapeCasts_S1152_S1x1152 (ix2 u j) = _
  rw [shapeCast_a_1a_apply, colsum_apply]

/-- The `num` accumulator after a point: what it held plus the k-tile weighted by the block. -/
theorem pay7_apply0 (xq xk num : Vec Ideal S32x1152 .f32) (a : Fin 32) (j : Fin 1152) :
    k0_pay7 (F := Ideal) xq xk num (ix2 a j)
      = num (ix2 a j) + ∑ i : Fin 1152, xk (ix2 a i) * k0_pay5 (F := Ideal) xq xk (ix2 i j) := by
  unfold k0_pay7
  simp only [shapeCast_self]
  rw [pay4_eq0]
  show num (ix2 a j) + matmul dot_S32x1152_S1152x1152_S32x1152_1_0_0_1_n_n none xk (k0_pay5 (F := Ideal) xq xk) (constant (F := Ideal) S32x1152 .f32 0x00000000#32) (ix2 a j) = _
  rw [wgt_apply]

/-- The stored block: half the quotient of the accumulators plus half the q-tile. -/
theorem pay8_apply0 (xq : Vec Ideal S32x1152 .f32) (den : Vec Ideal S1x1152 .f32) (num : Vec Ideal S32x1152 .f32) (a : Fin 32) (j : Fin 1152) :
    k0_pay8 (F := Ideal) xq den num (ix2 a j)
      = Cert.Spec.half * Ideal.div (num (ix2 a j)) (den (ix2 (0 : Fin 1) j)) + Cert.Spec.half * xq (ix2 a j) := by
  unfold k0_pay8
  rw [pay3_eq0]
  show Cert.Spec.half * Ideal.div (num (ix2 a j)) (broadcastTo S32x1152 den broadcasts_S1x1152_S32x1152 (ix2 a j)) + Cert.Spec.half * xq (ix2 a j) = _
  rw [broadcastTo_1b_ab_apply]

/-! ## What a point adds to the accumulators -/

/-- The block of affinities a point computes: the columns of tile `t % 8` against those of tile `t / 8`. -/
theorem pay5_tile0 (c : Dev nD) (t : Fin cfg0.N) (i j : Fin 1152) :
    k0_pay5 (F := Ideal) (xq0 V c t) (xk0 V c t) (ix2 i j)
      = Cert.Spec.aff (xin0 V c) (col (t.val % 8) (by omega) i) (col (t.val / 8) (tile_lt0 t) j) := by
  rw [pay5_apply0]
  unfold Cert.Spec.aff
  refine congrArg (fun s => Ideal.exp (Cert.Spec.bw * s)) (Finset.sum_congr rfl fun a _ => ?_)
  rw [xq0_apply, xk0_apply]

/-- A point of tile coordinates `(q, k)` adds to `num` the k-tile's weighted sums. -/
theorem step_num0 (c : Dev nD) (t : Fin cfg0.N) (q k : Nat) (hq : q < 8) (hqt : t.val / 8 = q) (hkt : t.val % 8 = k)
    (num : Vec Ideal S32x1152 .f32) (a : Fin 32) (j : Fin 1152) :
    k0_pay7 (F := Ideal) (xq0 V c t) (xk0 V c t) num (ix2 a j)
      = num (ix2 a j) + ∑ i : Fin 1152, xin0 V c (ix2 a (colm k i)) * Cert.Spec.aff (xin0 V c) (colm k i) (col q hq j) := by
  subst hqt hkt
  rw [pay7_apply0]
  refine congrArg (num (ix2 a j) + ·) (Finset.sum_congr rfl fun i _ => ?_)
  rw [pay5_tile0, xk0_apply, colm_eq (t.val % 8) (by omega) i]

/-- A point of tile coordinates `(q, k)` adds to `den` the k-tile's affinity sums. -/
theorem step_den0 (c : Dev nD) (t : Fin cfg0.N) (q k : Nat) (hq : q < 8) (hqt : t.val / 8 = q) (hkt : t.val % 8 = k)
    (den : Vec Ideal S1x1152 .f32) (u : Fin 1) (j : Fin 1152) :
    k0_pay6 (F := Ideal) (xq0 V c t) (xk0 V c t) den (ix2 u j)
      = den (ix2 u j) + ∑ i : Fin 1152, Cert.Spec.aff (xin0 V c) (colm k i) (col q hq j) := by
  subst hqt hkt
  rw [pay6_apply0]
  refine congrArg (den (ix2 u j) + ·) (Finset.sum_congr rfl fun i _ => ?_)
  rw [pay5_tile0, colm_eq (t.val % 8) (by omega) i]

/-! ## The accumulators after the points `8 q .. 8 q + k` -/

/-- After the points `8 q .. 8 q + k` the accumulators hold the sums over the tiles `0 .. k`:
    `num` the weighted sums, `den` the affinity sums, against the columns of tile `q`. -/
theorem acc0_apply (c : Dev nD) (q : Nat) (hq : q < 8) : ∀ (k : Nat), k < 8 →
    (∀ (a : Fin 32) (j : Fin 1152), (acc0 (F := Ideal) V c (8 * q + k + 1)).1 (ix2 a j)
        = ∑ T ∈ Finset.range (k + 1), ∑ i : Fin 1152,
            xin0 V c (ix2 a (colm T i)) * Cert.Spec.aff (xin0 V c) (colm T i) (col q hq j))
    ∧ (∀ (u : Fin 1) (j : Fin 1152), (acc0 (F := Ideal) V c (8 * q + k + 1)).2 (ix2 u j)
        = ∑ T ∈ Finset.range (k + 1), ∑ i : Fin 1152, Cert.Spec.aff (xin0 V c) (colm T i) (col q hq j)) := by
  intro k
  induction k with
  | zero =>
    intro _
    -- the first point of the row of tiles: the accumulators start from zero
    have ht : 8 * q + 0 < cfg0.N := by rw [show cfg0.N = 64 from N_0]; omega
    have hqt : (8 * q + 0) / 8 = q := by omega
    have hkt : (8 * q + 0) % 8 = 0 := by omega
    have hs : acc0 (F := Ideal) V c (8 * q + 0 + 1) = _ := acc0_succ_first V c ⟨8 * q + 0, ht⟩ hkt
    rw [hs]
    refine ⟨fun a j => ?_, fun u j => ?_⟩
    · show k0_pay7 (F := Ideal) (xq0 V c ⟨8 * q + 0, ht⟩) (xk0 V c ⟨8 * q + 0, ht⟩) (k0_pay1 (F := Ideal)) (ix2 a j) = _
      rw [step_num0 V c ⟨8 * q + 0, ht⟩ q 0 hq hqt hkt, pay1_apply0, zero_add, Finset.sum_range_one]
    · show k0_pay6 (F := Ideal) (xq0 V c ⟨8 * q + 0, ht⟩) (xk0 V c ⟨8 * q + 0, ht⟩) (k0_pay2 (F := Ideal)) (ix2 u j) = _
      rw [step_den0 V c ⟨8 * q + 0, ht⟩ q 0 hq hqt hkt, pay2_apply0, zero_add, Finset.sum_range_one]
  | succ k ih =>
    intro hk
    obtain ⟨ihn, ihd⟩ := ih (by omega)
    -- a later point of the row: the accumulators take the tile's contribution
    have e : 8 * q + (k + 1) = 8 * q + k + 1 := by omega
    rw [e]
    have ht : 8 * q + k + 1 < cfg0.N := by rw [show cfg0.N = 64 from N_0]; omega
    have hqt : (8 * q + k + 1) / 8 = q := by omega
    have hkt : (8 * q + k + 1) % 8 = k + 1 := by omega
    have hs : acc0 (F := Ideal) V c (8 * q + k + 1 + 1) = _ :=
      acc0_succ_next V c ⟨8 * q + k + 1, ht⟩ (by show (8 * q + k + 1) % 8 ≠ 0; omega)
    rw [hs]
    refine ⟨fun a j => ?_, fun u j => ?_⟩
    · show k0_pay7 (F := Ideal) (xq0 V c ⟨8 * q + k + 1, ht⟩) (xk0 V c ⟨8 * q + k + 1, ht⟩) (acc0 (F := Ideal) V c (8 * q + k + 1)).1 (ix2 a j) = _
      rw [step_num0 V c ⟨8 * q + k + 1, ht⟩ q (k + 1) hq hqt hkt, ihn a j, Finset.sum_range_succ _ (k + 1)]
    · show k0_pay6 (F := Ideal) (xq0 V c ⟨8 * q + k + 1, ht⟩) (xk0 V c ⟨8 * q + k + 1, ht⟩) (acc0 (F := Ideal) V c (8 * q + k + 1)).2 (ix2 u j) = _
      rw [step_den0 V c ⟨8 * q + k + 1, ht⟩ q (k + 1) hq hqt hkt, ihd u j, Finset.sum_range_succ _ (k + 1)]

/-! ## The stored block -/

/-- The block stored at a point with `k = 7` is one mean-shift step of the entry array, read at the
    q-tile's columns. -/
theorem out0_apply (c : Dev nD) (t : Fin cfg0.N) (ht : t.val % 8 = 7) (a : Fin 32) (j : Fin 1152) :
    out0 (F := Ideal) V c t (ix2 a j) = Cert.Spec.stepAt (xin0 V c) a (col (t.val / 8) (tile_lt0 t) j) := by
  obtain ⟨hn, hd⟩ := acc0_apply V c (t.val / 8) (tile_lt0 t) 7 (by decide)
  have e : 8 * (t.val / 8) + 7 + 1 = t.val + 1 := by omega
  rw [e] at hn hd
  -- the eight tiles' sums are the sums over all 9216 columns
  have hnum : (acc0 (F := Ideal) V c (t.val + 1)).1 (ix2 a j)
      = Cert.Spec.num (xin0 V c) a (col (t.val / 8) (tile_lt0 t) j) :=
    (hn a j).trans (sum_tiles fun n => xin0 V c (ix2 a n) * Cert.Spec.aff (xin0 V c) n (col (t.val / 8) (tile_lt0 t) j))
  have hden : (acc0 (F := Ideal) V c (t.val + 1)).2 (ix2 (0 : Fin 1) j)
      = Cert.Spec.den (xin0 V c) (col (t.val / 8) (tile_lt0 t) j) :=
    (hd 0 j).trans (sum_tiles fun n => Cert.Spec.aff (xin0 V c) n (col (t.val / 8) (tile_lt0 t) j))
  unfold out0
  rw [pay8_apply0, hnum, hden, xq0_apply, Cert.Spec.half_mul_div]
  rfl

end Cert.KernelIdeal.Hand

end
-- ==== Proof.KI.Val0.lean ====
import proofs.«135566_j39496519254112_1_alg».proof.Proof.KI.Acc0
import Idealize.ShloMosaic.Lib.Pipeline.Value

/-!
# The result array of a mean-shift step's pallas_call

The output window's 8 blocks (one per q, written back at the points `8 q + 7`) tile the result
array; block q holds one step of the entry array at the columns of tile q; so the array after the
call is one step of the entry array, whole.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec (col)

variable (V : (c : Dev nD) → (b : Ref sig .tc) → Buf (Elt Ideal) ((c : Thread nD τ).loc b))

/-- Where the output window's block sits, decided over the grid: the one block of rows, and the
    block of columns `t / 8`. -/
theorem index0_2 : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)

/-- What a point with `k = 7` writes back is its block of one step of the entry array: the block's
    entry `(a, j)` sits at row `a` and column `1152 (t / 8) + j` of the array. -/
theorem flushed_eq0 (c : Dev nD) (t : Fin cfg0.N) (hf : (cfg0.win 2).flush t = true) :
    (dat0 (F := Ideal) V c).flushed 2 t = ((cfg0.win 2).blk t).view.read (Elt Ideal) (Cert.Spec.step (xin0 V c)) := by
  have ht : t.val % 8 = 7 := (flush0_2 t).mp hf
  show (cfg0.win 2).cut (grid0.coords t) ((dat0 V c).after 2 t) = _
  rw [after0_2]
  obtain ⟨e0, e1⟩ := index0_2 t
  funext y
  obtain ⟨a, j, rfl⟩ : ∃ (a : Fin 32) (j : Fin 1152), y = ix2 a j := ⟨y 0, y 1, eq_ix2 y⟩
  show out0 V c t (ix2 a j) = Cert.Spec.step (xin0 V c) (((cfg0.win 2).blk t).view.emb (ix2 a j))
  rw [out0_apply V c t ht a j]
  have hemb : ((cfg0.win 2).blk t).view.emb (ix2 a j)
      = ix2 a (col (t.val / 8) (tile_lt0 t) j) := by
    funext b; apply Fin.ext
    match b with
    | ⟨0, _⟩ => show win0_2.index t (0 : Fin 2) * 32 + 1 * a.val = a.val; omega
    | ⟨1, _⟩ => show win0_2.index t (1 : Fin 2) * 1152 + 1 * j.val = t.val / 8 * 1152 + j.val; omega
  rw [hemb, Cert.Spec.step_ix2]

/-- An index of the array is in point `t`'s block iff each coordinate is in the block's range on its axis. -/
theorem mem_blk0 (t : Fin cfg0.N) (p : S32x9216.Idx) :
    p ∈ ((cfg0.win 2).blk t).view.set ↔ ∀ a : Fin 2, win0_2.index t a * S32x1152.size a ≤ (p a).val ∧ (p a).val < win0_2.index t a * S32x1152.size a + S32x1152.size a := by
  show p ∈ ((View.whole main_v1).slice (win0_2.rect t)).set ↔ _
  rw [View.set_slice_whole, Rect.mem_set_unit]
  exact Iff.rfl

/-- Every index of the array is in the block of a point that writes back: column `J` lies in tile
    `J / 1152`, whose block the point `8 (J / 1152) + 7` stores. -/
theorem cover0 (p : S32x9216.Idx) :
    ∃ t : Fin cfg0.N, (cfg0.win 2).flush t = true ∧ p ∈ ((cfg0.win 2).blk t).view.set := by
  have h0 : (p 0).val < 32 := (p 0).isLt
  have h1 : (p 1).val < 9216 := (p 1).isLt
  have hN : cfg0.N = 64 := N_0
  have hlt : 8 * ((p 1).val / 1152) + 7 < cfg0.N := by omega
  obtain ⟨e0, e1⟩ := index0_2 ⟨8 * ((p 1).val / 1152) + 7, hlt⟩
  have e1' : win0_2.index ⟨8 * ((p 1).val / 1152) + 7, hlt⟩ (1 : Fin 2) = (p 1).val / 1152 := by
    rw [e1]; show (8 * ((p 1).val / 1152) + 7) / 8 = (p 1).val / 1152; omega
  refine ⟨⟨8 * ((p 1).val / 1152) + 7, hlt⟩, (flush0_2 _).mpr (by show (8 * ((p 1).val / 1152) + 7) % 8 = 7; omega), ?_⟩
  rw [mem_blk0]
  intro a
  match a with
  | ⟨0, _⟩ =>
    show win0_2.index ⟨8 * ((p 1).val / 1152) + 7, hlt⟩ (0 : Fin 2) * 32 ≤ (p 0).val
      ∧ (p 0).val < win0_2.index ⟨8 * ((p 1).val / 1152) + 7, hlt⟩ (0 : Fin 2) * 32 + 32
    omega
  | ⟨1, _⟩ =>
    show win0_2.index ⟨8 * ((p 1).val / 1152) + 7, hlt⟩ (1 : Fin 2) * 1152 ≤ (p 1).val
      ∧ (p 1).val < win0_2.index ⟨8 * ((p 1).val / 1152) + 7, hlt⟩ (1 : Fin 2) * 1152 + 1152
    omega

/-- After the call the result array is one mean-shift step of the entry array. -/
theorem arr_eq0 (c : Dev nD) :
    ((dat0 (F := Ideal) V c).arrAt 2 cfg0.N : S32x9216.Idx → EReal) = Cert.Spec.step (xin0 V c) :=
  (dat0 (F := Ideal) V c).arrAt_eq_of_cover 2 (Cert.Spec.step (xin0 V c)) (fun t hf => flushed_eq0 V c t hf) cover0

end Cert.KernelIdeal.Hand

end
-- ==== Proof.KI.Acc1.lean ====
import proofs.«135566_j39496519254112_1_alg».proof.Proof.KI.Dat1
import proofs.«135566_j39496519254112_1_alg».proof.Proof.KI.AccLib
import proofs.«135566_j39496519254112_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# What the accumulators hold, and the output block, at the extended reals

Point `t = 8 q + k` stages the q-th and the k-th tile of 1152 columns of the entry array `x`.
After the points `8 q .. 8 q + k` the accumulator `den` holds, at column `j` of the q-tile, the sum of
the affinities of `x`'s columns `0 .. 1152 (k + 1) - 1` with column `1152 q + j`, and `num` the
correspondingly weighted sums; after `k = 7` these are the whole column sums, and the block the
body stores is one mean-shift step of `x` read at the q-tile (`Cert.Spec.stepAt`): scaling by one
half passes through the quotient (`Cert.Spec.half_mul_div`), and a sum over 9216 columns is the
sum over 8 tiles of the sums over a tile's 1152.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.Spec (col)

variable (V : (c : Dev nD) → (b : Ref sig .tc) → Buf (Elt Ideal) ((c : Thread nD τ).loc b))

/-- The entry array of the call, as a function of its index. -/
abbrev xin1 (c : Dev nD) : S32x9216.Idx → EReal := V c main_v1

/-- The output-tile coordinate of a point is below 8. -/
theorem tile_lt1 (t : Fin cfg1.N) : t.val / 8 < 8 := by
  have h : t.val < 64 := lt_of_lt_of_eq t.isLt N_1
  omega

/-! ## The staged blocks -/

/-- The block indices of the two input windows, decided over the 64 points: both take all 32 rows;
    window 0 takes column tile `t / 8`, window 1 column tile `t % 8`. -/
theorem idx_facts1 : ∀ t : Fin cfg1.N, win1_0.index t (0 : Fin 2) = 0 ∧ win1_0.index t (1 : Fin 2) = t.val / 8
    ∧ win1_1.index t (0 : Fin 2) = 0 ∧ win1_1.index t (1 : Fin 2) = t.val % 8 :=
  (by decide +kernel : ∀ t : Fin grid1.N, win1_0.index t (0 : Fin 2) = 0 ∧ win1_0.index t (1 : Fin 2) = t.val / 8
    ∧ win1_1.index t (0 : Fin 2) = 0 ∧ win1_1.index t (1 : Fin 2) = t.val % 8)

/-- The q-tile staged at point `t` is the entry array at the columns of tile `t / 8`. -/
theorem xq1_apply (c : Dev nD) (t : Fin cfg1.N) (a : Fin 32) (j : Fin 1152) :
    xq1 (F := Ideal) V c t (ix2 a j) = xin1 V c (ix2 a (col (t.val / 8) (tile_lt1 t) j)) := by
  obtain ⟨e0, e1, -, -⟩ := idx_facts1 t
  show iblk1 V c 0 t (ix2 a j) = _
  unfold iblk1
  rw [View.read_apply]
  show V c main_v1 _ = V c main_v1 _
  congr 1
  funext b
  apply Fin.ext
  match b with
  | ⟨0, _⟩ => show win1_0.index t (0 : Fin 2) * 32 + 1 * a.val = a.val; rw [e0]; omega
  | ⟨1, _⟩ => show win1_0.index t (1 : Fin 2) * 1152 + 1 * j.val = t.val / 8 * 1152 + j.val; rw [e1]; omega

/-- The k-tile staged at point `t` is the entry array at the columns of tile `t % 8`. -/
theorem xk1_apply (c : Dev nD) (t : Fin cfg1.N) (a : Fin 32) (i : Fin 1152) :
    xk1 (F := Ideal) V c t (ix2 a i) = xin1 V c (ix2 a (col (t.val % 8) (by omega) i)) := by
  obtain ⟨-, -, e0, e1⟩ := idx_facts1 t
  show iblk1 V c 1 t (ix2 a i) = _
  unfold iblk1
  rw [View.read_apply]
  show V c main_v1 _ = V c main_v1 _
  congr 1
  funext b
  apply Fin.ext
  match b with
  | ⟨0, _⟩ => show win1_1.index t (0 : Fin 2) * 32 + 1 * a.val = a.val; rw [e0]; omega
  | ⟨1, _⟩ => show win1_1.index t (1 : Fin 2) * 1152 + 1 * i.val = t.val % 8 * 1152 + i.val; rw [e1]; omega

/-! ## The payloads at an index -/

/-- The zero block the `num` accumulator is reset to. -/
theorem pay1_apply1 (a : Fin 32) (j : Fin 1152) : k1_pay1 (F := Ideal) (ix2 a j) = 0 := by
  unfold k1_pay1
  simp only [shapeCast_self]
  exact Ideal.ofBits_zero_f32

/-- The zero row the `den` accumulator is reset to. -/
theorem pay2_apply1 (u : Fin 1) (j : Fin 1152) : k1_pay2 (F := Ideal) (ix2 u j) = 0 := by
  unfold k1_pay2
  simp only [shapeCast_self]
  exact Ideal.ofBits_zero_f32

/-- A cast to the same shape changes nothing. -/
theorem pay3_eq1 (v : Vec Ideal S32x1152 .f32) : k1_pay3 (F := Ideal) v = v := by
  unfold k1_pay3
  exact shapeCast_self _ _

theorem pay4_eq1 (v : Vec Ideal S32x1152 .f32) : k1_pay4 (F := Ideal) v = v := by
  unfold k1_pay4
  exact shapeCast_self _ _

/-- The exponentiated, scaled Gram block of the two staged tiles. -/
theorem pay5_apply1 (xq xk : Vec Ideal S32x1152 .f32) (i j : Fin 1152) :
    k1_pay5 (F := Ideal) xq xk (ix2 i j) = Ideal.exp (Cert.Spec.bw * ∑ a : Fin 32, xk (ix2 a i) * xq (ix2 a j)) := by
  unfold k1_pay5
  rw [pay3_eq1, pay4_eq1]
  show Ideal.exp (Cert.Spec.bw * matmul dot_S32x1152_S32x1152_S1152x1152_0_0_1_1_n_n none xk xq (constant (F := Ideal) S1152x1152 .f32 0x00000000#32) (ix2 i j)) = _
  rw [gram_apply]

/-- The `den` accumulator after a point: what it held plus the block's column sums. -/
theorem pay6_apply1 (xq xk : Vec Ideal S32x1152 .f32) (den : Vec Ideal S1x1152 .f32) (u : Fin 1) (j : Fin 1152) :
    k1_pay6 (F := Ideal) xq xk den (ix2 u j) = den (ix2 u j) + ∑ i : Fin 1152, k1_pay5 (F := Ideal) xq xk (ix2 i j) := by
  unfold k1_pay6
  simp only [shapeCast_self]
  show den (ix2 u j) + shapeCast S1x1152 (multiReduction (F := Ideal) .add [0] S1152 (k1_pay5 (F := Ideal) xq xk) 0x00000000#32 reduces_S1152x1152_S1152 (.inl rfl) rfl) shapeCasts_S1152_S1x1152 (ix2 u j) = _
  rw [shapeCast_a_1a_apply, colsum_apply]

/-- The `num` accumulator after a point: what it held plus the k-tile weighted by the block. -/
theorem pay7_apply1 (xq xk num : Vec Ideal S32x1152 .f32) (a : Fin 32) (j : Fin 1152) :
    k1_pay7 (F := Ideal) xq xk num (ix2 a j)
      = num (ix2 a j) + ∑ i : Fin 1152, xk (ix2 a i) * k1_pay5 (F := Ideal) xq xk (ix2 i j) := by
  unfold k1_pay7
  simp only [shapeCast_self]
  rw [pay4_eq1]
  show num (ix2 a j) + matmul dot_S32x1152_S1152x1152_S32x1152_1_0_0_1_n_n none xk (k1_pay5 (F := Ideal) xq xk) (constant (F := Ideal) S32x1152 .f32 0x00000000#32) (ix2 a j) = _
  rw [wgt_apply]

/-- The stored block: half the quotient of the accumulators plus half the q-tile. -/
theorem pay8_apply1 (xq : Vec Ideal S32x1152 .f32) (den : Vec Ideal S1x1152 .f32) (num : Vec Ideal S32x1152 .f32) (a : Fin 32) (j : Fin 1152) :
    k1_pay8 (F := Ideal) xq den num (ix2 a j)
      = Cert.Spec.half * Ideal.div (num (ix2 a j)) (den (ix2 (0 : Fin 1) j)) + Cert.Spec.half * xq (ix2 a j) := by
  unfold k1_pay8
  rw [pay3_eq1]
  show Cert.Spec.half * Ideal.div (num (ix2 a j)) (broadcastTo S32x1152 den broadcasts_S1x1152_S32x1152 (ix2 a j)) + Cert.Spec.half * xq (ix2 a j) = _
  rw [broadcastTo_1b_ab_apply]

/-! ## What a point adds to the accumulators -/

/-- The block of affinities a point computes: the columns of tile `t % 8` against those of tile `t / 8`. -/
theorem pay5_tile1 (c : Dev nD) (t : Fin cfg1.N) (i j : Fin 1152) :
    k1_pay5 (F := Ideal) (xq1 V c t) (xk1 V c t) (ix2 i j)
      = Cert.Spec.aff (xin1 V c) (col (t.val % 8) (by omega) i) (col (t.val / 8) (tile_lt1 t) j) := by
  rw [pay5_apply1]
  unfold Cert.Spec.aff
  refine congrArg (fun s => Ideal.exp (Cert.Spec.bw * s)) (Finset.sum_congr rfl fun a _ => ?_)
  rw [xq1_apply, xk1_apply]

/-- A point of tile coordinates `(q, k)` adds to `num` the k-tile's weighted sums. -/
theorem step_num1 (c : Dev nD) (t : Fin cfg1.N) (q k : Nat) (hq : q < 8) (hqt : t.val / 8 = q) (hkt : t.val % 8 = k)
    (num : Vec Ideal S32x1152 .f32) (a : Fin 32) (j : Fin 1152) :
    k1_pay7 (F := Ideal) (xq1 V c t) (xk1 V c t) num (ix2 a j)
      = num (ix2 a j) + ∑ i : Fin 1152, xin1 V c (ix2 a (colm k i)) * Cert.Spec.aff (xin1 V c) (colm k i) (col q hq j) := by
  subst hqt hkt
  rw [pay7_apply1]
  refine congrArg (num (ix2 a j) + ·) (Finset.sum_congr rfl fun i _ => ?_)
  rw [pay5_tile1, xk1_apply, colm_eq (t.val % 8) (by omega) i]

/-- A point of tile coordinates `(q, k)` adds to `den` the k-tile's affinity sums. -/
theorem step_den1 (c : Dev nD) (t : Fin cfg1.N) (q k : Nat) (hq : q < 8) (hqt : t.val / 8 = q) (hkt : t.val % 8 = k)
    (den : Vec Ideal S1x1152 .f32) (u : Fin 1) (j : Fin 1152) :
    k1_pay6 (F := Ideal) (xq1 V c t) (xk1 V c t) den (ix2 u j)
      = den (ix2 u j) + ∑ i : Fin 1152, Cert.Spec.aff (xin1 V c) (colm k i) (col q hq j) := by
  subst hqt hkt
  rw [pay6_apply1]
  refine congrArg (den (ix2 u j) + ·) (Finset.sum_congr rfl fun i _ => ?_)
  rw [pay5_tile1, colm_eq (t.val % 8) (by omega) i]

/-! ## The accumulators after the points `8 q .. 8 q + k` -/

/-- After the points `8 q .. 8 q + k` the accumulators hold the sums over the tiles `0 .. k`:
    `num` the weighted sums, `den` the affinity sums, against the columns of tile `q`. -/
theorem acc1_apply (c : Dev nD) (q : Nat) (hq : q < 8) : ∀ (k : Nat), k < 8 →
    (∀ (a : Fin 32) (j : Fin 1152), (acc1 (F := Ideal) V c (8 * q + k + 1)).1 (ix2 a j)
        = ∑ T ∈ Finset.range (k + 1), ∑ i : Fin 1152,
            xin1 V c (ix2 a (colm T i)) * Cert.Spec.aff (xin1 V c) (colm T i) (col q hq j))
    ∧ (∀ (u : Fin 1) (j : Fin 1152), (acc1 (F := Ideal) V c (8 * q + k + 1)).2 (ix2 u j)
        = ∑ T ∈ Finset.range (k + 1), ∑ i : Fin 1152, Cert.Spec.aff (xin1 V c) (colm T i) (col q hq j)) := by
  intro k
  induction k with
  | zero =>
    intro _
    -- the first point of the row of tiles: the accumulators start from zero
    have ht : 8 * q + 0 < cfg1.N := by rw [show cfg1.N = 64 from N_1]; omega
    have hqt : (8 * q + 0) / 8 = q := by omega
    have hkt : (8 * q + 0) % 8 = 0 := by omega
    have hs : acc1 (F := Ideal) V c (8 * q + 0 + 1) = _ := acc1_succ_first V c ⟨8 * q + 0, ht⟩ hkt
    rw [hs]
    refine ⟨fun a j => ?_, fun u j => ?_⟩
    · show k1_pay7 (F := Ideal) (xq1 V c ⟨8 * q + 0, ht⟩) (xk1 V c ⟨8 * q + 0, ht⟩) (k1_pay1 (F := Ideal)) (ix2 a j) = _
      rw [step_num1 V c ⟨8 * q + 0, ht⟩ q 0 hq hqt hkt, pay1_apply1, zero_add, Finset.sum_range_one]
    · show k1_pay6 (F := Ideal) (xq1 V c ⟨8 * q + 0, ht⟩) (xk1 V c ⟨8 * q + 0, ht⟩) (k1_pay2 (F := Ideal)) (ix2 u j) = _
      rw [step_den1 V c ⟨8 * q + 0, ht⟩ q 0 hq hqt hkt, pay2_apply1, zero_add, Finset.sum_range_one]
  | succ k ih =>
    intro hk
    obtain ⟨ihn, ihd⟩ := ih (by omega)
    -- a later point of the row: the accumulators take the tile's contribution
    have e : 8 * q + (k + 1) = 8 * q + k + 1 := by omega
    rw [e]
    have ht : 8 * q + k + 1 < cfg1.N := by rw [show cfg1.N = 64 from N_1]; omega
    have hqt : (8 * q + k + 1) / 8 = q := by omega
    have hkt : (8 * q + k + 1) % 8 = k + 1 := by omega
    have hs : acc1 (F := Ideal) V c (8 * q + k + 1 + 1) = _ :=
      acc1_succ_next V c ⟨8 * q + k + 1, ht⟩ (by show (8 * q + k + 1) % 8 ≠ 0; omega)
    rw [hs]
    refine ⟨fun a j => ?_, fun u j => ?_⟩
    · show k1_pay7 (F := Ideal) (xq1 V c ⟨8 * q + k + 1, ht⟩) (xk1 V c ⟨8 * q + k + 1, ht⟩) (acc1 (F := Ideal) V c (8 * q + k + 1)).1 (ix2 a j) = _
      rw [step_num1 V c ⟨8 * q + k + 1, ht⟩ q (k + 1) hq hqt hkt, ihn a j, Finset.sum_range_succ _ (k + 1)]
    · show k1_pay6 (F := Ideal) (xq1 V c ⟨8 * q + k + 1, ht⟩) (xk1 V c ⟨8 * q + k + 1, ht⟩) (acc1 (F := Ideal) V c (8 * q + k + 1)).2 (ix2 u j) = _
      rw [step_den1 V c ⟨8 * q + k + 1, ht⟩ q (k + 1) hq hqt hkt, ihd u j, Finset.sum_range_succ _ (k + 1)]

/-! ## The stored block -/

/-- The block stored at a point with `k = 7` is one mean-shift step of the entry array, read at the
    q-tile's columns. -/
theorem out1_apply (c : Dev nD) (t : Fin cfg1.N) (ht : t.val % 8 = 7) (a : Fin 32) (j : Fin 1152) :
    out1 (F := Ideal) V c t (ix2 a j) = Cert.Spec.stepAt (xin1 V c) a (col (t.val / 8) (tile_lt1 t) j) := by
  obtain ⟨hn, hd⟩ := acc1_apply V c (t.val / 8) (tile_lt1 t) 7 (by decide)
  have e : 8 * (t.val / 8) + 7 + 1 = t.val + 1 := by omega
  rw [e] at hn hd
  -- the eight tiles' sums are the sums over all 9216 columns
  have hnum : (acc1 (F := Ideal) V c (t.val + 1)).1 (ix2 a j)
      = Cert.Spec.num (xin1 V c) a (col (t.val / 8) (tile_lt1 t) j) :=
    (hn a j).trans (sum_tiles fun n => xin1 V c (ix2 a n) * Cert.Spec.aff (xin1 V c) n (col (t.val / 8) (tile_lt1 t) j))
  have hden : (acc1 (F := Ideal) V c (t.val + 1)).2 (ix2 (0 : Fin 1) j)
      = Cert.Spec.den (xin1 V c) (col (t.val / 8) (tile_lt1 t) j) :=
    (hd 0 j).trans (sum_tiles fun n => Cert.Spec.aff (xin1 V c) n (col (t.val / 8) (tile_lt1 t) j))
  unfold out1
  rw [pay8_apply1, hnum, hden, xq1_apply, Cert.Spec.half_mul_div]
  rfl

end Cert.KernelIdeal.Hand

end
-- ==== Proof.KI.Val1.lean ====
import proofs.«135566_j39496519254112_1_alg».proof.Proof.KI.Acc1
import Idealize.ShloMosaic.Lib.Pipeline.Value

/-!
# The result array of a mean-shift step's pallas_call

The output window's 8 blocks (one per q, written back at the points `8 q + 7`) tile the result
array; block q holds one step of the entry array at the columns of tile q; so the array after the
call is one step of the entry array, whole.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec (col)

variable (V : (c : Dev nD) → (b : Ref sig .tc) → Buf (Elt Ideal) ((c : Thread nD τ).loc b))

/-- Where the output window's block sits, decided over the grid: the one block of rows, and the
    block of columns `t / 8`. -/
theorem index1_2 : ∀ t : Fin cfg1.N, win1_2.index t (0 : Fin 2) = 0 ∧ win1_2.index t (1 : Fin 2) = t.val / 8 :=
  (by decide +kernel : ∀ t : Fin grid1.N, win1_2.index t (0 : Fin 2) = 0 ∧ win1_2.index t (1 : Fin 2) = t.val / 8)

/-- What a point with `k = 7` writes back is its block of one step of the entry array: the block's
    entry `(a, j)` sits at row `a` and column `1152 (t / 8) + j` of the array. -/
theorem flushed_eq1 (c : Dev nD) (t : Fin cfg1.N) (hf : (cfg1.win 2).flush t = true) :
    (dat1 (F := Ideal) V c).flushed 2 t = ((cfg1.win 2).blk t).view.read (Elt Ideal) (Cert.Spec.step (xin1 V c)) := by
  have ht : t.val % 8 = 7 := (flush1_2 t).mp hf
  show (cfg1.win 2).cut (grid1.coords t) ((dat1 V c).after 2 t) = _
  rw [after1_2]
  obtain ⟨e0, e1⟩ := index1_2 t
  funext y
  obtain ⟨a, j, rfl⟩ : ∃ (a : Fin 32) (j : Fin 1152), y = ix2 a j := ⟨y 0, y 1, eq_ix2 y⟩
  show out1 V c t (ix2 a j) = Cert.Spec.step (xin1 V c) (((cfg1.win 2).blk t).view.emb (ix2 a j))
  rw [out1_apply V c t ht a j]
  have hemb : ((cfg1.win 2).blk t).view.emb (ix2 a j)
      = ix2 a (col (t.val / 8) (tile_lt1 t) j) := by
    funext b; apply Fin.ext
    match b with
    | ⟨0, _⟩ => show win1_2.index t (0 : Fin 2) * 32 + 1 * a.val = a.val; omega
    | ⟨1, _⟩ => show win1_2.index t (1 : Fin 2) * 1152 + 1 * j.val = t.val / 8 * 1152 + j.val; omega
  rw [hemb, Cert.Spec.step_ix2]

/-- An index of the array is in point `t`'s block iff each coordinate is in the block's range on its axis. -/
theorem mem_blk1 (t : Fin cfg1.N) (p : S32x9216.Idx) :
    p ∈ ((cfg1.win 2).blk t).view.set ↔ ∀ a : Fin 2, win1_2.index t a * S32x1152.size a ≤ (p a).val ∧ (p a).val < win1_2.index t a * S32x1152.size a + S32x1152.size a := by
  show p ∈ ((View.whole main_v3).slice (win1_2.rect t)).set ↔ _
  rw [View.set_slice_whole, Rect.mem_set_unit]
  exact Iff.rfl

/-- Every index of the array is in the block of a point that writes back: column `J` lies in tile
    `J / 1152`, whose block the point `8 (J / 1152) + 7` stores. -/
theorem cover1 (p : S32x9216.Idx) :
    ∃ t : Fin cfg1.N, (cfg1.win 2).flush t = true ∧ p ∈ ((cfg1.win 2).blk t).view.set := by
  have h0 : (p 0).val < 32 := (p 0).isLt
  have h1 : (p 1).val < 9216 := (p 1).isLt
  have hN : cfg1.N = 64 := N_1
  have hlt : 8 * ((p 1).val / 1152) + 7 < cfg1.N := by omega
  obtain ⟨e0, e1⟩ := index1_2 ⟨8 * ((p 1).val / 1152) + 7, hlt⟩
  have e1' : win1_2.index ⟨8 * ((p 1).val / 1152) + 7, hlt⟩ (1 : Fin 2) = (p 1).val / 1152 := by
    rw [e1]; show (8 * ((p 1).val / 1152) + 7) / 8 = (p 1).val / 1152; omega
  refine ⟨⟨8 * ((p 1).val / 1152) + 7, hlt⟩, (flush1_2 _).mpr (by show (8 * ((p 1).val / 1152) + 7) % 8 = 7; omega), ?_⟩
  rw [mem_blk1]
  intro a
  match a with
  | ⟨0, _⟩ =>
    show win1_2.index ⟨8 * ((p 1).val / 1152) + 7, hlt⟩ (0 : Fin 2) * 32 ≤ (p 0).val
      ∧ (p 0).val < win1_2.index ⟨8 * ((p 1).val / 1152) + 7, hlt⟩ (0 : Fin 2) * 32 + 32
    omega
  | ⟨1, _⟩ =>
    show win1_2.index ⟨8 * ((p 1).val / 1152) + 7, hlt⟩ (1 : Fin 2) * 1152 ≤ (p 1).val
      ∧ (p 1).val < win1_2.index ⟨8 * ((p 1).val / 1152) + 7, hlt⟩ (1 : Fin 2) * 1152 + 1152
    omega

/-- After the call the result array is one mean-shift step of the entry array. -/
theorem arr_eq1 (c : Dev nD) :
    ((dat1 (F := Ideal) V c).arrAt 2 cfg1.N : S32x9216.Idx → EReal) = Cert.Spec.step (xin1 V c) :=
  (dat1 (F := Ideal) V c).arrAt_eq_of_cover 2 (Cert.Spec.step (xin1 V c)) (fun t hf => flushed_eq1 V c t hf) cover1

end Cert.KernelIdeal.Hand

end
-- ==== Proof.KI.Acc2.lean ====
import proofs.«135566_j39496519254112_1_alg».proof.Proof.KI.Dat2
import proofs.«135566_j39496519254112_1_alg».proof.Proof.KI.AccLib
import proofs.«135566_j39496519254112_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# What the accumulators hold, and the output block, at the extended reals

Point `t = 8 q + k` stages the q-th and the k-th tile of 1152 columns of the entry array `x`.
After the points `8 q .. 8 q + k` the accumulator `den` holds, at column `j` of the q-tile, the sum of
the affinities of `x`'s columns `0 .. 1152 (k + 1) - 1` with column `1152 q + j`, and `num` the
correspondingly weighted sums; after `k = 7` these are the whole column sums, and the block the
body stores is one mean-shift step of `x` read at the q-tile (`Cert.Spec.stepAt`): scaling by one
half passes through the quotient (`Cert.Spec.half_mul_div`), and a sum over 9216 columns is the
sum over 8 tiles of the sums over a tile's 1152.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.Spec (col)

variable (V : (c : Dev nD) → (b : Ref sig .tc) → Buf (Elt Ideal) ((c : Thread nD τ).loc b))

/-- The entry array of the call, as a function of its index. -/
abbrev xin2 (c : Dev nD) : S32x9216.Idx → EReal := V c main_v3

/-- The output-tile coordinate of a point is below 8. -/
theorem tile_lt2 (t : Fin cfg2.N) : t.val / 8 < 8 := by
  have h : t.val < 64 := lt_of_lt_of_eq t.isLt N_2
  omega

/-! ## The staged blocks -/

/-- The block indices of the two input windows, decided over the 64 points: both take all 32 rows;
    window 0 takes column tile `t / 8`, window 1 column tile `t % 8`. -/
theorem idx_facts2 : ∀ t : Fin cfg2.N, win2_0.index t (0 : Fin 2) = 0 ∧ win2_0.index t (1 : Fin 2) = t.val / 8
    ∧ win2_1.index t (0 : Fin 2) = 0 ∧ win2_1.index t (1 : Fin 2) = t.val % 8 :=
  (by decide +kernel : ∀ t : Fin grid2.N, win2_0.index t (0 : Fin 2) = 0 ∧ win2_0.index t (1 : Fin 2) = t.val / 8
    ∧ win2_1.index t (0 : Fin 2) = 0 ∧ win2_1.index t (1 : Fin 2) = t.val % 8)

/-- The q-tile staged at point `t` is the entry array at the columns of tile `t / 8`. -/
theorem xq2_apply (c : Dev nD) (t : Fin cfg2.N) (a : Fin 32) (j : Fin 1152) :
    xq2 (F := Ideal) V c t (ix2 a j) = xin2 V c (ix2 a (col (t.val / 8) (tile_lt2 t) j)) := by
  obtain ⟨e0, e1, -, -⟩ := idx_facts2 t
  show iblk2 V c 0 t (ix2 a j) = _
  unfold iblk2
  rw [View.read_apply]
  show V c main_v3 _ = V c main_v3 _
  congr 1
  funext b
  apply Fin.ext
  match b with
  | ⟨0, _⟩ => show win2_0.index t (0 : Fin 2) * 32 + 1 * a.val = a.val; rw [e0]; omega
  | ⟨1, _⟩ => show win2_0.index t (1 : Fin 2) * 1152 + 1 * j.val = t.val / 8 * 1152 + j.val; rw [e1]; omega

/-- The k-tile staged at point `t` is the entry array at the columns of tile `t % 8`. -/
theorem xk2_apply (c : Dev nD) (t : Fin cfg2.N) (a : Fin 32) (i : Fin 1152) :
    xk2 (F := Ideal) V c t (ix2 a i) = xin2 V c (ix2 a (col (t.val % 8) (by omega) i)) := by
  obtain ⟨-, -, e0, e1⟩ := idx_facts2 t
  show iblk2 V c 1 t (ix2 a i) = _
  unfold iblk2
  rw [View.read_apply]
  show V c main_v3 _ = V c main_v3 _
  congr 1
  funext b
  apply Fin.ext
  match b with
  | ⟨0, _⟩ => show win2_1.index t (0 : Fin 2) * 32 + 1 * a.val = a.val; rw [e0]; omega
  | ⟨1, _⟩ => show win2_1.index t (1 : Fin 2) * 1152 + 1 * i.val = t.val % 8 * 1152 + i.val; rw [e1]; omega

/-! ## The payloads at an index -/

/-- The zero block the `num` accumulator is reset to. -/
theorem pay1_apply2 (a : Fin 32) (j : Fin 1152) : k2_pay1 (F := Ideal) (ix2 a j) = 0 := by
  unfold k2_pay1
  simp only [shapeCast_self]
  exact Ideal.ofBits_zero_f32

/-- The zero row the `den` accumulator is reset to. -/
theorem pay2_apply2 (u : Fin 1) (j : Fin 1152) : k2_pay2 (F := Ideal) (ix2 u j) = 0 := by
  unfold k2_pay2
  simp only [shapeCast_self]
  exact Ideal.ofBits_zero_f32

/-- A cast to the same shape changes nothing. -/
theorem pay3_eq2 (v : Vec Ideal S32x1152 .f32) : k2_pay3 (F := Ideal) v = v := by
  unfold k2_pay3
  exact shapeCast_self _ _

theorem pay4_eq2 (v : Vec Ideal S32x1152 .f32) : k2_pay4 (F := Ideal) v = v := by
  unfold k2_pay4
  exact shapeCast_self _ _

/-- The exponentiated, scaled Gram block of the two staged tiles. -/
theorem pay5_apply2 (xq xk : Vec Ideal S32x1152 .f32) (i j : Fin 1152) :
    k2_pay5 (F := Ideal) xq xk (ix2 i j) = Ideal.exp (Cert.Spec.bw * ∑ a : Fin 32, xk (ix2 a i) * xq (ix2 a j)) := by
  unfold k2_pay5
  rw [pay3_eq2, pay4_eq2]
  show Ideal.exp (Cert.Spec.bw * matmul dot_S32x1152_S32x1152_S1152x1152_0_0_1_1_n_n none xk xq (constant (F := Ideal) S1152x1152 .f32 0x00000000#32) (ix2 i j)) = _
  rw [gram_apply]

/-- The `den` accumulator after a point: what it held plus the block's column sums. -/
theorem pay6_apply2 (xq xk : Vec Ideal S32x1152 .f32) (den : Vec Ideal S1x1152 .f32) (u : Fin 1) (j : Fin 1152) :
    k2_pay6 (F := Ideal) xq xk den (ix2 u j) = den (ix2 u j) + ∑ i : Fin 1152, k2_pay5 (F := Ideal) xq xk (ix2 i j) := by
  unfold k2_pay6
  simp only [shapeCast_self]
  show den (ix2 u j) + shapeCast S1x1152 (multiReduction (F := Ideal) .add [0] S1152 (k2_pay5 (F := Ideal) xq xk) 0x00000000#32 reduces_S1152x1152_S1152 (.inl rfl) rfl) shapeCasts_S1152_S1x1152 (ix2 u j) = _
  rw [shapeCast_a_1a_apply, colsum_apply]

/-- The `num` accumulator after a point: what it held plus the k-tile weighted by the block. -/
theorem pay7_apply2 (xq xk num : Vec Ideal S32x1152 .f32) (a : Fin 32) (j : Fin 1152) :
    k2_pay7 (F := Ideal) xq xk num (ix2 a j)
      = num (ix2 a j) + ∑ i : Fin 1152, xk (ix2 a i) * k2_pay5 (F := Ideal) xq xk (ix2 i j) := by
  unfold k2_pay7
  simp only [shapeCast_self]
  rw [pay4_eq2]
  show num (ix2 a j) + matmul dot_S32x1152_S1152x1152_S32x1152_1_0_0_1_n_n none xk (k2_pay5 (F := Ideal) xq xk) (constant (F := Ideal) S32x1152 .f32 0x00000000#32) (ix2 a j) = _
  rw [wgt_apply]

/-- The stored block: half the quotient of the accumulators plus half the q-tile. -/
theorem pay8_apply2 (xq : Vec Ideal S32x1152 .f32) (den : Vec Ideal S1x1152 .f32) (num : Vec Ideal S32x1152 .f32) (a : Fin 32) (j : Fin 1152) :
    k2_pay8 (F := Ideal) xq den num (ix2 a j)
      = Cert.Spec.half * Ideal.div (num (ix2 a j)) (den (ix2 (0 : Fin 1) j)) + Cert.Spec.half * xq (ix2 a j) := by
  unfold k2_pay8
  rw [pay3_eq2]
  show Cert.Spec.half * Ideal.div (num (ix2 a j)) (broadcastTo S32x1152 den broadcasts_S1x1152_S32x1152 (ix2 a j)) + Cert.Spec.half * xq (ix2 a j) = _
  rw [broadcastTo_1b_ab_apply]

/-! ## What a point adds to the accumulators -/

/-- The block of affinities a point computes: the columns of tile `t % 8` against those of tile `t / 8`. -/
theorem pay5_tile2 (c : Dev nD) (t : Fin cfg2.N) (i j : Fin 1152) :
    k2_pay5 (F := Ideal) (xq2 V c t) (xk2 V c t) (ix2 i j)
      = Cert.Spec.aff (xin2 V c) (col (t.val % 8) (by omega) i) (col (t.val / 8) (tile_lt2 t) j) := by
  rw [pay5_apply2]
  unfold Cert.Spec.aff
  refine congrArg (fun s => Ideal.exp (Cert.Spec.bw * s)) (Finset.sum_congr rfl fun a _ => ?_)
  rw [xq2_apply, xk2_apply]

/-- A point of tile coordinates `(q, k)` adds to `num` the k-tile's weighted sums. -/
theorem step_num2 (c : Dev nD) (t : Fin cfg2.N) (q k : Nat) (hq : q < 8) (hqt : t.val / 8 = q) (hkt : t.val % 8 = k)
    (num : Vec Ideal S32x1152 .f32) (a : Fin 32) (j : Fin 1152) :
    k2_pay7 (F := Ideal) (xq2 V c t) (xk2 V c t) num (ix2 a j)
      = num (ix2 a j) + ∑ i : Fin 1152, xin2 V c (ix2 a (colm k i)) * Cert.Spec.aff (xin2 V c) (colm k i) (col q hq j) := by
  subst hqt hkt
  rw [pay7_apply2]
  refine congrArg (num (ix2 a j) + ·) (Finset.sum_congr rfl fun i _ => ?_)
  rw [pay5_tile2, xk2_apply, colm_eq (t.val % 8) (by omega) i]

/-- A point of tile coordinates `(q, k)` adds to `den` the k-tile's affinity sums. -/
theorem step_den2 (c : Dev nD) (t : Fin cfg2.N) (q k : Nat) (hq : q < 8) (hqt : t.val / 8 = q) (hkt : t.val % 8 = k)
    (den : Vec Ideal S1x1152 .f32) (u : Fin 1) (j : Fin 1152) :
    k2_pay6 (F := Ideal) (xq2 V c t) (xk2 V c t) den (ix2 u j)
      = den (ix2 u j) + ∑ i : Fin 1152, Cert.Spec.aff (xin2 V c) (colm k i) (col q hq j) := by
  subst hqt hkt
  rw [pay6_apply2]
  refine congrArg (den (ix2 u j) + ·) (Finset.sum_congr rfl fun i _ => ?_)
  rw [pay5_tile2, colm_eq (t.val % 8) (by omega) i]

/-! ## The accumulators after the points `8 q .. 8 q + k` -/

/-- After the points `8 q .. 8 q + k` the accumulators hold the sums over the tiles `0 .. k`:
    `num` the weighted sums, `den` the affinity sums, against the columns of tile `q`. -/
theorem acc2_apply (c : Dev nD) (q : Nat) (hq : q < 8) : ∀ (k : Nat), k < 8 →
    (∀ (a : Fin 32) (j : Fin 1152), (acc2 (F := Ideal) V c (8 * q + k + 1)).1 (ix2 a j)
        = ∑ T ∈ Finset.range (k + 1), ∑ i : Fin 1152,
            xin2 V c (ix2 a (colm T i)) * Cert.Spec.aff (xin2 V c) (colm T i) (col q hq j))
    ∧ (∀ (u : Fin 1) (j : Fin 1152), (acc2 (F := Ideal) V c (8 * q + k + 1)).2 (ix2 u j)
        = ∑ T ∈ Finset.range (k + 1), ∑ i : Fin 1152, Cert.Spec.aff (xin2 V c) (colm T i) (col q hq j)) := by
  intro k
  induction k with
  | zero =>
    intro _
    -- the first point of the row of tiles: the accumulators start from zero
    have ht : 8 * q + 0 < cfg2.N := by rw [show cfg2.N = 64 from N_2]; omega
    have hqt : (8 * q + 0) / 8 = q := by omega
    have hkt : (8 * q + 0) % 8 = 0 := by omega
    have hs : acc2 (F := Ideal) V c (8 * q + 0 + 1) = _ := acc2_succ_first V c ⟨8 * q + 0, ht⟩ hkt
    rw [hs]
    refine ⟨fun a j => ?_, fun u j => ?_⟩
    · show k2_pay7 (F := Ideal) (xq2 V c ⟨8 * q + 0, ht⟩) (xk2 V c ⟨8 * q + 0, ht⟩) (k2_pay1 (F := Ideal)) (ix2 a j) = _
      rw [step_num2 V c ⟨8 * q + 0, ht⟩ q 0 hq hqt hkt, pay1_apply2, zero_add, Finset.sum_range_one]
    · show k2_pay6 (F := Ideal) (xq2 V c ⟨8 * q + 0, ht⟩) (xk2 V c ⟨8 * q + 0, ht⟩) (k2_pay2 (F := Ideal)) (ix2 u j) = _
      rw [step_den2 V c ⟨8 * q + 0, ht⟩ q 0 hq hqt hkt, pay2_apply2, zero_add, Finset.sum_range_one]
  | succ k ih =>
    intro hk
    obtain ⟨ihn, ihd⟩ := ih (by omega)
    -- a later point of the row: the accumulators take the tile's contribution
    have e : 8 * q + (k + 1) = 8 * q + k + 1 := by omega
    rw [e]
    have ht : 8 * q + k + 1 < cfg2.N := by rw [show cfg2.N = 64 from N_2]; omega
    have hqt : (8 * q + k + 1) / 8 = q := by omega
    have hkt : (8 * q + k + 1) % 8 = k + 1 := by omega
    have hs : acc2 (F := Ideal) V c (8 * q + k + 1 + 1) = _ :=
      acc2_succ_next V c ⟨8 * q + k + 1, ht⟩ (by show (8 * q + k + 1) % 8 ≠ 0; omega)
    rw [hs]
    refine ⟨fun a j => ?_, fun u j => ?_⟩
    · show k2_pay7 (F := Ideal) (xq2 V c ⟨8 * q + k + 1, ht⟩) (xk2 V c ⟨8 * q + k + 1, ht⟩) (acc2 (F := Ideal) V c (8 * q + k + 1)).1 (ix2 a j) = _
      rw [step_num2 V c ⟨8 * q + k + 1, ht⟩ q (k + 1) hq hqt hkt, ihn a j, Finset.sum_range_succ _ (k + 1)]
    · show k2_pay6 (F := Ideal) (xq2 V c ⟨8 * q + k + 1, ht⟩) (xk2 V c ⟨8 * q + k + 1, ht⟩) (acc2 (F := Ideal) V c (8 * q + k + 1)).2 (ix2 u j) = _
      rw [step_den2 V c ⟨8 * q + k + 1, ht⟩ q (k + 1) hq hqt hkt, ihd u j, Finset.sum_range_succ _ (k + 1)]

/-! ## The stored block -/

/-- The block stored at a point with `k = 7` is one mean-shift step of the entry array, read at the
    q-tile's columns. -/
theorem out2_apply (c : Dev nD) (t : Fin cfg2.N) (ht : t.val % 8 = 7) (a : Fin 32) (j : Fin 1152) :
    out2 (F := Ideal) V c t (ix2 a j) = Cert.Spec.stepAt (xin2 V c) a (col (t.val / 8) (tile_lt2 t) j) := by
  obtain ⟨hn, hd⟩ := acc2_apply V c (t.val / 8) (tile_lt2 t) 7 (by decide)
  have e : 8 * (t.val / 8) + 7 + 1 = t.val + 1 := by omega
  rw [e] at hn hd
  -- the eight tiles' sums are the sums over all 9216 columns
  have hnum : (acc2 (F := Ideal) V c (t.val + 1)).1 (ix2 a j)
      = Cert.Spec.num (xin2 V c) a (col (t.val / 8) (tile_lt2 t) j) :=
    (hn a j).trans (sum_tiles fun n => xin2 V c (ix2 a n) * Cert.Spec.aff (xin2 V c) n (col (t.val / 8) (tile_lt2 t) j))
  have hden : (acc2 (F := Ideal) V c (t.val + 1)).2 (ix2 (0 : Fin 1) j)
      = Cert.Spec.den (xin2 V c) (col (t.val / 8) (tile_lt2 t) j) :=
    (hd 0 j).trans (sum_tiles fun n => Cert.Spec.aff (xin2 V c) n (col (t.val / 8) (tile_lt2 t) j))
  unfold out2
  rw [pay8_apply2, hnum, hden, xq2_apply, Cert.Spec.half_mul_div]
  rfl

end Cert.KernelIdeal.Hand

end
-- ==== Proof.KI.Val2.lean ====
import proofs.«135566_j39496519254112_1_alg».proof.Proof.KI.Acc2
import Idealize.ShloMosaic.Lib.Pipeline.Value

/-!
# The result array of a mean-shift step's pallas_call

The output window's 8 blocks (one per q, written back at the points `8 q + 7`) tile the result
array; block q holds one step of the entry array at the columns of tile q; so the array after the
call is one step of the entry array, whole.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec (col)

variable (V : (c : Dev nD) → (b : Ref sig .tc) → Buf (Elt Ideal) ((c : Thread nD τ).loc b))

/-- Where the output window's block sits, decided over the grid: the one block of rows, and the
    block of columns `t / 8`. -/
theorem index2_2 : ∀ t : Fin cfg2.N, win2_2.index t (0 : Fin 2) = 0 ∧ win2_2.index t (1 : Fin 2) = t.val / 8 :=
  (by decide +kernel : ∀ t : Fin grid2.N, win2_2.index t (0 : Fin 2) = 0 ∧ win2_2.index t (1 : Fin 2) = t.val / 8)

/-- What a point with `k = 7` writes back is its block of one step of the entry array: the block's
    entry `(a, j)` sits at row `a` and column `1152 (t / 8) + j` of the array. -/
theorem flushed_eq2 (c : Dev nD) (t : Fin cfg2.N) (hf : (cfg2.win 2).flush t = true) :
    (dat2 (F := Ideal) V c).flushed 2 t = ((cfg2.win 2).blk t).view.read (Elt Ideal) (Cert.Spec.step (xin2 V c)) := by
  have ht : t.val % 8 = 7 := (flush2_2 t).mp hf
  show (cfg2.win 2).cut (grid2.coords t) ((dat2 V c).after 2 t) = _
  rw [after2_2]
  obtain ⟨e0, e1⟩ := index2_2 t
  funext y
  obtain ⟨a, j, rfl⟩ : ∃ (a : Fin 32) (j : Fin 1152), y = ix2 a j := ⟨y 0, y 1, eq_ix2 y⟩
  show out2 V c t (ix2 a j) = Cert.Spec.step (xin2 V c) (((cfg2.win 2).blk t).view.emb (ix2 a j))
  rw [out2_apply V c t ht a j]
  have hemb : ((cfg2.win 2).blk t).view.emb (ix2 a j)
      = ix2 a (col (t.val / 8) (tile_lt2 t) j) := by
    funext b; apply Fin.ext
    match b with
    | ⟨0, _⟩ => show win2_2.index t (0 : Fin 2) * 32 + 1 * a.val = a.val; omega
    | ⟨1, _⟩ => show win2_2.index t (1 : Fin 2) * 1152 + 1 * j.val = t.val / 8 * 1152 + j.val; omega
  rw [hemb, Cert.Spec.step_ix2]

/-- An index of the array is in point `t`'s block iff each coordinate is in the block's range on its axis. -/
theorem mem_blk2 (t : Fin cfg2.N) (p : S32x9216.Idx) :
    p ∈ ((cfg2.win 2).blk t).view.set ↔ ∀ a : Fin 2, win2_2.index t a * S32x1152.size a ≤ (p a).val ∧ (p a).val < win2_2.index t a * S32x1152.size a + S32x1152.size a := by
  show p ∈ ((View.whole main_v5).slice (win2_2.rect t)).set ↔ _
  rw [View.set_slice_whole, Rect.mem_set_unit]
  exact Iff.rfl

/-- Every index of the array is in the block of a point that writes back: column `J` lies in tile
    `J / 1152`, whose block the point `8 (J / 1152) + 7` stores. -/
theorem cover2 (p : S32x9216.Idx) :
    ∃ t : Fin cfg2.N, (cfg2.win 2).flush t = true ∧ p ∈ ((cfg2.win 2).blk t).view.set := by
  have h0 : (p 0).val < 32 := (p 0).isLt
  have h1 : (p 1).val < 9216 := (p 1).isLt
  have hN : cfg2.N = 64 := N_2
  have hlt : 8 * ((p 1).val / 1152) + 7 < cfg2.N := by omega
  obtain ⟨e0, e1⟩ := index2_2 ⟨8 * ((p 1).val / 1152) + 7, hlt⟩
  have e1' : win2_2.index ⟨8 * ((p 1).val / 1152) + 7, hlt⟩ (1 : Fin 2) = (p 1).val / 1152 := by
    rw [e1]; show (8 * ((p 1).val / 1152) + 7) / 8 = (p 1).val / 1152; omega
  refine ⟨⟨8 * ((p 1).val / 1152) + 7, hlt⟩, (flush2_2 _).mpr (by show (8 * ((p 1).val / 1152) + 7) % 8 = 7; omega), ?_⟩
  rw [mem_blk2]
  intro a
  match a with
  | ⟨0, _⟩ =>
    show win2_2.index ⟨8 * ((p 1).val / 1152) + 7, hlt⟩ (0 : Fin 2) * 32 ≤ (p 0).val
      ∧ (p 0).val < win2_2.index ⟨8 * ((p 1).val / 1152) + 7, hlt⟩ (0 : Fin 2) * 32 + 32
    omega
  | ⟨1, _⟩ =>
    show win2_2.index ⟨8 * ((p 1).val / 1152) + 7, hlt⟩ (1 : Fin 2) * 1152 ≤ (p 1).val
      ∧ (p 1).val < win2_2.index ⟨8 * ((p 1).val / 1152) + 7, hlt⟩ (1 : Fin 2) * 1152 + 1152
    omega

/-- After the call the result array is one mean-shift step of the entry array. -/
theorem arr_eq2 (c : Dev nD) :
    ((dat2 (F := Ideal) V c).arrAt 2 cfg2.N : S32x9216.Idx → EReal) = Cert.Spec.step (xin2 V c) :=
  (dat2 (F := Ideal) V c).arrAt_eq_of_cover 2 (Cert.Spec.step (xin2 V c)) (fun t hf => flushed_eq2 V c t hf) cover2

end Cert.KernelIdeal.Hand

end
-- ==== Proof.RefStep.lean ====
import proofs.«135566_j39496519254112_1_alg».proof.Proof.Gen.ReferenceIdeal.Read
import proofs.«135566_j39496519254112_1_alg».proof.Proof.Spec

/-!
# The reference's three iterations are three mean-shift steps

The reference applies the same eleven array operations three times: the Gram matrix of the points
(a transpose and a contraction over the 32 coordinates), its multiple by the bandwidth, the
exponential, the column sums (a sum over the first axis started at zero), the contraction of the
points with the exponentiated matrix, the halving, the division by the column sums broadcast along
the coordinates, and the addition of half the input. Read index by index, each iteration's result at
coordinate `a` of point `j` is `(1/2 * num a j) / den j + 1/2 * x a j`: one step of the
specification applied to the iteration's input. No sum is evaluated; the sums are only matched term
by term.
-/

noncomputable section

open scoped BigOperators

namespace Cert.ReferenceIdeal.RefValue

open Cert.ReferenceIdeal Idealize.ShloMosaic Idealize.ShloMosaic.ValueIdx

/-! ## Iteration 1 -/

/-- The exponentiated, scaled Gram matrix of iteration 1 is the affinity of its input. -/
theorem aff1 (x0 : (⟨S1x32x96x96, .f32⟩ : BufTy).Contents (Elt Ideal)) (i j : Fin 9216) :
    Read.val_main_v5 (F := Ideal) x0 (ix2 i j) = Cert.Spec.aff (Read.val_main_v0 (F := Ideal) x0) i j := by
  rw [Read.val_main_v5_apply, Read.val_main_v4_apply, Read.val_main_v3_apply, Read.val_main_cst_apply,
    Read.val_main_v2_apply]
  simp only [Read.val_main_v1_apply]
  -- entry (i, k) of the transpose is entry (k, i) of the array; the right factor is entry (k, j)
  have el : ∀ k : Fin 32, Read.idx_main_v1 (Read.lidx_main_v2 (ix2 i j) k) = ix2 k i := fun k =>
    funext fun b => Fin.ext (by match b with | ⟨0, _⟩ => rfl | ⟨1, _⟩ => rfl)
  have er : ∀ k : Fin 32, Read.ridx_main_v2 (ix2 i j) k = ix2 k j := fun k =>
    funext fun b => Fin.ext (by match b with | ⟨0, _⟩ => rfl | ⟨1, _⟩ => rfl)
  simp only [el, er, Ideal.mulf_def, Ideal.hostUnary_exp_def, Ideal.ofBits_def]
  unfold Cert.Spec.aff Cert.Spec.bw
  rfl

/-- The column sums of iteration 1: the zero initial value drops out. -/
theorem den1 (x0 : (⟨S1x32x96x96, .f32⟩ : BufTy).Contents (Elt Ideal)) (j : Fin 9216) :
    Read.val_main_v6 (F := Ideal) x0 (ix1 j) = Cert.Spec.den (Read.val_main_v0 (F := Ideal) x0) j := by
  rw [Read.val_main_v6_apply, Read.val_main_cst_0_apply, Ideal.ofBits_def, Ideal.ofBits_zero_f32, zero_add]
  unfold Cert.Spec.den
  refine Finset.sum_congr rfl fun k _ => ?_
  rw [show Read.idx_main_v6 (ix1 j) k = ix2 k j from funext fun b => Fin.ext (by match b with | ⟨0, _⟩ => rfl | ⟨1, _⟩ => rfl)]
  exact aff1 x0 k j

/-- The affinity-weighted sums of iteration 1. -/
theorem num1 (x0 : (⟨S1x32x96x96, .f32⟩ : BufTy).Contents (Elt Ideal)) (a : Fin 32) (j : Fin 9216) :
    Read.val_main_v7 (F := Ideal) x0 (ix2 a j) = Cert.Spec.num (Read.val_main_v0 (F := Ideal) x0) a j := by
  rw [Read.val_main_v7_apply]
  unfold Cert.Spec.num
  refine Finset.sum_congr rfl fun k _ => ?_
  rw [show Read.lidx_main_v7 (ix2 a j) k = ix2 a k from funext fun b => Fin.ext (by match b with | ⟨0, _⟩ => rfl | ⟨1, _⟩ => rfl),
    show Read.ridx_main_v7 (ix2 a j) k = ix2 k j from funext fun b => Fin.ext (by match b with | ⟨0, _⟩ => rfl | ⟨1, _⟩ => rfl),
    aff1]

/-- Iteration 1 of the reference is one mean-shift step of its input. -/
theorem ref_iter1 (x0 : (⟨S1x32x96x96, .f32⟩ : BufTy).Contents (Elt Ideal)) :
    Read.val_main_v15 (F := Ideal) x0 = Cert.Spec.step (Read.val_main_v0 (F := Ideal) x0) := by
  funext i
  obtain ⟨a, j, rfl⟩ : ∃ (a : Fin 32) (j : Fin 9216), i = ix2 a j := ⟨i 0, i 1, eq_ix2 i⟩
  rw [Read.val_main_v15_apply, Read.val_main_v12_apply, Read.val_main_v9_apply, Read.val_main_v8_apply,
    Read.val_main_cst_1_apply, Read.val_main_v11_apply, Read.val_main_v10_apply, Read.val_main_v14_apply,
    Read.val_main_v13_apply, Read.val_main_cst_2_apply,
    show Read.idx_main_v10 (Read.idx_main_v11 (ix2 a j)) = ix1 j from
      funext fun b => Fin.ext (by match b with | ⟨0, _⟩ => rfl),
    num1, den1, Cert.Spec.step_ix2]
  simp only [Ideal.addf_def, Ideal.mulf_def, Ideal.hostDivf_def, Ideal.ofBits_def]
  unfold Cert.Spec.stepAt Cert.Spec.half
  rfl

/-! ## Iteration 2 -/

/-- The exponentiated, scaled Gram matrix of iteration 2 is the affinity of its input. -/
theorem aff2 (x0 : (⟨S1x32x96x96, .f32⟩ : BufTy).Contents (Elt Ideal)) (i j : Fin 9216) :
    Read.val_main_v21 (F := Ideal) x0 (ix2 i j) = Cert.Spec.aff (Read.val_main_v15 (F := Ideal) x0) i j := by
  rw [Read.val_main_v21_apply, Read.val_main_v20_apply, Read.val_main_v19_apply, Read.val_main_cst_3_apply,
    Read.val_main_v18_apply]
  simp only [Read.val_main_v17_apply]
  -- entry (i, k) of the transpose is entry (k, i) of the array; the right factor is entry (k, j)
  have el : ∀ k : Fin 32, Read.idx_main_v17 (Read.lidx_main_v18 (ix2 i j) k) = ix2 k i := fun k =>
    funext fun b => Fin.ext (by match b with | ⟨0, _⟩ => rfl | ⟨1, _⟩ => rfl)
  have er : ∀ k : Fin 32, Read.ridx_main_v18 (ix2 i j) k = ix2 k j := fun k =>
    funext fun b => Fin.ext (by match b with | ⟨0, _⟩ => rfl | ⟨1, _⟩ => rfl)
  simp only [el, er, Ideal.mulf_def, Ideal.hostUnary_exp_def, Ideal.ofBits_def]
  unfold Cert.Spec.aff Cert.Spec.bw
  rfl

/-- The column sums of iteration 2: the zero initial value drops out. -/
theorem den2 (x0 : (⟨S1x32x96x96, .f32⟩ : BufTy).Contents (Elt Ideal)) (j : Fin 9216) :
    Read.val_main_v22 (F := Ideal) x0 (ix1 j) = Cert.Spec.den (Read.val_main_v15 (F := Ideal) x0) j := by
  rw [Read.val_main_v22_apply, Read.val_main_cst_4_apply, Ideal.ofBits_def, Ideal.ofBits_zero_f32, zero_add]
  unfold Cert.Spec.den
  refine Finset.sum_congr rfl fun k _ => ?_
  rw [show Read.idx_main_v22 (ix1 j) k = ix2 k j from funext fun b => Fin.ext (by match b with | ⟨0, _⟩ => rfl | ⟨1, _⟩ => rfl)]
  exact aff2 x0 k j

/-- The affinity-weighted sums of iteration 2. -/
theorem num2 (x0 : (⟨S1x32x96x96, .f32⟩ : BufTy).Contents (Elt Ideal)) (a : Fin 32) (j : Fin 9216) :
    Read.val_main_v23 (F := Ideal) x0 (ix2 a j) = Cert.Spec.num (Read.val_main_v15 (F := Ideal) x0) a j := by
  rw [Read.val_main_v23_apply]
  unfold Cert.Spec.num
  refine Finset.sum_congr rfl fun k _ => ?_
  rw [show Read.lidx_main_v23 (ix2 a j) k = ix2 a k from funext fun b => Fin.ext (by match b with | ⟨0, _⟩ => rfl | ⟨1, _⟩ => rfl),
    show Read.ridx_main_v23 (ix2 a j) k = ix2 k j from funext fun b => Fin.ext (by match b with | ⟨0, _⟩ => rfl | ⟨1, _⟩ => rfl),
    aff2]

/-- Iteration 2 of the reference is one mean-shift step of its input. -/
theorem ref_iter2 (x0 : (⟨S1x32x96x96, .f32⟩ : BufTy).Contents (Elt Ideal)) :
    Read.val_main_v31 (F := Ideal) x0 = Cert.Spec.step (Read.val_main_v15 (F := Ideal) x0) := by
  funext i
  obtain ⟨a, j, rfl⟩ : ∃ (a : Fin 32) (j : Fin 9216), i = ix2 a j := ⟨i 0, i 1, eq_ix2 i⟩
  rw [Read.val_main_v31_apply, Read.val_main_v28_apply, Read.val_main_v25_apply, Read.val_main_v24_apply,
    Read.val_main_cst_5_apply, Read.val_main_v27_apply, Read.val_main_v26_apply, Read.val_main_v30_apply,
    Read.val_main_v29_apply, Read.val_main_cst_6_apply,
    show Read.idx_main_v26 (Read.idx_main_v27 (ix2 a j)) = ix1 j from
      funext fun b => Fin.ext (by match b with | ⟨0, _⟩ => rfl),
    num2, den2, Cert.Spec.step_ix2]
  simp only [Ideal.addf_def, Ideal.mulf_def, Ideal.hostDivf_def, Ideal.ofBits_def]
  unfold Cert.Spec.stepAt Cert.Spec.half
  rfl

/-! ## Iteration 3 -/

/-- The exponentiated, scaled Gram matrix of iteration 3 is the affinity of its input. -/
theorem aff3 (x0 : (⟨S1x32x96x96, .f32⟩ : BufTy).Contents (Elt Ideal)) (i j : Fin 9216) :
    Read.val_main_v37 (F := Ideal) x0 (ix2 i j) = Cert.Spec.aff (Read.val_main_v31 (F := Ideal) x0) i j := by
  rw [Read.val_main_v37_apply, Read.val_main_v36_apply, Read.val_main_v35_apply, Read.val_main_cst_7_apply,
    Read.val_main_v34_apply]
  simp only [Read.val_main_v33_apply]
  -- entry (i, k) of the transpose is entry (k, i) of the array; the right factor is entry (k, j)
  have el : ∀ k : Fin 32, Read.idx_main_v33 (Read.lidx_main_v34 (ix2 i j) k) = ix2 k i := fun k =>
    funext fun b => Fin.ext (by match b with | ⟨0, _⟩ => rfl | ⟨1, _⟩ => rfl)
  have er : ∀ k : Fin 32, Read.ridx_main_v34 (ix2 i j) k = ix2 k j := fun k =>
    funext fun b => Fin.ext (by match b with | ⟨0, _⟩ => rfl | ⟨1, _⟩ => rfl)
  simp only [el, er, Ideal.mulf_def, Ideal.hostUnary_exp_def, Ideal.ofBits_def]
  unfold Cert.Spec.aff Cert.Spec.bw
  rfl

/-- The column sums of iteration 3: the zero initial value drops out. -/
theorem den3 (x0 : (⟨S1x32x96x96, .f32⟩ : BufTy).Contents (Elt Ideal)) (j : Fin 9216) :
    Read.val_main_v38 (F := Ideal) x0 (ix1 j) = Cert.Spec.den (Read.val_main_v31 (F := Ideal) x0) j := by
  rw [Read.val_main_v38_apply, Read.val_main_cst_8_apply, Ideal.ofBits_def, Ideal.ofBits_zero_f32, zero_add]
  unfold Cert.Spec.den
  refine Finset.sum_congr rfl fun k _ => ?_
  rw [show Read.idx_main_v38 (ix1 j) k = ix2 k j from funext fun b => Fin.ext (by match b with | ⟨0, _⟩ => rfl | ⟨1, _⟩ => rfl)]
  exact aff3 x0 k j

/-- The affinity-weighted sums of iteration 3. -/
theorem num3 (x0 : (⟨S1x32x96x96, .f32⟩ : BufTy).Contents (Elt Ideal)) (a : Fin 32) (j : Fin 9216) :
    Read.val_main_v39 (F := Ideal) x0 (ix2 a j) = Cert.Spec.num (Read.val_main_v31 (F := Ideal) x0) a j := by
  rw [Read.val_main_v39_apply]
  unfold Cert.Spec.num
  refine Finset.sum_congr rfl fun k _ => ?_
  rw [show Read.lidx_main_v39 (ix2 a j) k = ix2 a k from funext fun b => Fin.ext (by match b with | ⟨0, _⟩ => rfl | ⟨1, _⟩ => rfl),
    show Read.ridx_main_v39 (ix2 a j) k = ix2 k j from funext fun b => Fin.ext (by match b with | ⟨0, _⟩ => rfl | ⟨1, _⟩ => rfl),
    aff3]

/-- Iteration 3 of the reference is one mean-shift step of its input. -/
theorem ref_iter3 (x0 : (⟨S1x32x96x96, .f32⟩ : BufTy).Contents (Elt Ideal)) :
    Read.val_main_v47 (F := Ideal) x0 = Cert.Spec.step (Read.val_main_v31 (F := Ideal) x0) := by
  funext i
  obtain ⟨a, j, rfl⟩ : ∃ (a : Fin 32) (j : Fin 9216), i = ix2 a j := ⟨i 0, i 1, eq_ix2 i⟩
  rw [Read.val_main_v47_apply, Read.val_main_v44_apply, Read.val_main_v41_apply, Read.val_main_v40_apply,
    Read.val_main_cst_9_apply, Read.val_main_v43_apply, Read.val_main_v42_apply, Read.val_main_v46_apply,
    Read.val_main_v45_apply, Read.val_main_cst_10_apply,
    show Read.idx_main_v42 (Read.idx_main_v43 (ix2 a j)) = ix1 j from
      funext fun b => Fin.ext (by match b with | ⟨0, _⟩ => rfl),
    num3, den3, Cert.Spec.step_ix2]
  simp only [Ideal.addf_def, Ideal.mulf_def, Ideal.hostDivf_def, Ideal.ofBits_def]
  unfold Cert.Spec.stepAt Cert.Spec.half
  rfl

end Cert.ReferenceIdeal.RefValue

end
-- ==== Proof.KI.Final.lean ====
import proofs.«135566_j39496519254112_1_alg».proof.Proof.KI.Fold
import proofs.«135566_j39496519254112_1_alg».proof.Proof.KI.ArgKept
import proofs.«135566_j39496519254112_1_alg».proof.Proof.KI.Val0
import proofs.«135566_j39496519254112_1_alg».proof.Proof.KI.Val1
import proofs.«135566_j39496519254112_1_alg».proof.Proof.KI.Val2
import proofs.«135566_j39496519254112_1_alg».proof.Proof.RefStep
import Idealize.ShloMosaic.Lib.StableHlo.Run

/-!
# The two results, at the extended reals

Each pallas_call leaves one mean-shift step of its entry array (`arr_eq0`, `arr_eq1`, `arr_eq2`), and the
host operations between and after them only reshape, add a unit axis and stack: the same
operations the reference applies to its three iterates. So both results are the reference's.
-/

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ)

/-- The argument array as launched. -/
abbrev arg (c : Dev nD) : S1x32x96x96.Idx → EReal := m ((c : Thread nD τ).loc main_arg0)

/-! ## The host stretches, read at the buffers they write -/

/-- A concatenation's three operands, each read at its own buffer. -/
theorem nary3_result {x a b y : Ref sig .tc}
    (f : ((k : Fin 3) → ((![x, a, b] : Fin 3 → Ref sig .tc) k).ty.Contents (Elt Ideal)) → y.ty.Contents (Elt Ideal)) (hxs hy)
    (G : Valuation τ sig (Elt Ideal)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The first call's entry array is the reference's reshaped argument. -/
theorem U1_v0 (c : Dev nD) :
    (U1 m c main_v0 : S32x9216.Idx → EReal) = Cert.ReferenceIdeal.Read.val_main_v0 (F := Ideal) (arg m c) := by
  show StableHlo.after hostOps0 (U0 m c) (Proc.devRef .tc main_v0) = _
  after_results
  rfl

theorem U3_v2 (c : Dev nD) :
    (U3 m c main_v2 : S32x96x96.Idx → EReal) = shapeCast S32x96x96 (U2 m c main_v1 : S32x9216.Idx → EReal) shapeCasts_S32x9216_S32x96x96 := by
  show StableHlo.after hostOps1 (U2 m c) (Proc.devRef .tc main_v2) = _
  after_results
  rfl

theorem U5_v4 (c : Dev nD) :
    (U5 m c main_v4 : S32x96x96.Idx → EReal) = shapeCast S32x96x96 (U4 m c main_v3 : S32x9216.Idx → EReal) shapeCasts_S32x9216_S32x96x96 := by
  show StableHlo.after hostOps2 (U4 m c) (Proc.devRef .tc main_v4) = _
  after_results
  rfl

theorem U7_v7_cast (c : Dev nD) :
    (U7 m c main_v7 : S32x96x96.Idx → EReal) = shapeCast S32x96x96 (U6 m c main_v5 : S32x9216.Idx → EReal) shapeCasts_S32x9216_S32x96x96 := by
  show StableHlo.after hostOps3 (U6 m c) (Proc.devRef .tc main_v7) = _
  after_results
  rfl

theorem U7_v11_cat (c : Dev nD) :
    (U7 m c main_v11 : S3x32x96x96.Idx → EReal) =
      concatenate S3x32x96x96 0
        [⟨S1x32x96x96, broadcastInDim S1x32x96x96 ![1, 2, 3] bcast_S32x96x96_S1x32x96x96_1_2_3 (U6 m c main_v2 : S32x96x96.Idx → EReal)⟩,
         ⟨S1x32x96x96, broadcastInDim S1x32x96x96 ![1, 2, 3] bcast_S32x96x96_S1x32x96x96_1_2_3 (U6 m c main_v4 : S32x96x96.Idx → EReal)⟩,
         ⟨S1x32x96x96, broadcastInDim S1x32x96x96 ![1, 2, 3] bcast_S32x96x96_S1x32x96x96_1_2_3
            (shapeCast S32x96x96 (U6 m c main_v5 : S32x9216.Idx → EReal) shapeCasts_S32x9216_S32x96x96)⟩]
        concatenates_S1x32x96x96_S1x32x96x96_S1x32x96x96_S3x32x96x96_d0 := by
  show StableHlo.after hostOps3 (U6 m c) (Proc.devRef .tc main_v11) = _
  simp only [after_cons, after_nil]
  rw [nary3_result]
  repeat (first
    | rw [unary_result] | rw [reshape_result]
    | (rw [unary_result_ne]; rotate_left; decide)
    | (rw [reshape_result_ne]; rotate_left; decide))
  rfl

/-! ## The calls: each result array is one step of the entry array -/

theorem U2_v1 (c : Dev nD) :
    (U2 m c main_v1 : S32x9216.Idx → EReal) = Cert.Spec.step (U1 m c main_v0 : S32x9216.Idx → EReal) := by
  show Function.update (U1 m c) (Proc.devRef .tc main_v1) (Arr0 (U1 m) c) (Proc.devRef .tc main_v1) = _
  rw [Function.update_self]
  unfold Arr0
  exact arr_eq0 (atTc (U1 m)) c

theorem U4_v3 (c : Dev nD) :
    (U4 m c main_v3 : S32x9216.Idx → EReal) = Cert.Spec.step (U3 m c main_v1 : S32x9216.Idx → EReal) := by
  show Function.update (U3 m c) (Proc.devRef .tc main_v3) (Arr1 (U3 m) c) (Proc.devRef .tc main_v3) = _
  rw [Function.update_self]
  unfold Arr1
  exact arr_eq1 (atTc (U3 m)) c

theorem U6_v5 (c : Dev nD) :
    (U6 m c main_v5 : S32x9216.Idx → EReal) = Cert.Spec.step (U5 m c main_v3 : S32x9216.Idx → EReal) := by
  show Function.update (U5 m c) (Proc.devRef .tc main_v5) (Arr2 (U5 m) c) (Proc.devRef .tc main_v5) = _
  rw [Function.update_self]
  unfold Arr2
  exact arr_eq2 (atTc (U5 m)) c

/-! ## The three iterates are the reference's -/

theorem iter1 (c : Dev nD) :
    (U2 m c main_v1 : S32x9216.Idx → EReal) = Cert.ReferenceIdeal.Read.val_main_v15 (F := Ideal) (arg m c) := by
  rw [U2_v1, U1_v0]
  exact (Cert.ReferenceIdeal.RefValue.ref_iter1 _).symm

theorem iter2 (c : Dev nD) :
    (U4 m c main_v3 : S32x9216.Idx → EReal) = Cert.ReferenceIdeal.Read.val_main_v31 (F := Ideal) (arg m c) := by
  rw [U4_v3, U3_of m c main_v1 (by decide), iter1]
  exact (Cert.ReferenceIdeal.RefValue.ref_iter2 _).symm

theorem iter3 (c : Dev nD) :
    (U6 m c main_v5 : S32x9216.Idx → EReal) = Cert.ReferenceIdeal.Read.val_main_v47 (F := Ideal) (arg m c) := by
  rw [U6_v5, U5_of m c main_v3 (by decide), iter2]
  exact (Cert.ReferenceIdeal.RefValue.ref_iter3 _).symm

/-- The first iterate, reshaped, as the last stretch finds it. -/
theorem U6_v2 (c : Dev nD) :
    (U6 m c main_v2 : S32x96x96.Idx → EReal) = Cert.ReferenceIdeal.Read.val_main_v16 (F := Ideal) (arg m c) := by
  rw [U6_of m c main_v2 (by decide), U5_of m c main_v2 (by decide), U4_of m c main_v2 (by decide), U3_v2, iter1]
  rfl

/-- The second iterate, reshaped, as the last stretch finds it. -/
theorem U6_v4 (c : Dev nD) :
    (U6 m c main_v4 : S32x96x96.Idx → EReal) = Cert.ReferenceIdeal.Read.val_main_v32 (F := Ideal) (arg m c) := by
  rw [U6_of m c main_v4 (by decide), U5_v4, iter2]
  rfl

/-- The first result (the last iterate, reshaped) is the reference's. -/
theorem U7_v7 (c : Dev nD) :
    (U7 m c main_v7 : S32x96x96.Idx → EReal) = Cert.ReferenceIdeal.Read.val_main_v49 (F := Ideal) (arg m c) := by
  rw [U7_v7_cast, iter3]
  rfl

/-- The second result (the three iterates, stacked) is the reference's. -/
theorem U7_v11 (c : Dev nD) :
    (U7 m c main_v11 : S3x32x96x96.Idx → EReal) = Cert.ReferenceIdeal.Read.val_main_v53 (F := Ideal) (arg m c) := by
  rw [U7_v11_cat, U6_v2, U6_v4, iter3]
  rfl

end Cert.KernelIdeal.Hand

end
-- ==== Proof.lean ====
/-
  Three mean-shift steps as three pallas_calls, against the same three steps on the host.

  One step moves every point `x_j` (a column of the 32 x 9216 array) half way to the mean of all points
  weighted by the affinities `exp (3 <x_i, x_j>)`: `x_j <- 1/2 * (sum_i x_i K_ij) / (sum_i K_ij) + 1/2 * x_j`.
  The kernel never builds the 9216 x 9216 affinity matrix: a grid point (q, k) forms the 1152 x 1152 tile of
  affinities between the k-th and the q-th tile of columns, adds its column sums and its weighted sums to two
  accumulators kept in scratch (reset at k = 0), and at k = 7 stores the q-th tile of the result. Over the
  extended reals the eight partial sums add up to the whole sums (addition is associative and commutative
  there), and the kernel's `1/2 * (n / d)` is the host's `(1/2 * n) / d` for every `n` and `d`, zero and the
  infinities included, so no finiteness is used. Each call therefore leaves `Cert.Spec.step` of its entry
  array, the reference's iterates are the same function of theirs, and the reshapes, unit axes and the
  stacking after them are the same operations on both sides.

  The frames: @main is seven items (host stretch, call, host stretch, call, host stretch, call, host
  stretch); every weakly fair execution runs them to the end from buffer contents that are a fold of the
  launch memory, in which no item writes the argument.
-/
import proofs.«135566_j39496519254112_1_alg».proof.Defs
import proofs.«135566_j39496519254112_1_alg».proof.Proof.Gen.Kernel
import proofs.«135566_j39496519254112_1_alg».proof.Proof.Gen.Kernel.Skeleton
import proofs.«135566_j39496519254112_1_alg».proof.Proof.Gen.Kernel.Launch
import proofs.«135566_j39496519254112_1_alg».proof.Proof.Gen.Kernel.Regions
import proofs.«135566_j39496519254112_1_alg».proof.Proof.Gen.Kernel.Points
import proofs.«135566_j39496519254112_1_alg».proof.Proof.Gen.KernelIdeal
import proofs.«135566_j39496519254112_1_alg».proof.Proof.Gen.KernelIdeal.Skeleton
import proofs.«135566_j39496519254112_1_alg».proof.Proof.Gen.KernelIdeal.Launch
import proofs.«135566_j39496519254112_1_alg».proof.Proof.Gen.KernelIdeal.Regions
import proofs.«135566_j39496519254112_1_alg».proof.Proof.Gen.KernelIdeal.Points
import proofs.«135566_j39496519254112_1_alg».proof.Proof.Gen.ReferenceIdeal
import proofs.«135566_j39496519254112_1_alg».proof.Proof.Gen.Pre_finite_inputs
import proofs.«135566_j39496519254112_1_alg».proof.Proof.Gen.ReferenceIdeal.Run
import proofs.«135566_j39496519254112_1_alg».proof.Proof.Gen.ReferenceIdeal.Read
import proofs.«135566_j39496519254112_1_alg».proof.Proof.KB.Run
import proofs.«135566_j39496519254112_1_alg».proof.Proof.KB.ArgKept
import proofs.«135566_j39496519254112_1_alg».proof.Proof.KI.Run
import proofs.«135566_j39496519254112_1_alg».proof.Proof.KI.ArgKept
import proofs.«135566_j39496519254112_1_alg».proof.Proof.KI.Final
import Idealize.ShloMosaic.Adequacy
import Idealize.ShloMosaic.Init

noncomputable section

namespace Cert.Proof

open Idealize.ShloMosaic Idealize.ShloMosaic.TcCoe Idealize.SL.Sem

/-- The word-level kernel runs to the end and leaves its argument as launched. -/
theorem frame_k : Cert.frame_Kernel (hKernel := Cert.Kernel.Gen.facts) (hPre_finite_inputs := Cert.Pre_finite_inputs.Gen.facts) := fun m ρ _ =>
  (θ_run Cert.Kernel.defs _ _).mono
    (fun r h c => (h c _ (Cert.Kernel.Hand.mem_uc Cert.Kernel.main_arg0 (by decide))).trans (Cert.Kernel.Hand.U7_arg0 m c))
    (Cert.Kernel.Hand.run_main (F := Bits) m ρ)

/-- So does the idealized kernel. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono
    (fun r h c => (h c _ (Cert.KernelIdeal.Hand.mem_uc Cert.KernelIdeal.main_arg0 (by decide))).trans (Cert.KernelIdeal.Hand.U7_arg0 m c))
    (Cert.KernelIdeal.Hand.run_main (F := Ideal) m ρ)

/-- The reference is host operations only: its run with the results dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2) (Cert.ReferenceIdeal.Value.run (F := Ideal) m ρ)

/-- Both programs end with the reference's two stages of the argument: the kernel's by the fold of its buffer
    contents (`U7_v7`, `U7_v11`), the reference's by its run read back. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.U7 m c Cert.KernelIdeal.main_v7, fun c => Cert.KernelIdeal.Hand.U7 m c Cert.KernelIdeal.main_v11, ?_, ?_⟩
  · exact (θ_run Cert.KernelIdeal.defs _ _).mono
      (fun r h c => ⟨h c _ (Cert.KernelIdeal.Hand.mem_uc Cert.KernelIdeal.main_v7 (by decide)),
        h c _ (Cert.KernelIdeal.Hand.mem_uc Cert.KernelIdeal.main_v11 (by decide)),
        (h c _ (Cert.KernelIdeal.Hand.mem_uc Cert.KernelIdeal.main_arg0 (by decide))).trans (Cert.KernelIdeal.Hand.U7_arg0 m c)⟩)
      (Cert.KernelIdeal.Hand.run_main (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v49_eq, hagree c]
      exact (Cert.KernelIdeal.Hand.U7_v7 m c).symm
    · rw [Cert.ReferenceIdeal.Read.val_main_v53_eq, hagree c]
      exact (Cert.KernelIdeal.Hand.U7_v11 m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
